-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x3 : Shape := ⟨3, ![4, 1024, 3]⟩
abbrev S4x8192x3 : Shape := ⟨3, ![4, 8192, 3]⟩
abbrev S_ : Shape := ⟨0, ![]⟩

class Facts : Prop where
  bcast_S_S4x1024x3 : S_.BroadcastsInDim S4x1024x3 (![] : Fin 0 → Fin S4x1024x3.rank)
  reducesTo_S4x1024x3_S_d0_1_2 : S4x1024x3.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_

variable [Facts]

def fn_part1 {F : FTy → Type} [FloatOps F] (main_v13 : IVec S_ 1) (main_v16 : IVec S4x1024x3 1) : IVec S_ 1 :=
  let main_c_5 : IVec S_ 1 := constantI S_ 1 1#1
  let main_v17 : IVec S_ 1 := (fun x v => Host.reduce IntOp.andi x v reducesTo_S4x1024x3_S_d0_1_2 h_S_) main_v16 main_c_5
  let main_v18 : IVec S_ 1 := andi main_v13 main_v17
  main_v18

def fn {F : FTy → Type} [FloatOps F] (main_arg0 : FVec F S4x1024x3 .f32) (main_arg1 : FVec F S4x8192x3 .f32) (main_arg2 : FVec F S4x8192x3 .f32) (main_arg3 : FVec F S4x1024x3 .f32) : IVec S_ 1 :=
  let main_v0 : FVec F S4x1024x3 .f32 := Host.absf main_arg0
  let main_cst : FVec F S_ .f32 := constant S_ .f32 0x7F800000#32
  let main_v1 : FVec F S4x1024x3 .f32 := broadcastInDim S4x1024x3 ![] bcast_S_S4x1024x3 main_cst
  let main_v2 : IVec S4x1024x3 1 := cmpf .olt main_v0 main_v1
  let main_c : IVec S_ 1 := constantI S_ 1 1#1
  let main_v3 : IVec S_ 1 := (fun x v => Host.reduce IntOp.andi x v reducesTo_S4x1024x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S4x8192x3 .f32 := Host.absf main_arg2
  let main_cst_2 : FVec F S_ .f32 := constant S_ .f32 0x7F800000#32
  let main_v10 : FVec F S4x8192x3 .f32 := broadcastInDim S4x8192x3 ![] bcast_S_S4x8192x3 main_cst_2
  let main_v11 : IVec S4x8192x3 1 := cmpf .olt main_v9 main_v10
  let main_c_3 : IVec S_ 1 := constantI S_ 1 1#1
  let main_v12 : IVec S_ 1 := (fun x v => Host.reduce IntOp.andi x v reducesTo_S4x8192x3_S_d0_1_2 h_S_) main_v11 main_c_3
  let main_v13 : IVec S_ 1 := andi main_v8 main_v12
  let main_v14 : FVec F S4x1024x3 .f32 := Host.absf main_arg3
  let main_cst_4 : FVec F S_ .f32 := constant S_ .f32 0x7F800000#32
  let main_v15 : FVec F S4x1024x3 .f32 := broadcastInDim S4x1024x3 ![] bcast_S_S4x1024x3 main_cst_4
  let main_v16 : IVec S4x1024x3 1 := cmpf .olt main_v14 main_v15
  fn_part1 (F := F) main_v13 main_v16
-- ==== Kernel.lean ====
abbrev S4x1024x3 : Shape := ⟨3, ![4, 1024, 3]⟩
abbrev S4x8192x3 : Shape := ⟨3, ![4, 8192, 3]⟩
abbrev S4x8192 : Shape := ⟨2, ![4, 8192]⟩
abbrev S4x512x3 : Shape := ⟨3, ![4, 512, 3]⟩
abbrev S4x1024 : Shape := ⟨2, ![4, 1024]⟩
abbrev S4x1024x1 : Shape := ⟨3, ![4, 1024, 1]⟩
abbrev S4x512 : Shape := ⟨2, ![4, 512]⟩
abbrev S4x1x512 : Shape := ⟨3, ![4, 1, 512]⟩
abbrev S4x1024x512 : Shape := ⟨3, ![4, 1024, 512]⟩
abbrev S_ : Shape := ⟨0, ![]⟩
abbrev S1x1 : Shape := ⟨2, ![1, 1]⟩
abbrev S4 : Shape := ⟨1, ![4]⟩
abbrev S4x1 : Shape := ⟨2, ![4, 1]⟩
abbrev S1 : Shape := ⟨1, ![1]⟩

abbrev nBuf : Space → Nat
  | .hbm => 21
  | .vmem => 17
  | .smem => 0
  | _ => 0

abbrev bufTy : (tb : Table) → Fin (tcTables nBuf tb) → BufTy
  | .hbm, ⟨0, _⟩ => ⟨S4x1024x3, .f32⟩
  | .hbm, ⟨1, _⟩ => ⟨S4x8192x3, .f32⟩
  | .hbm, ⟨2, _⟩ => ⟨S4x8192x3, .f32⟩
  | .hbm, ⟨3, _⟩ => ⟨S4x1024x3, .f32⟩
  | .hbm, ⟨4, _⟩ => ⟨S4x8192, .f32⟩
  | .hbm, ⟨5, _⟩ => ⟨S_, .f32⟩
  | .hbm, ⟨6, _⟩ => ⟨S_, .f32⟩
  | .hbm, ⟨7, _⟩ => ⟨S4x8192, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S4x1024x3, .f32⟩
  | .local _ .vmem, ⟨1, _⟩ => ⟨S4x1024x3, .f32⟩
  | .local _ .vmem, ⟨2, _⟩ => ⟨S4x512x3, .f32⟩
  | .local _ .vmem, ⟨3, _⟩ => ⟨S4x512x3, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | .local _ .vmem, ⟨7, _⟩ => ⟨S4x1024x3, .f32⟩
  | .local _ .vmem, ⟨8, _⟩ => ⟨S4x1024x3, .f32⟩
  | .local _ .vmem, ⟨9, _⟩ => ⟨S4x512x3, .f32⟩
  | .local _ .vmem, ⟨10, _⟩ => ⟨S4x512x3, .f32⟩
  | .local _ .vmem, ⟨11, _⟩ => ⟨S4x1024, .f32⟩
  | .local _ .vmem, ⟨12, _⟩ => ⟨S4x1024, .f32⟩
  | .local _ .vmem, ⟨13, _⟩ => ⟨S4x1024, .f32⟩
  | .local _ .vmem, ⟨14, _⟩ => ⟨S4x1024x3, .f32⟩
  | .local _ .vmem, ⟨15, _⟩ => ⟨S4x1024x3, .f32⟩
  | .local _ .vmem, ⟨16, _⟩ => ⟨S1x1, .f32⟩
  | _, _ => ⟨S4x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_cst_2 : Ref sig .tc := ⟨.hbm, 12, rfl⟩
abbrev main_v5 : Ref sig .tc := ⟨.hbm, 13, rfl⟩
abbrev main_v6 : Ref sig .tc := ⟨.hbm, 14, rfl⟩
abbrev main_cst_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_4 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem1_0 : DmaSem sig := 13
abbrev cc2_sem2_0 : DmaSem sig := 14

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_15 : BitVec 32 := 0#32
  let v28 : BitVec 1 := Scalar.cmpi .ne v27 c0_i32_15
  v28

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v26 : BitVec 1 := Scalar.cmpi .eq arg1 c15_i32
  let v27 : BitVec 32 := Scalar.extui v26
  let c0_i32_15 : BitVec 32 := 0#32
  let v28 : BitVec 1 := Scalar.cmpi .ne v27 c0_i32_15
  v28

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x1024x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4x1024x3 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S4x1024x3 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S4x1024x3_S4x1024x3_0_0_0 : ∀ a, (![0, 0, 0] : Fin 3 → Nat) a + S4x1024x3.size a ≤ S4x1024x3.size a
  h_S4x1024x3 : 0 < S4x1024x3.numel
  inb_S4x512x3_S4x512x3_0_0_0 : ∀ a, (![0, 0, 0] : Fin 3 → Nat) a + S4x512x3.size a ≤ S4x512x3.size a
  h_S4x512x3 : 0 < S4x512x3.numel
  reduces_S4x1024x3_S4x1024 : S4x1024x3.Reduces [2] S4x1024
  shapeCasts_S4x1024_S4x1024x1 : S4x1024.ShapeCasts S4x1024x1
  reduces_S4x512x3_S4x512 : S4x512x3.Reduces [2] S4x512
  shapeCasts_S4x512_S4x1x512 : S4x512.ShapeCasts S4x1x512
  broadcasts_S4x1024x1_S4x1024x512 : S4x1024x1.Broadcasts S4x1024x512
  broadcasts_S4x1x512_S4x1024x512 : S4x1x512.Broadcasts S4x1024x512
  reduces_S4x1024x512_S4x1024 : S4x1024x512.Reduces [2] S4x1024
  reducesTo_S4x8192_S_d0_1 : S4x8192.ReducesTo [0, 1] S_
  h_S_ : 0 < S_.numel
  reduces_S4x1024_S4 : S4x1024.Reduces [1] S4
  shapeCasts_S4_S4x1 : S4.ShapeCasts S4x1
  reduces_S4x1_S1 : S4x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  dot_S4x1024x3_S4x512x3_S4x1024x512_2_2_1_1_0_0_wf : DotDims.WF S4x1024x3 S4x512x3 S4x1024x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x3.size a ≤ S4x8192x3.size a
  hwx0_0 : ∀ i : grid0.Coords, EltTy.bits .f32 = 32 ∨ (Rect.block (s := S4x8192x3) S4x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x8192.size a
  hwx0_2 : ∀ i : grid0.Coords, EltTy.bits .f32 = 32 ∨ (Rect.block (s := S4x8192) S4x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1024x3.size a ≤ S4x8192x3.size a
  hwx1_0 : ∀ i : grid1.Coords, EltTy.bits .f32 = 32 ∨ (Rect.block (s := S4x8192x3) S4x1024x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x1024.size a ≤ S4x8192.size a
  hwx1_2 : ∀ i : grid1.Coords, EltTy.bits .f32 = 32 ∨ (Rect.block (s := S4x8192) S4x1024.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4x1024x3.size a ≤ S4x1024x3.size a
  hwx2_0 : ∀ i : grid2.Coords, EltTy.bits .f32 = 32 ∨ (Rect.block (s := S4x1024x3) S4x1024x3.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4x1024x3.size a ≤ S4x1024x3.size a
  hwx2_1 : ∀ i : grid2.Coords, EltTy.bits .f32 = 32 ∨ (Rect.block (s := S4x1024x3) S4x1024x3.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S4x1024x3_S4x512x3_S4x1024x512_2_2_1_1_0_0 : DotDims S4x1024x3 S4x512x3 S4x1024x512 where
  lhsContracting := [2]
  rhsContracting := [2]
  lhsNonContracting := [1]
  rhsNonContracting := [1]
  lhsBatch := [0]
  rhsBatch := [0]
  wf := dot_S4x1024x3_S4x512x3_S4x1024x512_2_2_1_1_0_0_wf

abbrev win0_0 : Pipeline.Window sig grid0 :=
  Pipeline.Window.ofSpec (Memref.whole main_arg1) S4x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg2) S4x1024x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S4x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg0) S4x1024x3.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S4x1024x3.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S4x1024x3 : Shape := ⟨3, ![4, 1024, 3]⟩
abbrev S4x8192x3 : Shape := ⟨3, ![4, 8192, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4x1024 : Shape := ⟨2, ![4, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x1024x3, .f32⟩
  | .hbm, ⟨1, _⟩ => ⟨S4x8192x3, .f32⟩
  | .hbm, ⟨2, _⟩ => ⟨S4x8192x3, .f32⟩
  | .hbm, ⟨3, _⟩ => ⟨S4x1024x3, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x1, .f32⟩
  | .hbm, ⟨8, _⟩ => ⟨S4x8192x3, .f32⟩
  | .hbm, ⟨9, _⟩ => ⟨S_, .f32⟩
  | .hbm, ⟨10, _⟩ => ⟨S4x8192, .f32⟩
  | .hbm, ⟨11, _⟩ => ⟨S4x1x8192, .f32⟩
  | .hbm, ⟨12, _⟩ => ⟨S4x8192x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4x1024x3, .f32⟩
  | .hbm, ⟨41, _⟩ => ⟨S4x1024x3, .f32⟩
  | .hbm, ⟨42, _⟩ => ⟨S_, .f32⟩
  | .hbm, ⟨43, _⟩ => ⟨S4x1024, .f32⟩
  | .hbm, ⟨44, _⟩ => ⟨S4x1024, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_cst_8 : Ref sig .tc := ⟨.hbm, 35, rfl⟩
abbrev main_v22 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_v28 : Ref sig .tc := ⟨.hbm, 44, rfl⟩
abbrev main_cst_11 : Ref sig .tc := ⟨.hbm, 45, rfl⟩
abbrev main_v29 : Ref sig .tc := ⟨.hbm, 46, rfl⟩
abbrev main_cst_12 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  reducesTo_S4x1024x3_S4x1024_d2 : S4x1024x3.ReducesTo [2] S4x1024
  reducesTo_S4x1024_S_d0_1 : S4x1024.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.K.R0.Shared.lean ====
/-
  The nearest-neighbour kernel of the first launch, on its grid of 8 query tiles by 16 candidate tiles: what its
  three body runs share. A point is the pair (i, j); the body resets its running-minimum scratch where j = 0,
  lowers it by the tile's minima at every point, and stores the square roots into the output block where j = 15.
  Here: the blocks the windows hold at a point as the region finds the arrays, the two branch conditions in closed
  form over the linear point index (j = t mod 16), where the output window is idle and where it is written back,
  and the memrefs the body is called with.
-/
import proofs.«148603_j33663953666360_1_alg».proof.Proof.Gen.Kernel.Launch
import proofs.«148603_j33663953666360_1_alg».proof.Proof.Gen.Kernel.Skeleton
import proofs.«148603_j33663953666360_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- The block of window `w` at point `t`, cut out of the window's array as the region finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds the query block at every point: it is fetched where i changes and left
    in place by the body in between. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

/-- The candidate window's staging buffer holds the candidate block at every point. -/
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-! ## The two branch conditions -/

/-- "j = 0", as the body computes it from the point's coordinates. -/
abbrev condR0_0 (i : grid0.Coords) : Prop := (Scalar.cmpi .ne (Scalar.extui (Scalar.cmpi .eq (BitVec.ofNat 32 (i 1).val) 0#32)) 0#32) = 1#1
theorem hcondR0_0 : ∀ t : Fin cfg0.N, condR0_0 (grid0.coords t) ↔ t.val % 16 = 0 :=
  (by decide +kernel : ∀ t : Fin grid0.N, condR0_0 (grid0.coords t) ↔ t.val % 16 = 0)

/-- "j = 15", as the body computes it. -/
abbrev condR0_1 (i : grid0.Coords) : Prop := k0_cond2 i = 1#1
theorem hcondR0_1 : ∀ t : Fin cfg0.N, condR0_1 (grid0.coords t) ↔ t.val % 16 = 15 :=
  (by decide +kernel : ∀ t : Fin grid0.N, condR0_1 (grid0.coords t) ↔ t.val % 16 = 15)

/-! ## Where the windows are idle -/

theorem liveR0_0 : ∀ t : Fin cfg0.N, cfg0.idle 0 (grid0.coords t) = false := by decide +kernel
theorem liveR0_1 : ∀ t : Fin cfg0.N, cfg0.idle 1 (grid0.coords t) = false := by decide +kernel
/-- Away from j = 15 the body stores nothing into the output block, and the pipeline does not write it back. -/
theorem idleR0_2 : ∀ t : Fin cfg0.N, ¬condR0_1 (grid0.coords t) → cfg0.idle 2 (grid0.coords t) = true := by decide +kernel
theorem noFlushR0_2 : ∀ t : Fin cfg0.N, ¬condR0_1 (grid0.coords t) → (cfg0.win 2).flush t = false := by decide +kernel
/-- At j = 15 it stores the whole block. -/
theorem liveR0_2 : ∀ t : Fin cfg0.N, condR0_1 (grid0.coords t) → cfg0.idle 2 (grid0.coords t) = false := by decide +kernel

/-! ## The memrefs the body is called with -/

abbrev msR0_0 (t : Fin cfg0.N) : Memref sig .tc .vmem S4x1024x3 .f32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S4x512x3 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S4x1024 .f32 := win0_2.stage (cfg0.slots t 2)
abbrev hsR0_2 (t : Fin cfg0.N) : (msR0_2 t).IsWhole := hstage0_2 ((cfg0.slots t 2).cast nbuf0_2)
/-- The running-minimum scratch, a whole scoped buffer of the kernel's own. -/
abbrev scR0 : Memref sig .tc .vmem S4x1024 .f32 := Memref.whole cc0_scratch0
/-- The views through which the output block's and the scratch's contents are stated. -/
abbrev VOR0 : View sig .tc .vmem S4x1024 .f32 := (Memref.whole cc0_stg2_0 : Memref sig .tc .vmem S4x1024 .f32).view
abbrev VSR0 : View sig .tc .vmem S4x1024 .f32 := scR0.view

/-- The core's other scoped buffers (the other launches' staging buffers and scratch), carried unopened. -/
abbrev RestR0 (c : Dev nD) : sProp 𝕄 :=
  Pipeline.scopedRestBut (Ix := Unit) (Name := ℕ) (U := UR sig nD τ) (Lvl := ℕ) (Val := Elt F) spec0 c [cc0_scratch0]

/-- What the region's invariant holds before the first point: the scratch as a memref owned at some contents, the
    other scoped buffers, and the generator register. -/
theorem PhiAR0_eq (c : Dev nD) :
    (Pipeline.ΦA spec0 c : sProp 𝕄)
      = iprop(iprop((∃ d, owns (c : Thread nD τ) scR0 fullShare d) ∗ RestR0 c) ∗ (∃ r, prngReg c r)) := by
  unfold Pipeline.ΦA
  rw [Pipeline.scopedRest_split_of_list spec0 c [cc0_scratch0] (by decide) (by decide)]
  simp only [scR0, owns_whole]; try rfl

end Cert.Kernel.Fr

end
-- ==== Proof.K.R0.RunA.lean ====
/-
  The body of the first launch's kernel at a point with j = 0: the first branch is taken, the second is not. It
  overwrites the running-minimum scratch with +∞, then loads the query block, the candidate block and the scratch, and
  stores the lowered minima; the output block is not touched. Whatever the scratch held on entry is overwritten before
  it matters. The pieces the scratch ends with are found by running the body.
-/
import proofs.«148603_j33663953666360_1_alg».proof.Proof.K.R0.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the two input blocks at their contents, the output block at contents handed back untouched,
    the scratch at anything — the body runs to the continuation with the inputs and the output block as they were
    and the scratch with its pieces written. -/
noncomputable def kernelRunR0_A (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : condR0_0 i) (hc1 : ¬condR0_1 i)
    (x0 : Vec F S4x1024x3 .f32) (x1 : Vec F S4x512x3 .f32) :
    { LS : List (View.Piece (Elt F) S4x1024 .f32) //
      ∀ (xi2 : Vec F S4x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.K.R0.RunB.lean ====
/-
  The body of the first launch's kernel at a point with 0 < j < 15: neither branch is taken. It loads the query
  block, the candidate block and the running minima, and stores the lowered minima back into the scratch; the output
  block is not touched. The pieces the scratch ends with are found by running the body.
-/
import proofs.«148603_j33663953666360_1_alg».proof.Proof.K.R0.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the two input blocks at their contents, the output block at contents handed back untouched,
    the scratch at what the point before left — the body runs to the continuation with the inputs and the output
    block as they were and the scratch with its pieces written. -/
noncomputable def kernelRunR0_B (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : ¬condR0_0 i) (hc1 : ¬condR0_1 i)
    (x0 : Vec F S4x1024x3 .f32) (x1 : Vec F S4x512x3 .f32) (xs : Vec F S4x1024 .f32) :
    { LS : List (View.Piece (Elt F) S4x1024 .f32) //
      ∀ (xi2 : Vec F S4x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.K.R0.RunC.lean ====
/-
  The body of the first launch's kernel at a point with j = 15: the first branch is not taken, the second is. It
  loads the query block, the candidate block and the running minima, stores the lowered minima back into the scratch,
  then loads the scratch again and stores its square roots over the whole output block. The pieces the output block
  and the scratch end with are found by running the body.
-/
import proofs.«148603_j33663953666360_1_alg».proof.Proof.K.R0.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the two input blocks at their contents, the output block at anything, the scratch at what the
    point before left — the body runs to the continuation with the inputs as they were and the output block and the
    scratch with their pieces written. -/
noncomputable def kernelRunR0_C (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : ¬condR0_0 i) (hc1 : condR0_1 i)
    (x0 : Vec F S4x1024x3 .f32) (x1 : Vec F S4x512x3 .f32) (xs : Vec F S4x1024 .f32) :
    Σ' (L2 : List (View.Piece (Elt F) S4x1024 .f32)), { LS : List (View.Piece (Elt F) S4x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.Fr

end
-- ==== Proof.K.R0.Region.lean ====
/-
  The first launch as a region of the program, at the contents `V` the region finds in the TensorCore's buffers.

  What each of the three body cases leaves in the running-minimum scratch and in the output block is read back from
  the pieces its run found. `outsAtR0 n` is the pair (output block, scratch) after the point of linear index n,
  by recursion on n: a point with j = 0 forgets what came before (the scratch is reset there), every other point
  lowers the scratch the point before left, and a point with j = 15 also emits the output block from it.
  The region's invariant before point n ≥ 1 holds the scratch at exactly `(outsAtR0 (n−1)).2`; before the first
  point it holds it at anything. With that, the body's three runs discharge the body obligation at every point.
-/
import proofs.«148603_j33663953666360_1_alg».proof.Proof.K.R0.RunA
import proofs.«148603_j33663953666360_1_alg».proof.Proof.K.R0.RunB
import proofs.«148603_j33663953666360_1_alg».proof.Proof.K.R0.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output block where the body stores nothing into it: at those points the block is neither
    written back nor read, so nothing consults it. -/
def idleOutR0 : Vec F S4x1024 .f32 := VOR0.read (Elt F) (VOR0.writes (Elt F) VOR0.junk [])

section Cases
variable (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)

theorem scoverR0_A (hc0 : condR0_0 i) (hc1 : ¬condR0_1 i) (x0 : Vec F S4x1024x3 .f32) (x1 : Vec F S4x512x3 .f32) (y : S4x1024.Idx) :
    ∃ pc ∈ (kernelRunR0_A c i arg2 harg2 arg3 harg3 arg4 harg4 arg5 harg5 hc0 hc1 x0 x1).1, y ∈ pc.1.set :=
  View.cover_of_tiledL (kernelRunR0_A c i arg2 harg2 arg3 harg3 arg4 harg4 arg5 harg5 hc0 hc1 x0 x1).1 S4x1024.size (by sl_kernel_rfl) y

/-- The scratch after a point with j = 0. -/
def soutR0_A (hc0 : condR0_0 i) (hc1 : ¬condR0_1 i) (x0 : Vec F S4x1024x3 .f32) (x1 : Vec F S4x512x3 .f32) : Vec F S4x1024 .f32 :=
  VSR0.read (Elt F) (VSR0.writes (Elt F) VSR0.junk (kernelRunR0_A c i arg2 harg2 arg3 harg3 arg4 harg4 arg5 harg5 hc0 hc1 x0 x1).1)

theorem scoverR0_B (hc0 : ¬condR0_0 i) (hc1 : ¬condR0_1 i) (x0 : Vec F S4x1024x3 .f32) (x1 : Vec F S4x512x3 .f32) (xs : Vec F S4x1024 .f32) (y : S4x1024.Idx) :
    ∃ pc ∈ (kernelRunR0_B c i arg2 harg2 arg3 harg3 arg4 harg4 arg5 harg5 hc0 hc1 x0 x1 xs).1, y ∈ pc.1.set :=
  View.cover_of_tiledL (kernelRunR0_B c i arg2 harg2 arg3 harg3 arg4 harg4 arg5 harg5 hc0 hc1 x0 x1 xs).1 S4x1024.size (by sl_kernel_rfl) y

/-- The scratch after a point with 0 < j < 15, over what the point before left. -/
def soutR0_B (hc0 : ¬condR0_0 i) (hc1 : ¬condR0_1 i) (x0 : Vec F S4x1024x3 .f32) (x1 : Vec F S4x512x3 .f32) (xs : Vec F S4x1024 .f32) : Vec F S4x1024 .f32 :=
  VSR0.read (Elt F) (VSR0.writes (Elt F) VSR0.junk (kernelRunR0_B c i arg2 harg2 arg3 harg3 arg4 harg4 arg5 harg5 hc0 hc1 x0 x1 xs).1)

theorem coverR0_C (hc0 : ¬condR0_0 i) (hc1 : condR0_1 i) (x0 : Vec F S4x1024x3 .f32) (x1 : Vec F S4x512x3 .f32) (xs : Vec F S4x1024 .f32) (y : S4x1024.Idx) :
    ∃ pc ∈ (kernelRunR0_C c i arg2 harg2 arg3 harg3 arg4 harg4 arg5 harg5 hc0 hc1 x0 x1 xs).1, y ∈ pc.1.set :=
  View.cover_of_tiledL (kernelRunR0_C c i arg2 harg2 arg3 harg3 arg4 harg4 arg5 harg5 hc0 hc1 x0 x1 xs).1 S4x1024.size (by sl_kernel_rfl) y

/-- The output block after a point with j = 15. -/
def outR0_C (hc0 : ¬condR0_0 i) (hc1 : condR0_1 i) (x0 : Vec F S4x1024x3 .f32) (x1 : Vec F S4x512x3 .f32) (xs : Vec F S4x1024 .f32) : Vec F S4x1024 .f32 :=
  VOR0.read (Elt F) (VOR0.writes (Elt F) VOR0.junk (kernelRunR0_C c i arg2 harg2 arg3 harg3 arg4 harg4 arg5 harg5 hc0 hc1 x0 x1 xs).1)

theorem scoverR0_C (hc0 : ¬condR0_0 i) (hc1 : condR0_1 i) (x0 : Vec F S4x1024x3 .f32) (x1 : Vec F S4x512x3 .f32) (xs : Vec F S4x1024 .f32) (y : S4x1024.Idx) :
    ∃ pc ∈ (kernelRunR0_C c i arg2 harg2 arg3 harg3 arg4 harg4 arg5 harg5 hc0 hc1 x0 x1 xs).2.1, y ∈ pc.1.set :=
  View.cover_of_tiledL (kernelRunR0_C c i arg2 harg2 arg3 harg3 arg4 harg4 arg5 harg5 hc0 hc1 x0 x1 xs).2.1 S4x1024.size (by sl_kernel_rfl) y

/-- The scratch after a point with j = 15. -/
def soutR0_C (hc0 : ¬condR0_0 i) (hc1 : condR0_1 i) (x0 : Vec F S4x1024x3 .f32) (x1 : Vec F S4x512x3 .f32) (xs : Vec F S4x1024 .f32) : Vec F S4x1024 .f32 :=
  VSR0.read (Elt F) (VSR0.writes (Elt F) VSR0.junk (kernelRunR0_C c i arg2 harg2 arg3 harg3 arg4 harg4 arg5 harg5 hc0 hc1 x0 x1 xs).2.1)

end Cases

/-! ## Point by point -/

/-- One point's step: (output block, scratch) after point `t`, given the scratch `prev` the point before left. -/
def stepR0 (c : Dev nD) (t : Fin cfg0.N) (prev : Vec F S4x1024 .f32) : Vec F S4x1024 .f32 × Vec F S4x1024 .f32 :=
  if h0 : t.val % 16 = 0 then
    (idleOutR0, soutR0_A c (grid0.coords t) (msR0_0 t) (hsR0_0 t) (msR0_1 t) (hsR0_1 t) (msR0_2 t) (hsR0_2 t) scR0 (Memref.isWhole_whole _) ((hcondR0_0 t).mpr h0) (fun h => by have := (hcondR0_1 t).mp h; omega) (iblkR0 V c 0 t) (iblkR0 V c 1 t))
  else if h1 : t.val % 16 = 15 then
    (outR0_C c (grid0.coords t) (msR0_0 t) (hsR0_0 t) (msR0_1 t) (hsR0_1 t) (msR0_2 t) (hsR0_2 t) scR0 (Memref.isWhole_whole _) (fun h => h0 ((hcondR0_0 t).mp h)) ((hcondR0_1 t).mpr h1) (iblkR0 V c 0 t) (iblkR0 V c 1 t) prev,
     soutR0_C c (grid0.coords t) (msR0_0 t) (hsR0_0 t) (msR0_1 t) (hsR0_1 t) (msR0_2 t) (hsR0_2 t) scR0 (Memref.isWhole_whole _) (fun h => h0 ((hcondR0_0 t).mp h)) ((hcondR0_1 t).mpr h1) (iblkR0 V c 0 t) (iblkR0 V c 1 t) prev)
  else
    (idleOutR0, soutR0_B c (grid0.coords t) (msR0_0 t) (hsR0_0 t) (msR0_1 t) (hsR0_1 t) (msR0_2 t) (hsR0_2 t) scR0 (Memref.isWhole_whole _) (fun h => h0 ((hcondR0_0 t).mp h)) (fun h => h1 ((hcondR0_1 t).mp h)) (iblkR0 V c 0 t) (iblkR0 V c 1 t) prev)

/-- (output block, scratch) after the point of linear index `n`. -/
def outsAtR0 (c : Dev nD) : (n : ℕ) → n < cfg0.N → Vec F S4x1024 .f32 × Vec F S4x1024 .f32
  | 0, hn => stepR0 V c ⟨0, hn⟩ idleOutR0
  | n + 1, hn => stepR0 V c ⟨n + 1, hn⟩ (outsAtR0 c n (Nat.lt_of_succ_lt hn)).2

/-- At a point that is not the first, `outsAtR0` is one step over the point before. -/
theorem outsAtR0_pos (c : Dev nD) (t : Fin cfg0.N) (hz : t.val ≠ 0) :
    outsAtR0 V c t.val t.isLt = stepR0 V c t (outsAtR0 V c (t.val - 1) (Nat.lt_of_le_of_lt (Nat.sub_le _ _) t.isLt)).2 := by
  obtain ⟨n, hn⟩ := t
  cases n with
  | zero => exact absurd rfl hz
  | succ n => rfl

/-- At a point with j = 0 the step does not look at what came before. -/
theorem stepR0_A (c : Dev nD) (t : Fin cfg0.N) (h0 : t.val % 16 = 0) (prev : Vec F S4x1024 .f32) :
    stepR0 V c t prev = (idleOutR0, soutR0_A c (grid0.coords t) (msR0_0 t) (hsR0_0 t) (msR0_1 t) (hsR0_1 t) (msR0_2 t) (hsR0_2 t) scR0 (Memref.isWhole_whole _) ((hcondR0_0 t).mpr h0) (fun h => by have := (hcondR0_1 t).mp h; omega) (iblkR0 V c 0 t) (iblkR0 V c 1 t)) := by
  unfold stepR0; exact dif_pos h0

theorem stepR0_B (c : Dev nD) (t : Fin cfg0.N) (h0 : ¬t.val % 16 = 0) (h1 : ¬t.val % 16 = 15) (prev : Vec F S4x1024 .f32) :
    stepR0 V c t prev = (idleOutR0, soutR0_B c (grid0.coords t) (msR0_0 t) (hsR0_0 t) (msR0_1 t) (hsR0_1 t) (msR0_2 t) (hsR0_2 t) scR0 (Memref.isWhole_whole _) (fun h => h0 ((hcondR0_0 t).mp h)) (fun h => h1 ((hcondR0_1 t).mp h)) (iblkR0 V c 0 t) (iblkR0 V c 1 t) prev) := by
  unfold stepR0; exact (dif_neg h0).trans (dif_neg h1)

theorem stepR0_C (c : Dev nD) (t : Fin cfg0.N) (h0 : ¬t.val % 16 = 0) (h1 : t.val % 16 = 15) (prev : Vec F S4x1024 .f32) :
    stepR0 V c t prev = (outR0_C c (grid0.coords t) (msR0_0 t) (hsR0_0 t) (msR0_1 t) (hsR0_1 t) (msR0_2 t) (hsR0_2 t) scR0 (Memref.isWhole_whole _) (fun h => h0 ((hcondR0_0 t).mp h)) ((hcondR0_1 t).mpr h1) (iblkR0 V c 0 t) (iblkR0 V c 1 t) prev,
      soutR0_C c (grid0.coords t) (msR0_0 t) (hsR0_0 t) (msR0_1 t) (hsR0_1 t) (msR0_2 t) (hsR0_2 t) scR0 (Memref.isWhole_whole _) (fun h => h0 ((hcondR0_0 t).mp h)) ((hcondR0_1 t).mpr h1) (iblkR0 V c 0 t) (iblkR0 V c 1 t) prev) := by
  unfold stepR0; exact (dif_neg h0).trans (dif_pos h1)

/-- At the first point too, `outsAtR0` is a step (from the placeholder, which a point with j = 0 ignores). -/
theorem outsAtR0_zero (c : Dev nD) (t : Fin cfg0.N) (hz : t.val = 0) :
    outsAtR0 V c t.val t.isLt = stepR0 V c t idleOutR0 := by
  obtain ⟨n, hn⟩ := t
  cases n with
  | zero => rfl
  | succ n => exact absurd hz (Nat.succ_ne_zero n)

/-! ## The invariant -/

/-- Before point `n`: before the first, the class's invariant (every scoped buffer at anything, the generator
    register at some state); afterwards the scratch at what the point before left, the other scoped buffers, and the
    generator register. -/
def PhiSR0 (c : Dev nD) : (n : ℕ) → n ≤ cfg0.N → sProp 𝕄
  | 0, _ => Pipeline.ΦA spec0 c
  | n + 1, hn => iprop(iprop(owns (c : Thread nD τ) scR0 fullShare ((outsAtR0 V c n hn).2) ∗ RestR0 c) ∗ (∃ r, prngReg c r))

theorem PhiSR0_zero (c : Dev nD) (n : ℕ) (h : n ≤ cfg0.N) (hz : n = 0) : PhiSR0 V c n h = Pipeline.ΦA spec0 c := by
  subst hz; rfl

theorem PhiSR0_succ (c : Dev nD) (n : ℕ) (hn : n < cfg0.N) :
    PhiSR0 V c (n + 1) hn = iprop(iprop(owns (c : Thread nD τ) scR0 fullShare ((outsAtR0 V c n hn).2) ∗ RestR0 c) ∗ (∃ r, prngReg c r)) := rfl

theorem PhiSR0_pos (c : Dev nD) (n : ℕ) (h : n ≤ cfg0.N) (hz : n ≠ 0) :
    PhiSR0 V c n h = iprop(iprop(owns (c : Thread nD τ) scR0 fullShare ((outsAtR0 V c (n - 1) (by omega)).2) ∗ RestR0 c) ∗ (∃ r, prngReg c r)) := by
  cases n with
  | zero => exact absurd rfl hz
  | succ n => rfl

/-! ## The proof data -/

/-- The arrays as the region finds them; after the body at point `t` each input's buffer at its block and the output's
    at `outsAtR0`'s first component; the invariant above; nothing owed; full shares. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => (outsAtR0 V c t.val t.isLt).1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiSR0_castSucc (c : Dev nD) (t : Fin cfg0.N) :
    (datR0 V c).Φ t.castSucc = PhiSR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = (outsAtR0 V c t.val t.isLt).1 := by dsimp only [datR0]

theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d

end Cert.Kernel.Fr

end
-- ==== Proof.K.R0.Body.lean ====
/-
  The first launch's body obligation: at every point, from the region's invariant and the windows' staging buffers
  at what the pipeline hands the body, the body runs and gives back the invariant for the next point and every
  window's buffer at what the proof data say. Which of the three runs applies is decided by j = t mod 16. The
  invariant hands the body the scratch at what the point before left (at anything before the first point) and
  takes it back at this point's contents; the output block is handed back untouched where the body does not store
  into it. Then the invariant's two ends: what the region's entry supplies is the invariant before the first
  point, and after the last point the invariant gives the scoped buffers back with the scratch's contents forgotten.
-/
import proofs.«148603_j33663953666360_1_alg».proof.Proof.K.R0.Region

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d)))

/-- and what it returns. -/
def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t)

theorem leaves0R0 (c : Dev nD) (t : Fin cfg0.N) :
    (datR0 V c).leavesExact 0 t = owns (c : Thread nD τ) (msR0_0 t) fullShare (iblkR0 V c 0 t) := by
  unfold Dat.leavesExact; rw [liveR0_0 t, afterR0_0]
theorem leaves1R0 (c : Dev nD) (t : Fin cfg0.N) :
    (datR0 V c).leavesExact 1 t = owns (c : Thread nD τ) (msR0_1 t) fullShare (iblkR0 V c 1 t) := by
  unfold Dat.leavesExact; rw [liveR0_1 t, afterR0_1]

set_option maxHeartbeats 4800000 in
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1]
  rw [show (datR0 V c).owesAt () t.succ = (datR0 V c).owesAt () t.castSucc from rfl]
  rw [show (datR0 V c).Φ t.succ = PhiSR0 V c (t.val + 1) t.isLt from rfl, PhiSR0_succ]
  rw [leaves0R0, leaves1R0]
  have hN : t.val < 128 := lt_of_lt_of_eq t.isLt (show cfg0.N = 128 from N_0)
  by_cases h0 : t.val % 16 = 0
  · -- j = 0: the reset, then the update
    have hc1 : ¬condR0_1 (grid0.coords t) := fun h => by have := (hcondR0_1 t).mp h; omega
    rw [Dat.leavesExact_idle (datR0 V c) 2 t (idleR0_2 t hc1) (noFlushR0_2 t hc1)]
    have hstep : (outsAtR0 V c t.val t.isLt).2 = soutR0_A c (grid0.coords t) (msR0_0 t) (hsR0_0 t) (msR0_1 t) (hsR0_1 t) (msR0_2 t) (hsR0_2 t) scR0 (Memref.isWhole_whole _) ((hcondR0_0 t).mpr h0) (fun h => by have := (hcondR0_1 t).mp h; omega) (iblkR0 V c 0 t) (iblkR0 V c 1 t) := by
      by_cases hz : t.val = 0
      · rw [outsAtR0_zero V c t hz, stepR0_A V c t h0]
      · rw [outsAtR0_pos V c t hz, stepR0_A V c t h0]
    rw [hstep]; unfold soutR0_A
    by_cases hz : t.val = 0
    · rw [PhiSR0_castSucc V c t, PhiSR0_zero V c _ _ hz, PhiAR0_eq]
      iintro ⟨⟨⟨HS, HR⟩, Hg⟩, Ho, ⟨%d0, H0⟩, ⟨%d1, H1⟩, ⟨%d2, H2⟩⟩
      iapply ((kernelRunR0_A c (grid0.coords t) _ _ _ _ _ _ _ _ ((hcondR0_0 t).mpr h0) hc1 (iblkR0 V c 0 t) (iblkR0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR0_A c _ _ _ _ _ _ _ _ _ _ _ _ _)
          iexact HR
        iexact Hg
      isplitl [Ho]; · iexact Ho
      isplitl [H0]; · iexact H0
      isplitl [H1]; · iexact H1
      iexists _; iexact H2
    · rw [PhiSR0_castSucc V c t, PhiSR0_pos V c _ _ hz]
      iintro ⟨⟨⟨HS, HR⟩, Hg⟩, Ho, ⟨%d0, H0⟩, ⟨%d1, H1⟩, ⟨%d2, H2⟩⟩
      iapply ((kernelRunR0_A c (grid0.coords t) _ _ _ _ _ _ _ _ ((hcondR0_0 t).mpr h0) hc1 (iblkR0 V c 0 t) (iblkR0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun hz => h0 (by rw [hz])
    have hc0 : ¬condR0_0 (grid0.coords t) := fun h => h0 ((hcondR0_0 t).mp h)
    by_cases h1 : t.val % 16 = 15
    · -- j = 15: the update, then the output block
      have hc1 : condR0_1 (grid0.coords t) := (hcondR0_1 t).mpr h1
      rw [show (datR0 V c).leavesExact 2 t = owns (c : Thread nD τ) (msR0_2 t) fullShare ((datR0 V c).after 2 t) from by
        unfold Dat.leavesExact; rw [liveR0_2 t hc1], afterR0_2]
      rw [outsAtR0_pos V c t hz, stepR0_C V c t h0 h1]
      unfold outR0_C soutR0_C; (try dsimp only)
      rw [PhiSR0_castSucc V c t, PhiSR0_pos V c _ _ hz]
      iintro ⟨⟨⟨HS, HR⟩, Hg⟩, Ho, ⟨%d0, H0⟩, ⟨%d1, H1⟩, ⟨%d2, H2⟩⟩
      iapply ((kernelRunR0_C c (grid0.coords t) _ _ _ _ _ _ _ _ hc0 hc1 (iblkR0 V c 0 t) (iblkR0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scoverR0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (coverR0_C c _ _ _ _ _ _ _ _ _ _ _ _ _ _)
    · -- 0 < j < 15: the update only
      have hc1 : ¬condR0_1 (grid0.coords t) := fun h => h1 ((hcondR0_1 t).mp h)
      rw [Dat.leavesExact_idle (datR0 V c) 2 t (idleR0_2 t hc1) (noFlushR0_2 t hc1)]
      rw [outsAtR0_pos V c t hz, stepR0_B V c t h0 h1]
      unfold soutR0_B; (try dsimp only)
      rw [PhiSR0_castSucc V c t, PhiSR0_pos V c _ _ hz]
      iintro ⟨⟨⟨HS, HR⟩, Hg⟩, Ho, ⟨%d0, H0⟩, ⟨%d1, H1⟩, ⟨%d2, H2⟩⟩
      iapply ((kernelRunR0_B c (grid0.coords t) _ _ _ _ _ _ _ _ hc0 hc1 (iblkR0 V c 0 t) (iblkR0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR0_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

/-- What the entry supplies is the invariant before the first point. -/
theorem hinR0 (c : Dev nD) : Pipeline.ΦA spec0 c ⊢ (datR0 V c).Φ 0 := by
  rw [show (datR0 V c).Φ 0 = PhiSR0 V c 0 (Nat.zero_le _) from rfl, PhiSR0_zero V c 0 _ rfl]
  try exact Idealize.SL.BI.Entails.refl _

/-- After the last point the invariant gives the class's back: the scratch's named contents are forgotten. -/
theorem houtR0 (c : Dev nD) : (datR0 V c).Φ (Fin.last cfg0.N) ⊢ Pipeline.ΦA spec0 c := by
  have hne : (Fin.last cfg0.N).val ≠ 0 := by rw [Fin.val_last]; have : cfg0.N = 128 := N_0; omega
  rw [show (datR0 V c).Φ (Fin.last cfg0.N) = PhiSR0 V c (Fin.last cfg0.N).val (Nat.le_of_lt_succ (Fin.last cfg0.N).isLt) from rfl,
    PhiSR0_pos V c _ _ hne, PhiAR0_eq]
  iintro ⟨⟨HS, HR⟩, Hg⟩
  isplitl [HS HR]
  · isplitl [HS]
    · iexists _; iexact HS
    iexact HR
  iexact Hg

end Cert.Kernel.Fr

end
-- ==== Proof.K.R1.Shared.lean ====
/-
  The nearest-neighbour kernel of the second launch, on its grid of 8 query tiles by 16 candidate tiles: what its
  three body runs share. A point is the pair (i, j); the body resets its running-minimum scratch where j = 0,
  lowers it by the tile's minima at every point, and stores the square roots into the output block where j = 15.
  Here: the blocks the windows hold at a point as the region finds the arrays, the two branch conditions in closed
  form over the linear point index (j = t mod 16), where the output window is idle and where it is written back,
  and the memrefs the body is called with.
-/
import proofs.«148603_j33663953666360_1_alg».proof.Proof.Gen.Kernel.Launch
import proofs.«148603_j33663953666360_1_alg».proof.Proof.Gen.Kernel.Skeleton
import proofs.«148603_j33663953666360_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- The block of window `w` at point `t`, cut out of the window's array as the region finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block at every point: it is fetched where i changes and left
    in place by the body in between. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

/-- The candidate window's staging buffer holds the candidate block at every point. -/
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-! ## The two branch conditions -/

/-- "j = 0", as the body computes it from the point's coordinates. -/
abbrev condR1_0 (i : grid1.Coords) : Prop := (Scalar.cmpi .ne (Scalar.extui (Scalar.cmpi .eq (BitVec.ofNat 32 (i 1).val) 0#32)) 0#32) = 1#1
theorem hcondR1_0 : ∀ t : Fin cfg1.N, condR1_0 (grid1.coords t) ↔ t.val % 16 = 0 :=
  (by decide +kernel : ∀ t : Fin grid1.N, condR1_0 (grid1.coords t) ↔ t.val % 16 = 0)

/-- "j = 15", as the body computes it. -/
abbrev condR1_1 (i : grid1.Coords) : Prop := k1_cond2 i = 1#1
theorem hcondR1_1 : ∀ t : Fin cfg1.N, condR1_1 (grid1.coords t) ↔ t.val % 16 = 15 :=
  (by decide +kernel : ∀ t : Fin grid1.N, condR1_1 (grid1.coords t) ↔ t.val % 16 = 15)

/-! ## Where the windows are idle -/

theorem liveR1_0 : ∀ t : Fin cfg1.N, cfg1.idle 0 (grid1.coords t) = false := by decide +kernel
theorem liveR1_1 : ∀ t : Fin cfg1.N, cfg1.idle 1 (grid1.coords t) = false := by decide +kernel
/-- Away from j = 15 the body stores nothing into the output block, and the pipeline does not write it back. -/
theorem idleR1_2 : ∀ t : Fin cfg1.N, ¬condR1_1 (grid1.coords t) → cfg1.idle 2 (grid1.coords t) = true := by decide +kernel
theorem noFlushR1_2 : ∀ t : Fin cfg1.N, ¬condR1_1 (grid1.coords t) → (cfg1.win 2).flush t = false := by decide +kernel
/-- At j = 15 it stores the whole block. -/
theorem liveR1_2 : ∀ t : Fin cfg1.N, condR1_1 (grid1.coords t) → cfg1.idle 2 (grid1.coords t) = false := by decide +kernel

/-! ## The memrefs the body is called with -/

abbrev msR1_0 (t : Fin cfg1.N) : Memref sig .tc .vmem S4x1024x3 .f32 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S4x512x3 .f32 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S4x1024 .f32 := win1_2.stage (cfg1.slots t 2)
abbrev hsR1_2 (t : Fin cfg1.N) : (msR1_2 t).IsWhole := hstage1_2 ((cfg1.slots t 2).cast nbuf1_2)
/-- The running-minimum scratch, a whole scoped buffer of the kernel's own. -/
abbrev scR1 : Memref sig .tc .vmem S4x1024 .f32 := Memref.whole cc1_scratch0
/-- The views through which the output block's and the scratch's contents are stated. -/
abbrev VOR1 : View sig .tc .vmem S4x1024 .f32 := (Memref.whole cc1_stg2_0 : Memref sig .tc .vmem S4x1024 .f32).view
abbrev VSR1 : View sig .tc .vmem S4x1024 .f32 := scR1.view

/-- The core's other scoped buffers (the other launches' staging buffers and scratch), carried unopened. -/
abbrev RestR1 (c : Dev nD) : sProp 𝕄 :=
  Pipeline.scopedRestBut (Ix := Unit) (Name := ℕ) (U := UR sig nD τ) (Lvl := ℕ) (Val := Elt F) spec1 c [cc1_scratch0]

/-- What the region's invariant holds before the first point: the scratch as a memref owned at some contents, the
    other scoped buffers, and the generator register. -/
theorem PhiAR1_eq (c : Dev nD) :
    (Pipeline.ΦA spec1 c : sProp 𝕄)
      = iprop(iprop((∃ d, owns (c : Thread nD τ) scR1 fullShare d) ∗ RestR1 c) ∗ (∃ r, prngReg c r)) := by
  unfold Pipeline.ΦA
  rw [Pipeline.scopedRest_split_of_list spec1 c [cc1_scratch0] (by decide) (by decide)]
  simp only [scR1, owns_whole]; try rfl

end Cert.Kernel.Fr

end
-- ==== Proof.K.R1.RunA.lean ====
/-
  The body of the second launch's kernel at a point with j = 0: the first branch is taken, the second is not. It
  overwrites the running-minimum scratch with +∞, then loads the query block, the candidate block and the scratch, and
  stores the lowered minima; the output block is not touched. Whatever the scratch held on entry is overwritten before
  it matters. The pieces the scratch ends with are found by running the body.
-/
import proofs.«148603_j33663953666360_1_alg».proof.Proof.K.R1.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the two input blocks at their contents, the output block at contents handed back untouched,
    the scratch at anything — the body runs to the continuation with the inputs and the output block as they were
    and the scratch with its pieces written. -/
noncomputable def kernelRunR1_A (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : condR1_0 i) (hc1 : ¬condR1_1 i)
    (x0 : Vec F S4x1024x3 .f32) (x1 : Vec F S4x512x3 .f32) :
    { LS : List (View.Piece (Elt F) S4x1024 .f32) //
      ∀ (xi2 : Vec F S4x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.K.R1.RunB.lean ====
/-
  The body of the second launch's kernel at a point with 0 < j < 15: neither branch is taken. It loads the query
  block, the candidate block and the running minima, and stores the lowered minima back into the scratch; the output
  block is not touched. The pieces the scratch ends with are found by running the body.
-/
import proofs.«148603_j33663953666360_1_alg».proof.Proof.K.R1.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the two input blocks at their contents, the output block at contents handed back untouched,
    the scratch at what the point before left — the body runs to the continuation with the inputs and the output
    block as they were and the scratch with its pieces written. -/
noncomputable def kernelRunR1_B (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : ¬condR1_0 i) (hc1 : ¬condR1_1 i)
    (x0 : Vec F S4x1024x3 .f32) (x1 : Vec F S4x512x3 .f32) (xs : Vec F S4x1024 .f32) :
    { LS : List (View.Piece (Elt F) S4x1024 .f32) //
      ∀ (xi2 : Vec F S4x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.Kernel.Fr

end
-- ==== Proof.K.R1.RunC.lean ====
/-
  The body of the second launch's kernel at a point with j = 15: the first branch is not taken, the second is. It
  loads the query block, the candidate block and the running minima, stores the lowered minima back into the scratch,
  then loads the scratch again and stores its square roots over the whole output block. The pieces the output block
  and the scratch end with are found by running the body.
-/
import proofs.«148603_j33663953666360_1_alg».proof.Proof.K.R1.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- On whole memrefs — the two input blocks at their contents, the output block at anything, the scratch at what the
    point before left — the body runs to the continuation with the inputs as they were and the output block and the
    scratch with their pieces written. -/
noncomputable def kernelRunR1_C (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : ¬condR1_0 i) (hc1 : condR1_1 i)
    (x0 : Vec F S4x1024x3 .f32) (x1 : Vec F S4x512x3 .f32) (xs : Vec F S4x1024 .f32) :
    Σ' (L2 : List (View.Piece (Elt F) S4x1024 .f32)), { LS : List (View.Piece (Elt F) S4x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.Kernel.Fr

end
-- ==== Proof.K.R1.Region.lean ====
/-
  The second launch as a region of the program, at the contents `V` the region finds in the TensorCore's buffers.

  What each of the three body cases leaves in the running-minimum scratch and in the output block is read back from
  the pieces its run found. `outsAtR1 n` is the pair (output block, scratch) after the point of linear index n,
  by recursion on n: a point with j = 0 forgets what came before (the scratch is reset there), every other point
  lowers the scratch the point before left, and a point with j = 15 also emits the output block from it.
  The region's invariant before point n ≥ 1 holds the scratch at exactly `(outsAtR1 (n−1)).2`; before the first
  point it holds it at anything. With that, the body's three runs discharge the body obligation at every point.
-/
import proofs.«148603_j33663953666360_1_alg».proof.Proof.K.R1.RunA
import proofs.«148603_j33663953666360_1_alg».proof.Proof.K.R1.RunB
import proofs.«148603_j33663953666360_1_alg».proof.Proof.K.R1.RunC

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output block where the body stores nothing into it: at those points the block is neither
    written back nor read, so nothing consults it. -/
def idleOutR1 : Vec F S4x1024 .f32 := VOR1.read (Elt F) (VOR1.writes (Elt F) VOR1.junk [])

section Cases
variable (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)

theorem scoverR1_A (hc0 : condR1_0 i) (hc1 : ¬condR1_1 i) (x0 : Vec F S4x1024x3 .f32) (x1 : Vec F S4x512x3 .f32) (y : S4x1024.Idx) :
    ∃ pc ∈ (kernelRunR1_A c i arg2 harg2 arg3 harg3 arg4 harg4 arg5 harg5 hc0 hc1 x0 x1).1, y ∈ pc.1.set :=
  View.cover_of_tiledL (kernelRunR1_A c i arg2 harg2 arg3 harg3 arg4 harg4 arg5 harg5 hc0 hc1 x0 x1).1 S4x1024.size (by sl_kernel_rfl) y

/-- The scratch after a point with j = 0. -/
def soutR1_A (hc0 : condR1_0 i) (hc1 : ¬condR1_1 i) (x0 : Vec F S4x1024x3 .f32) (x1 : Vec F S4x512x3 .f32) : Vec F S4x1024 .f32 :=
  VSR1.read (Elt F) (VSR1.writes (Elt F) VSR1.junk (kernelRunR1_A c i arg2 harg2 arg3 harg3 arg4 harg4 arg5 harg5 hc0 hc1 x0 x1).1)

theorem scoverR1_B (hc0 : ¬condR1_0 i) (hc1 : ¬condR1_1 i) (x0 : Vec F S4x1024x3 .f32) (x1 : Vec F S4x512x3 .f32) (xs : Vec F S4x1024 .f32) (y : S4x1024.Idx) :
    ∃ pc ∈ (kernelRunR1_B c i arg2 harg2 arg3 harg3 arg4 harg4 arg5 harg5 hc0 hc1 x0 x1 xs).1, y ∈ pc.1.set :=
  View.cover_of_tiledL (kernelRunR1_B c i arg2 harg2 arg3 harg3 arg4 harg4 arg5 harg5 hc0 hc1 x0 x1 xs).1 S4x1024.size (by sl_kernel_rfl) y

/-- The scratch after a point with 0 < j < 15, over what the point before left. -/
def soutR1_B (hc0 : ¬condR1_0 i) (hc1 : ¬condR1_1 i) (x0 : Vec F S4x1024x3 .f32) (x1 : Vec F S4x512x3 .f32) (xs : Vec F S4x1024 .f32) : Vec F S4x1024 .f32 :=
  VSR1.read (Elt F) (VSR1.writes (Elt F) VSR1.junk (kernelRunR1_B c i arg2 harg2 arg3 harg3 arg4 harg4 arg5 harg5 hc0 hc1 x0 x1 xs).1)

theorem coverR1_C (hc0 : ¬condR1_0 i) (hc1 : condR1_1 i) (x0 : Vec F S4x1024x3 .f32) (x1 : Vec F S4x512x3 .f32) (xs : Vec F S4x1024 .f32) (y : S4x1024.Idx) :
    ∃ pc ∈ (kernelRunR1_C c i arg2 harg2 arg3 harg3 arg4 harg4 arg5 harg5 hc0 hc1 x0 x1 xs).1, y ∈ pc.1.set :=
  View.cover_of_tiledL (kernelRunR1_C c i arg2 harg2 arg3 harg3 arg4 harg4 arg5 harg5 hc0 hc1 x0 x1 xs).1 S4x1024.size (by sl_kernel_rfl) y

/-- The output block after a point with j = 15. -/
def outR1_C (hc0 : ¬condR1_0 i) (hc1 : condR1_1 i) (x0 : Vec F S4x1024x3 .f32) (x1 : Vec F S4x512x3 .f32) (xs : Vec F S4x1024 .f32) : Vec F S4x1024 .f32 :=
  VOR1.read (Elt F) (VOR1.writes (Elt F) VOR1.junk (kernelRunR1_C c i arg2 harg2 arg3 harg3 arg4 harg4 arg5 harg5 hc0 hc1 x0 x1 xs).1)

theorem scoverR1_C (hc0 : ¬condR1_0 i) (hc1 : condR1_1 i) (x0 : Vec F S4x1024x3 .f32) (x1 : Vec F S4x512x3 .f32) (xs : Vec F S4x1024 .f32) (y : S4x1024.Idx) :
    ∃ pc ∈ (kernelRunR1_C c i arg2 harg2 arg3 harg3 arg4 harg4 arg5 harg5 hc0 hc1 x0 x1 xs).2.1, y ∈ pc.1.set :=
  View.cover_of_tiledL (kernelRunR1_C c i arg2 harg2 arg3 harg3 arg4 harg4 arg5 harg5 hc0 hc1 x0 x1 xs).2.1 S4x1024.size (by sl_kernel_rfl) y

/-- The scratch after a point with j = 15. -/
def soutR1_C (hc0 : ¬condR1_0 i) (hc1 : condR1_1 i) (x0 : Vec F S4x1024x3 .f32) (x1 : Vec F S4x512x3 .f32) (xs : Vec F S4x1024 .f32) : Vec F S4x1024 .f32 :=
  VSR1.read (Elt F) (VSR1.writes (Elt F) VSR1.junk (kernelRunR1_C c i arg2 harg2 arg3 harg3 arg4 harg4 arg5 harg5 hc0 hc1 x0 x1 xs).2.1)

end Cases

/-! ## Point by point -/

/-- One point's step: (output block, scratch) after point `t`, given the scratch `prev` the point before left. -/
def stepR1 (c : Dev nD) (t : Fin cfg1.N) (prev : Vec F S4x1024 .f32) : Vec F S4x1024 .f32 × Vec F S4x1024 .f32 :=
  if h0 : t.val % 16 = 0 then
    (idleOutR1, soutR1_A c (grid1.coords t) (msR1_0 t) (hsR1_0 t) (msR1_1 t) (hsR1_1 t) (msR1_2 t) (hsR1_2 t) scR1 (Memref.isWhole_whole _) ((hcondR1_0 t).mpr h0) (fun h => by have := (hcondR1_1 t).mp h; omega) (iblkR1 V c 0 t) (iblkR1 V c 1 t))
  else if h1 : t.val % 16 = 15 then
    (outR1_C c (grid1.coords t) (msR1_0 t) (hsR1_0 t) (msR1_1 t) (hsR1_1 t) (msR1_2 t) (hsR1_2 t) scR1 (Memref.isWhole_whole _) (fun h => h0 ((hcondR1_0 t).mp h)) ((hcondR1_1 t).mpr h1) (iblkR1 V c 0 t) (iblkR1 V c 1 t) prev,
     soutR1_C c (grid1.coords t) (msR1_0 t) (hsR1_0 t) (msR1_1 t) (hsR1_1 t) (msR1_2 t) (hsR1_2 t) scR1 (Memref.isWhole_whole _) (fun h => h0 ((hcondR1_0 t).mp h)) ((hcondR1_1 t).mpr h1) (iblkR1 V c 0 t) (iblkR1 V c 1 t) prev)
  else
    (idleOutR1, soutR1_B c (grid1.coords t) (msR1_0 t) (hsR1_0 t) (msR1_1 t) (hsR1_1 t) (msR1_2 t) (hsR1_2 t) scR1 (Memref.isWhole_whole _) (fun h => h0 ((hcondR1_0 t).mp h)) (fun h => h1 ((hcondR1_1 t).mp h)) (iblkR1 V c 0 t) (iblkR1 V c 1 t) prev)

/-- (output block, scratch) after the point of linear index `n`. -/
def outsAtR1 (c : Dev nD) : (n : ℕ) → n < cfg1.N → Vec F S4x1024 .f32 × Vec F S4x1024 .f32
  | 0, hn => stepR1 V c ⟨0, hn⟩ idleOutR1
  | n + 1, hn => stepR1 V c ⟨n + 1, hn⟩ (outsAtR1 c n (Nat.lt_of_succ_lt hn)).2

/-- At a point that is not the first, `outsAtR1` is one step over the point before. -/
theorem outsAtR1_pos (c : Dev nD) (t : Fin cfg1.N) (hz : t.val ≠ 0) :
    outsAtR1 V c t.val t.isLt = stepR1 V c t (outsAtR1 V c (t.val - 1) (Nat.lt_of_le_of_lt (Nat.sub_le _ _) t.isLt)).2 := by
  obtain ⟨n, hn⟩ := t
  cases n with
  | zero => exact absurd rfl hz
  | succ n => rfl

/-- At a point with j = 0 the step does not look at what came before. -/
theorem stepR1_A (c : Dev nD) (t : Fin cfg1.N) (h0 : t.val % 16 = 0) (prev : Vec F S4x1024 .f32) :
    stepR1 V c t prev = (idleOutR1, soutR1_A c (grid1.coords t) (msR1_0 t) (hsR1_0 t) (msR1_1 t) (hsR1_1 t) (msR1_2 t) (hsR1_2 t) scR1 (Memref.isWhole_whole _) ((hcondR1_0 t).mpr h0) (fun h => by have := (hcondR1_1 t).mp h; omega) (iblkR1 V c 0 t) (iblkR1 V c 1 t)) := by
  unfold stepR1; exact dif_pos h0

theorem stepR1_B (c : Dev nD) (t : Fin cfg1.N) (h0 : ¬t.val % 16 = 0) (h1 : ¬t.val % 16 = 15) (prev : Vec F S4x1024 .f32) :
    stepR1 V c t prev = (idleOutR1, soutR1_B c (grid1.coords t) (msR1_0 t) (hsR1_0 t) (msR1_1 t) (hsR1_1 t) (msR1_2 t) (hsR1_2 t) scR1 (Memref.isWhole_whole _) (fun h => h0 ((hcondR1_0 t).mp h)) (fun h => h1 ((hcondR1_1 t).mp h)) (iblkR1 V c 0 t) (iblkR1 V c 1 t) prev) := by
  unfold stepR1; exact (dif_neg h0).trans (dif_neg h1)

theorem stepR1_C (c : Dev nD) (t : Fin cfg1.N) (h0 : ¬t.val % 16 = 0) (h1 : t.val % 16 = 15) (prev : Vec F S4x1024 .f32) :
    stepR1 V c t prev = (outR1_C c (grid1.coords t) (msR1_0 t) (hsR1_0 t) (msR1_1 t) (hsR1_1 t) (msR1_2 t) (hsR1_2 t) scR1 (Memref.isWhole_whole _) (fun h => h0 ((hcondR1_0 t).mp h)) ((hcondR1_1 t).mpr h1) (iblkR1 V c 0 t) (iblkR1 V c 1 t) prev,
      soutR1_C c (grid1.coords t) (msR1_0 t) (hsR1_0 t) (msR1_1 t) (hsR1_1 t) (msR1_2 t) (hsR1_2 t) scR1 (Memref.isWhole_whole _) (fun h => h0 ((hcondR1_0 t).mp h)) ((hcondR1_1 t).mpr h1) (iblkR1 V c 0 t) (iblkR1 V c 1 t) prev) := by
  unfold stepR1; exact (dif_neg h0).trans (dif_pos h1)

/-- At the first point too, `outsAtR1` is a step (from the placeholder, which a point with j = 0 ignores). -/
theorem outsAtR1_zero (c : Dev nD) (t : Fin cfg1.N) (hz : t.val = 0) :
    outsAtR1 V c t.val t.isLt = stepR1 V c t idleOutR1 := by
  obtain ⟨n, hn⟩ := t
  cases n with
  | zero => rfl
  | succ n => exact absurd hz (Nat.succ_ne_zero n)

/-! ## The invariant -/

/-- Before point `n`: before the first, the class's invariant (every scoped buffer at anything, the generator
    register at some state); afterwards the scratch at what the point before left, the other scoped buffers, and the
    generator register. -/
def PhiSR1 (c : Dev nD) : (n : ℕ) → n ≤ cfg1.N → sProp 𝕄
  | 0, _ => Pipeline.ΦA spec1 c
  | n + 1, hn => iprop(iprop(owns (c : Thread nD τ) scR1 fullShare ((outsAtR1 V c n hn).2) ∗ RestR1 c) ∗ (∃ r, prngReg c r))

theorem PhiSR1_zero (c : Dev nD) (n : ℕ) (h : n ≤ cfg1.N) (hz : n = 0) : PhiSR1 V c n h = Pipeline.ΦA spec1 c := by
  subst hz; rfl

theorem PhiSR1_succ (c : Dev nD) (n : ℕ) (hn : n < cfg1.N) :
    PhiSR1 V c (n + 1) hn = iprop(iprop(owns (c : Thread nD τ) scR1 fullShare ((outsAtR1 V c n hn).2) ∗ RestR1 c) ∗ (∃ r, prngReg c r)) := rfl

theorem PhiSR1_pos (c : Dev nD) (n : ℕ) (h : n ≤ cfg1.N) (hz : n ≠ 0) :
    PhiSR1 V c n h = iprop(iprop(owns (c : Thread nD τ) scR1 fullShare ((outsAtR1 V c (n - 1) (by omega)).2) ∗ RestR1 c) ∗ (∃ r, prngReg c r)) := by
  cases n with
  | zero => exact absurd rfl hz
  | succ n => rfl

/-! ## The proof data -/

/-- The arrays as the region finds them; after the body at point `t` each input's buffer at its block and the output's
    at `outsAtR1`'s first component; the invariant above; nothing owed; full shares. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => (outsAtR1 V c t.val t.isLt).1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiSR1_castSucc (c : Dev nD) (t : Fin cfg1.N) :
    (datR1 V c).Φ t.castSucc = PhiSR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = (outsAtR1 V c t.val t.isLt).1 := by dsimp only [datR1]

theorem beforeR1_0 (c : Dev nD) (t : Fin cfg1.N) (d) : (datR1 V c).before 0 t d = iblkR1 V c 0 t :=
  beforeR1_0_of V (datR1 V c) (A_eqR1 V c 0) (afterR1_0 V c) t d
theorem beforeR1_1 (c : Dev nD) (t : Fin cfg1.N) (d) : (datR1 V c).before 1 t d = iblkR1 V c 1 t :=
  beforeR1_1_of V (datR1 V c) (A_eqR1 V c 1) (afterR1_1 V c) t d

end Cert.Kernel.Fr

end
-- ==== Proof.K.R1.Body.lean ====
/-
  The second launch's body obligation: at every point, from the region's invariant and the windows' staging buffers
  at what the pipeline hands the body, the body runs and gives back the invariant for the next point and every
  window's buffer at what the proof data say. Which of the three runs applies is decided by j = t mod 16. The
  invariant hands the body the scratch at what the point before left (at anything before the first point) and
  takes it back at this point's contents; the output block is handed back untouched where the body does not store
  into it. Then the invariant's two ends: what the region's entry supplies is the invariant before the first
  point, and after the last point the invariant gives the scoped buffers back with the scratch's contents forgotten.
-/
import proofs.«148603_j33663953666360_1_alg».proof.Proof.K.R1.Region

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d)))

/-- and what it returns. -/
def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t)

theorem leaves0R1 (c : Dev nD) (t : Fin cfg1.N) :
    (datR1 V c).leavesExact 0 t = owns (c : Thread nD τ) (msR1_0 t) fullShare (iblkR1 V c 0 t) := by
  unfold Dat.leavesExact; rw [liveR1_0 t, afterR1_0]
theorem leaves1R1 (c : Dev nD) (t : Fin cfg1.N) :
    (datR1 V c).leavesExact 1 t = owns (c : Thread nD τ) (msR1_1 t) fullShare (iblkR1 V c 1 t) := by
  unfold Dat.leavesExact; rw [liveR1_1 t, afterR1_1]

set_option maxHeartbeats 4800000 in
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1]
  rw [show (datR1 V c).owesAt () t.succ = (datR1 V c).owesAt () t.castSucc from rfl]
  rw [show (datR1 V c).Φ t.succ = PhiSR1 V c (t.val + 1) t.isLt from rfl, PhiSR1_succ]
  rw [leaves0R1, leaves1R1]
  have hN : t.val < 128 := lt_of_lt_of_eq t.isLt (show cfg1.N = 128 from N_1)
  by_cases h0 : t.val % 16 = 0
  · -- j = 0: the reset, then the update
    have hc1 : ¬condR1_1 (grid1.coords t) := fun h => by have := (hcondR1_1 t).mp h; omega
    rw [Dat.leavesExact_idle (datR1 V c) 2 t (idleR1_2 t hc1) (noFlushR1_2 t hc1)]
    have hstep : (outsAtR1 V c t.val t.isLt).2 = soutR1_A c (grid1.coords t) (msR1_0 t) (hsR1_0 t) (msR1_1 t) (hsR1_1 t) (msR1_2 t) (hsR1_2 t) scR1 (Memref.isWhole_whole _) ((hcondR1_0 t).mpr h0) (fun h => by have := (hcondR1_1 t).mp h; omega) (iblkR1 V c 0 t) (iblkR1 V c 1 t) := by
      by_cases hz : t.val = 0
      · rw [outsAtR1_zero V c t hz, stepR1_A V c t h0]
      · rw [outsAtR1_pos V c t hz, stepR1_A V c t h0]
    rw [hstep]; unfold soutR1_A
    by_cases hz : t.val = 0
    · rw [PhiSR1_castSucc V c t, PhiSR1_zero V c _ _ hz, PhiAR1_eq]
      iintro ⟨⟨⟨HS, HR⟩, Hg⟩, Ho, ⟨%d0, H0⟩, ⟨%d1, H1⟩, ⟨%d2, H2⟩⟩
      iapply ((kernelRunR1_A c (grid1.coords t) _ _ _ _ _ _ _ _ ((hcondR1_0 t).mpr h0) hc1 (iblkR1 V c 0 t) (iblkR1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR1_A c _ _ _ _ _ _ _ _ _ _ _ _ _)
          iexact HR
        iexact Hg
      isplitl [Ho]; · iexact Ho
      isplitl [H0]; · iexact H0
      isplitl [H1]; · iexact H1
      iexists _; iexact H2
    · rw [PhiSR1_castSucc V c t, PhiSR1_pos V c _ _ hz]
      iintro ⟨⟨⟨HS, HR⟩, Hg⟩, Ho, ⟨%d0, H0⟩, ⟨%d1, H1⟩, ⟨%d2, H2⟩⟩
      iapply ((kernelRunR1_A c (grid1.coords t) _ _ _ _ _ _ _ _ ((hcondR1_0 t).mpr h0) hc1 (iblkR1 V c 0 t) (iblkR1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR1_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun hz => h0 (by rw [hz])
    have hc0 : ¬condR1_0 (grid1.coords t) := fun h => h0 ((hcondR1_0 t).mp h)
    by_cases h1 : t.val % 16 = 15
    · -- j = 15: the update, then the output block
      have hc1 : condR1_1 (grid1.coords t) := (hcondR1_1 t).mpr h1
      rw [show (datR1 V c).leavesExact 2 t = owns (c : Thread nD τ) (msR1_2 t) fullShare ((datR1 V c).after 2 t) from by
        unfold Dat.leavesExact; rw [liveR1_2 t hc1], afterR1_2]
      rw [outsAtR1_pos V c t hz, stepR1_C V c t h0 h1]
      unfold outR1_C soutR1_C; (try dsimp only)
      rw [PhiSR1_castSucc V c t, PhiSR1_pos V c _ _ hz]
      iintro ⟨⟨⟨HS, HR⟩, Hg⟩, Ho, ⟨%d0, H0⟩, ⟨%d1, H1⟩, ⟨%d2, H2⟩⟩
      iapply ((kernelRunR1_C c (grid1.coords t) _ _ _ _ _ _ _ _ hc0 hc1 (iblkR1 V c 0 t) (iblkR1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scoverR1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (coverR1_C c _ _ _ _ _ _ _ _ _ _ _ _ _ _)
    · -- 0 < j < 15: the update only
      have hc1 : ¬condR1_1 (grid1.coords t) := fun h => h1 ((hcondR1_1 t).mp h)
      rw [Dat.leavesExact_idle (datR1 V c) 2 t (idleR1_2 t hc1) (noFlushR1_2 t hc1)]
      rw [outsAtR1_pos V c t hz, stepR1_B V c t h0 h1]
      unfold soutR1_B; (try dsimp only)
      rw [PhiSR1_castSucc V c t, PhiSR1_pos V c _ _ hz]
      iintro ⟨⟨⟨HS, HR⟩, Hg⟩, Ho, ⟨%d0, H0⟩, ⟨%d1, H1⟩, ⟨%d2, H2⟩⟩
      iapply ((kernelRunR1_B c (grid1.coords t) _ _ _ _ _ _ _ _ hc0 hc1 (iblkR1 V c 0 t) (iblkR1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligationR1 (c : Dev nD) : BodyObligation (datR1 (F := F) V c) (defs₀ (F := F)) Variants.none () Set.univ := fun t => by
  rw [bigSep_W1, bigSep_W1]
  exact sound_bodyR1 V c t

/-- What the entry supplies is the invariant before the first point. -/
theorem hinR1 (c : Dev nD) : Pipeline.ΦA spec1 c ⊢ (datR1 V c).Φ 0 := by
  rw [show (datR1 V c).Φ 0 = PhiSR1 V c 0 (Nat.zero_le _) from rfl, PhiSR1_zero V c 0 _ rfl]
  try exact Idealize.SL.BI.Entails.refl _

/-- After the last point the invariant gives the class's back: the scratch's named contents are forgotten. -/
theorem houtR1 (c : Dev nD) : (datR1 V c).Φ (Fin.last cfg1.N) ⊢ Pipeline.ΦA spec1 c := by
  have hne : (Fin.last cfg1.N).val ≠ 0 := by rw [Fin.val_last]; have : cfg1.N = 128 := N_1; omega
  rw [show (datR1 V c).Φ (Fin.last cfg1.N) = PhiSR1 V c (Fin.last cfg1.N).val (Nat.le_of_lt_succ (Fin.last cfg1.N).isLt) from rfl,
    PhiSR1_pos V c _ _ hne, PhiAR1_eq]
  iintro ⟨⟨HS, HR⟩, Hg⟩
  isplitl [HS HR]
  · isplitl [HS]
    · iexists _; iexact HS
    iexact HR
  iexact Hg

end Cert.Kernel.Fr

end
-- ==== Proof.K.R2.Region.lean ====
/-
  The coarse-distance kernel of the third launch, on its grid of one point, as a region of the program entered at
  buffer contents V. Every window is one whole block. The body loads its two input blocks whole, computes the sum over
  all points of the distance between corresponding points from them, loads the output block (a value it never uses) and
  stores the sum over the whole 1×1 output block. Here: the blocks the windows hold as the region finds the arrays,
  what the one store leaves in the output block as a closed function of the two input blocks, the body's triple, the
  pipeline's proof data and the body obligation; and that what the store leaves is the computed sum itself.
-/
import proofs.«148603_j33663953666360_1_alg».proof.Proof.Gen.Kernel.Launch
import proofs.«148603_j33663953666360_1_alg».proof.Proof.Gen.Kernel.Skeleton
import proofs.«148603_j33663953666360_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- The block of window w at point t, cut out of the window's array as the region finds it. -/
def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input window's staging buffer holds its block at the point, for any proof data whose array is the
    region's and whose body leaves the block in place. -/
theorem beforeR2_0_of {c : Dev nD} (dat : Dat τ (Elt F) Unit ℕ (UR sig nD τ) ℕ cfg2 c) (hA : dat.A 0 = V c (Pipeline.arrRef spec2 0))
    (hafter : ∀ t, dat.after 0 t = iblkR2 V c 0 t) (t : Fin cfg2.N) (d) : dat.before 0 t d = iblkR2 V c 0 t :=
  (dat.before_in_eq_fetched 0 rfl (fun _ => rfl) (fun _ _ _ => rfl) (fun t => by rw [hafter]; unfold Dat.blockOf iblkR2; rw [hA]; try rfl) t d).trans
    (by unfold Dat.fetched Dat.blockOf iblkR2; rw [hA]; try rfl)

/-- The second input window's staging buffer holds its block at the point. -/
theorem beforeR2_1_of {c : Dev nD} (dat : Dat τ (Elt F) Unit ℕ (UR sig nD τ) ℕ cfg2 c) (hA : dat.A 1 = V c (Pipeline.arrRef spec2 1))
    (hafter : ∀ t, dat.after 1 t = iblkR2 V c 1 t) (t : Fin cfg2.N) (d) : dat.before 1 t d = iblkR2 V c 1 t :=
  (dat.before_in_eq_fetched 1 rfl (fun _ => rfl) (fun _ _ _ => rfl) (fun t => by rw [hafter]; unfold Dat.blockOf iblkR2; rw [hA]; try rfl) t d).trans
    (by unfold Dat.fetched Dat.blockOf iblkR2; rw [hA]; try rfl)

/-! ## The body's accesses -/

/-- The whole 4×1024×3 block: the rectangle both loads read through. -/
abbrev rinR2 : Rect S4x1024x3 := Rect.unit (s := S4x1024x3) ![0, 0, 0] S4x1024x3.size inb_S4x1024x3_S4x1024x3_0_0_0
/-- The whole 1×1 block: the rectangle of the one store. -/
abbrev routR2 : Rect S1x1 := Rect.unit (s := S1x1) ![0, 0] S1x1.size inb_S1x1_S1x1_0_0

/-! ## What the body leaves in the output block -/

/-- The output window's staging buffer after the body, from the two input blocks: its one store as a piece. -/
def outR2 (x0 x1 : Vec F S4x1024x3 .f32) : Vec F S1x1 .f32 :=
  View.canon [⟨routR2, k2_pay1 (View.ld x0 rinR2) (View.ld x1 rinR2)⟩]

/-- The one store tiles the 1×1 block, so it covers it. -/
theorem coverR2 (p0 : Vec F S1x1 .f32) (y : S1x1.Idx) :
    ∃ pc ∈ ([⟨routR2, p0⟩] : List (View.Piece (Elt F) S1x1 .f32)), y ∈ pc.1.set :=
  View.cover_of_tiled [⟨routR2, p0⟩] S1x1.size (by rfl) y

/-! ## The body's triple -/

set_option maxHeartbeats 1000000 in
/-- The body on whole staging memrefs, the two inputs' at read contents x0 and x1 and the output's at anything, runs
    to the continuation holding the inputs' as they were and the output's at outR2 of the inputs'. -/
theorem sound_kernelR2 (c : Dev nD) (E : Set ℕ) (i : grid2.Coords)
    (arg1 : Memref sig .tc .vmem S4x1024x3 .f32) (harg1 : arg1.IsWhole)
    (arg2 : Memref sig .tc .vmem S4x1024x3 .f32) (harg2 : arg2.IsWhole)
    (arg3 : Memref sig .tc .vmem S1x1 .f32) (harg3 : arg3.IsWhole)
    (x0 x1 : Vec F S4x1024x3 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outR2 x0 x1)) -∗ K ⟨⟩))
      ⊢ wp frame (wpE (defs₀ (F := F)) Variants.none c none) E (cc2__coarse_kernel i arg1 harg1 arg2 harg2 arg3 harg3) K := by
  simp only [cc2__coarse_kernel_eq_skeleton]; unfold cc2__coarse_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverR2 _)

/-! ## The pipeline's proof data -/

/-- The proof data of the launch on core c: the arrays as the region finds them; after the body at the point each
    input's buffer at its block and the output's at outR2 of the two input blocks; the invariant the scoped rest and
    the generator register, untouched; nothing owed; full shares. -/
def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => outR2 (iblkR2 V c 0 t) (iblkR2 V c 1 t)
  Φ _ := Pipeline.ΦA spec2 c
  q _ := fullShare
  owed _ := 0

/-- The proof data's arrays are the region-entry contents. -/
theorem A_eqR2 (c : Dev nD) (w : Fin cfg2.W) : (datR2 V c).A w = V c (Pipeline.arrRef spec2 w) := by
  dsimp only [datR2]

/-- What the body leaves, window by window. -/
theorem afterR2_0 (c : Dev nD) (t : Fin cfg2.N) : (datR2 V c).after 0 t = iblkR2 V c 0 t := by dsimp only [datR2]
theorem afterR2_1 (c : Dev nD) (t : Fin cfg2.N) : (datR2 V c).after 1 t = iblkR2 V c 1 t := by dsimp only [datR2]
theorem afterR2_2 (c : Dev nD) (t : Fin cfg2.N) : (datR2 V c).after 2 t = outR2 (iblkR2 V c 0 t) (iblkR2 V c 1 t) := by dsimp only [datR2]

/-- Each input's staging buffer holds its block at the point. -/
theorem beforeR2_0 (c : Dev nD) (t : Fin cfg2.N) (d) : (datR2 V c).before 0 t d = iblkR2 V c 0 t :=
  beforeR2_0_of V (datR2 V c) (A_eqR2 V c 0) (afterR2_0 V c) t d
theorem beforeR2_1 (c : Dev nD) (t : Fin cfg2.N) (d) : (datR2 V c).before 1 t d = iblkR2 V c 1 t :=
  beforeR2_1_of V (datR2 V c) (A_eqR2 V c 1) (afterR2_1 V c) t d

/-! ## The body obligation, at a generic point -/

/-- What the body is called with at point t, the windows one by one, -/
def bodyPreR2 (c : Dev nD) (t : Fin cfg2.N) : sProp 𝕄 :=
  iprop((datR2 V c).Φ t.castSucc ∗ (datR2 V c).owesAt () t.castSucc
    ∗ (∃ d, owns (c : Thread nD τ) (st2_0 t) fullShare ((datR2 V c).before 0 t d))
    ∗ (∃ d, owns (c : Thread nD τ) (st2_1 t) fullShare ((datR2 V c).before 1 t d))
    ∗ (∃ d, owns (c : Thread nD τ) (st2_2 t) fullShare ((datR2 V c).before 2 t d)))

/-- and what it returns. -/
def bodyPostR2 (c : Dev nD) (t : Fin cfg2.N) : sProp 𝕄 :=
  iprop((datR2 V c).Φ t.succ ∗ (datR2 V c).owesAt () t.succ
    ∗ owns (c : Thread nD τ) (st2_0 t) fullShare ((datR2 V c).after 0 t)
    ∗ owns (c : Thread nD τ) (st2_1 t) fullShare ((datR2 V c).after 1 t)
    ∗ owns (c : Thread nD τ) (st2_2 t) fullShare ((datR2 V c).after 2 t))

/-- The body at the point: the inputs' memrefs hold their blocks, so the body's triple applies; the invariant and the
    core's debts pass through unread. -/
theorem sound_bodyR2 (c : Dev nD) (t : Fin cfg2.N) :
    bodyPreR2 V c t ⊢ wp frame (wpE (defs₀ (F := F)) Variants.none c none) Set.univ (bodyAt2 t) (fun _ => bodyPostR2 V c t) := by
  unfold bodyPreR2 bodyPostR2 bodyAt2
  simp only [beforeR2_0, beforeR2_1]
  rw [show (datR2 V c).Φ t.succ = (datR2 V c).Φ t.castSucc from rfl,
    show (datR2 V c).owesAt () t.succ = (datR2 V c).owesAt () t.castSucc from rfl,
    afterR2_0, afterR2_1, afterR2_2]
  iintro ⟨HΦ, Ho, ⟨%d0, H0⟩, ⟨%d1, H1⟩, ⟨%d2, H2⟩⟩
  iapply (sound_kernelR2 c Set.univ _ _ _ _ _ _ _ (iblkR2 V c 0 t) (iblkR2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligationR2 (c : Dev nD) : BodyObligation (datR2 (F := F) V c) (defs₀ (F := F)) Variants.none () Set.univ := fun t => by
  rw [bigSep_W2, bigSep_W2]
  exact sound_bodyR2 V c t

/-! ## The one store covers the block -/

/-- A load through the whole block reads the contents, and the one store through the whole 1×1 block leaves its
    payload: what the body leaves in the output block is the computed sum of the two input blocks. -/
theorem outR2_eq (x0 x1 : Vec F S4x1024x3 .f32) : outR2 x0 x1 = k2_pay1 x0 x1 := by
  have h3 : (![0, 0, 0] : Fin 3 → ℕ) = fun _ => 0 := by funext a; fin_cases a <;> rfl
  have h2 : (![0, 0] : Fin 2 → ℕ) = fun _ => 0 := by funext a; fin_cases a <;> rfl
  unfold outR2
  rw [View.canon_unit_zero (S := S1x1) h2, View.ld_unit_zero (S := S4x1024x3) h3, View.ld_unit_zero (S := S4x1024x3) h3]

end Cert.Kernel.Fr

end
-- ==== Proof.K.Frame.lean ====
/-
  The three launches put together. Between two items of the program every core holds its unscoped buffers at a
  known valuation: the launch contents; after the first launch the same with its output array at what its
  write-backs leave; after a stretch of host operations the stretch applied; and so on to the end. Each launch is a
  region entered from the valuation before it and left at the one after it: its arrays are split out of the
  unscoped buffers on entry and put back at their final contents on exit, the generator register goes into the
  region's invariant and comes back, nothing is owed, and no kernel has a semaphore of its own.
-/
import proofs.«148603_j33663953666360_1_alg».proof.Proof.K.R0.Body
import proofs.«148603_j33663953666360_1_alg».proof.Proof.K.R1.Body
import proofs.«148603_j33663953666360_1_alg».proof.Proof.K.R2.Region
import proofs.«148603_j33663953666360_1_alg».proof.Proof.K.RunCond
import Idealize.ShloMosaic.Lib.Pipeline.RegionsLoop

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references: what a region's proof data take. -/
abbrev rd (W : Dev nD → Valuation τ sig (Elt F)) : (c : Dev nD) → (b : Ref sig .tc) → Buf (Elt F) ((c : Thread nD τ).loc b) := fun c b => W c b

/-! ## The valuations between the items -/

/-- After the first launch: its output array at what its write-backs leave, every other buffer as launched. -/
def U1 (c : Dev nD) : Valuation τ sig (Elt F) := Function.update (V0 m c) main_v0 ((datR0 (rd (V0 m)) c).arrAt 2 cfg0.N)
/-- After the first stretch of host operations. -/
def U2 (c : Dev nD) : Valuation τ sig (Elt F) := StableHlo.after hostOps1 (U1 m c)
/-- After the second launch. -/
def U3 (c : Dev nD) : Valuation τ sig (Elt F) := Function.update (U2 m c) main_v2 ((datR1 (rd (U2 m)) c).arrAt 2 cfg1.N)
/-- After the second stretch. -/
def U4 (c : Dev nD) : Valuation τ sig (Elt F) := StableHlo.after hostOps2 (U3 m c)
/-- After the third launch. -/
def U5 (c : Dev nD) : Valuation τ sig (Elt F) := Function.update (U4 m c) main_v8 ((datR2 (rd (U4 m)) c).arrAt 2 cfg2.N)
/-- After the last stretch. -/
def U6 (c : Dev nD) : Valuation τ sig (Elt F) := StableHlo.after hostOps3 (U5 m c)

/-- What the launches leave in the buffers they may change, read off those valuations. -/
def outsF : Outs (F := F) := fun J r c =>
  match J with
  | 1 => U1 m c r
  | 3 => U3 m c r
  | 5 => U5 m c r
  | _ => V0 m c r

theorem outsF_1 (c : Dev nD) : outsF m 1 main_v0 c = (datR0 (rd (V0 m)) c).arrAt 2 cfg0.N := by
  show U1 m c (Proc.devRef .tc main_v0) = _
  unfold U1
  exact Function.update_self (Proc.devRef .tc main_v0 : DevRef τ sig) _ (V0 m c)
theorem outsF_3 (c : Dev nD) : outsF m 3 main_v2 c = (datR1 (rd (U2 m)) c).arrAt 2 cfg1.N := by
  show U3 m c (Proc.devRef .tc main_v2) = _
  unfold U3
  exact Function.update_self (Proc.devRef .tc main_v2 : DevRef τ sig) _ (U2 m c)
theorem outsF_5 (c : Dev nD) : outsF m 5 main_v8 c = (datR2 (rd (U4 m)) c).arrAt 2 cfg2.N := by
  show U5 m c (Proc.devRef .tc main_v8) = _
  unfold U5
  exact Function.update_self (Proc.devRef .tc main_v8 : DevRef τ sig) _ (U4 m c)

theorem V1_eq (c : Dev nD) : V1 m (outsF m) c = U1 m c := by
  show Function.update (V0 m c) main_v0 (outsF m 1 main_v0 c) = _
  rw [outsF_1]; rfl
theorem V2_eq (c : Dev nD) : V2 m (outsF m) c = U2 m c := by
  show StableHlo.after hostOps1 (V1 m (outsF m) c) = StableHlo.after hostOps1 (U1 m c); rw [V1_eq]
theorem V3_eq (c : Dev nD) : V3 m (outsF m) c = U3 m c := by
  show Function.update (V2 m (outsF m) c) main_v2 (outsF m 3 main_v2 c) = _
  rw [outsF_3, V2_eq]; rfl
theorem V4_eq (c : Dev nD) : V4 m (outsF m) c = U4 m c := by
  show StableHlo.after hostOps2 (V3 m (outsF m) c) = StableHlo.after hostOps2 (U3 m c); rw [V3_eq]
theorem V5_eq (c : Dev nD) : V5 m (outsF m) c = U5 m c := by
  show Function.update (V4 m (outsF m) c) main_v8 (outsF m 5 main_v8 c) = _
  rw [outsF_5, V4_eq]; rfl
theorem V6_eq (c : Dev nD) : V6 m (outsF m) c = U6 m c := by
  show StableHlo.after hostOps3 (V5 m (outsF m) c) = StableHlo.after hostOps3 (U5 m c); rw [V5_eq]

/-! ## The proof data family and what rides along -/

abbrev 𝒱₀ : Variants := Variants.none
abbrev Lz : GSem nD τ sig → Finset Unit := fun _ => ∅
abbrev lvz : GSem nD τ sig → Unit → ℕ := fun _ _ => 0
/-- Beside the buffers through every item: the generator register at some state, and nothing owed. -/
abbrev Rr (c : Dev nD) : sProp 𝕄 := iprop((∃ r, prngReg c r) ∗ ∃ W, owes (c : Thread nD τ) (0 : CellTallies nD τ sig Unit) W)

/-- The proof data of every launch, each at the valuation its region is entered from. -/
def pdatsF : (p : Fin 3) → (c : Dev nD) → Dat τ (Elt F) Unit ℕ (UR sig nD τ) ℕ (cfgs p) c
  | ⟨0, _⟩ => fun c => datR0 (rd (V0 m)) c
  | ⟨1, _⟩ => fun c => datR1 (rd (U2 m)) c
  | ⟨2, _⟩ => fun c => datR2 (rd (U4 m)) c

/-- At launch 0's exit each of its arrays holds what the pipeline leaves: an input its entry contents, the output
    what the write-backs leave. -/
theorem hF0 (c : Dev nD) (w : Fin cfg0.W) : (pdatsF m 0 c).arrAt w cfg0.N = rd (U1 m) c (Pipeline.arrRef spec0 w) := by
  match w with
  | ⟨0, _⟩ =>
    refine ((pdatsF m 0 c).arrAt_in 0 rfl _).trans ?_
    show (datR0 (rd (V0 m)) c).A 0 = _
    rw [A_eqR0]
    exact (Function.update_of_ne (StableHlo.devRef_ne_of_ne (show (main_arg1 : Ref sig .tc) ≠ main_v0 by decide)) _ (V0 m c)).symm
  | ⟨1, _⟩ =>
    refine ((pdatsF m 0 c).arrAt_in 1 rfl _).trans ?_
    show (datR0 (rd (V0 m)) c).A 1 = _
    rw [A_eqR0]
    exact (Function.update_of_ne (StableHlo.devRef_ne_of_ne (show (main_arg2 : Ref sig .tc) ≠ main_v0 by decide)) _ (V0 m c)).symm
  | ⟨2, _⟩ =>
    exact (Function.update_self (Proc.devRef .tc main_v0 : DevRef τ sig) ((datR0 (rd (V0 m)) c).arrAt 2 cfg0.N) (V0 m c)).symm
/-- Every other buffer is as at the entry. -/
theorem hrest0 (c : Dev nD) : ∀ b, b ∉ Finset.univ.image (Pipeline.arrRef spec0) → rd (U1 m) c b = rd (V0 m) c b := by
  intro b hb
  have hne : b ≠ main_v0 := fun e => hb (Finset.mem_image.mpr ⟨2, Finset.mem_univ _, e.symm ▸ rfl⟩)
  exact Function.update_of_ne (StableHlo.devRef_ne_of_ne hne) _ (V0 m c)

/-- At launch 1's exit each of its arrays holds what the pipeline leaves: an input its entry contents, the output
    what the write-backs leave. -/
theorem hF1 (c : Dev nD) (w : Fin cfg1.W) : (pdatsF m 1 c).arrAt w cfg1.N = rd (U3 m) c (Pipeline.arrRef spec1 w) := by
  match w with
  | ⟨0, _⟩ =>
    refine ((pdatsF m 1 c).arrAt_in 0 rfl _).trans ?_
    show (datR1 (rd (U2 m)) c).A 0 = _
    rw [A_eqR1]
    exact (Function.update_of_ne (StableHlo.devRef_ne_of_ne (show (main_arg2 : Ref sig .tc) ≠ main_v2 by decide)) _ (U2 m c)).symm
  | ⟨1, _⟩ =>
    refine ((pdatsF m 1 c).arrAt_in 1 rfl _).trans ?_
    show (datR1 (rd (U2 m)) c).A 1 = _
    rw [A_eqR1]
    exact (Function.update_of_ne (StableHlo.devRef_ne_of_ne (show (main_arg1 : Ref sig .tc) ≠ main_v2 by decide)) _ (U2 m c)).symm
  | ⟨2, _⟩ =>
    exact (Function.update_self (Proc.devRef .tc main_v2 : DevRef τ sig) ((datR1 (rd (U2 m)) c).arrAt 2 cfg1.N) (U2 m c)).symm
/-- Every other buffer is as at the entry. -/
theorem hrest1 (c : Dev nD) : ∀ b, b ∉ Finset.univ.image (Pipeline.arrRef spec1) → rd (U3 m) c b = rd (U2 m) c b := by
  intro b hb
  have hne : b ≠ main_v2 := fun e => hb (Finset.mem_image.mpr ⟨2, Finset.mem_univ _, e.symm ▸ rfl⟩)
  exact Function.update_of_ne (StableHlo.devRef_ne_of_ne hne) _ (U2 m c)

/-- At launch 2's exit each of its arrays holds what the pipeline leaves: an input its entry contents, the output
    what the write-backs leave. -/
theorem hF2 (c : Dev nD) (w : Fin cfg2.W) : (pdatsF m 2 c).arrAt w cfg2.N = rd (U5 m) c (Pipeline.arrRef spec2 w) := by
  match w with
  | ⟨0, _⟩ =>
    refine ((pdatsF m 2 c).arrAt_in 0 rfl _).trans ?_
    show (datR2 (rd (U4 m)) c).A 0 = _
    rw [A_eqR2]
    exact (Function.update_of_ne (StableHlo.devRef_ne_of_ne (show (main_arg0 : Ref sig .tc) ≠ main_v8 by decide)) _ (U4 m c)).symm
  | ⟨1, _⟩ =>
    refine ((pdatsF m 2 c).arrAt_in 1 rfl _).trans ?_
    show (datR2 (rd (U4 m)) c).A 1 = _
    rw [A_eqR2]
    exact (Function.update_of_ne (StableHlo.devRef_ne_of_ne (show (main_arg3 : Ref sig .tc) ≠ main_v8 by decide)) _ (U4 m c)).symm
  | ⟨2, _⟩ =>
    exact (Function.update_self (Proc.devRef .tc main_v8 : DevRef τ sig) ((datR2 (rd (U4 m)) c).arrAt 2 cfg2.N) (U4 m c)).symm
/-- Every other buffer is as at the entry. -/
theorem hrest2 (c : Dev nD) : ∀ b, b ∉ Finset.univ.image (Pipeline.arrRef spec2) → rd (U5 m) c b = rd (U4 m) c b := by
  intro b hb
  have hne : b ≠ main_v8 := fun e => hb (Finset.mem_image.mpr ⟨2, Finset.mem_univ _, e.symm ▸ rfl⟩)
  exact Function.update_of_ne (StableHlo.devRef_ne_of_ne hne) _ (U4 m c)

/-- The third launch keeps nothing between points: its invariant is the class's at both ends. -/
theorem hinR2 (V : (c : Dev nD) → (b : Ref sig .tc) → Buf (Elt F) ((c : Thread nD τ).loc b)) (c : Dev nD) :
    Pipeline.ΦA spec2 c ⊢ (datR2 V c).Φ 0 := by
  rw [show (datR2 V c).Φ 0 = Pipeline.ΦA spec2 c from rfl]
theorem houtR2 (V : (c : Dev nD) → (b : Ref sig .tc) → Buf (Elt F) ((c : Thread nD τ).loc b)) (c : Dev nD) :
    (datR2 V c).Φ (Fin.last cfg2.N) ⊢ Pipeline.ΦA spec2 c := by
  rw [show (datR2 V c).Φ (Fin.last cfg2.N) = Pipeline.ΦA spec2 c from rfl]

/-! ## The launches as regions -/

-- `iapply` of a library lemma stated over the pinned configuration unifies only when unification may unfold plain
-- definitions in a metavariable's type
set_option backward.isDefEq.respectTransparency.types false in
/-- Launch 0 as a region: entered from every unscoped buffer at `V0 m`, left at `U1 m`. -/
def reg0 : RegionSeg (pcfgs (F := F)) adm (pdatsF m) () defs₀ 𝒱₀ Lz lvz 0 where
  win := launch0.win.to₀
  block_pos := launch0.block_pos
  stage_whole := launch0.stage_whole
  K := PEmpty
  osem k := k.elim
  ho := Pipeline.OwnSemFacts.none _
  hbody c := (body_obligationR0 (rd (V0 m)) c).loose
  hwaits := Pipeline.hwaits_of_owed_zero _ _ _ _ Lz lvz 0 fun _ _ => rfl
  pre c := iprop(StableHlo.held (c : Thread nD τ) (Pipeline.ucRefs τ sig) (V0 m c) ∗ Rr c)
  post c := iprop(StableHlo.held (c : Thread nD τ) (Pipeline.ucRefs τ sig) (U1 m c) ∗ Rr c)
  X c := iprop(∃ r, prngReg c r)
  Y c := iprop(∃ r, prngReg c r)
  Z c := Pipeline.unscopedRest (Ix := Unit) (Name := ℕ) (U := UR sig nD τ) (Lvl := ℕ) spec0 c (rd (V0 m) c)
  hentry c := by
    rw [Pipeline.ownSems0_none]
    have hsplit := Pipeline.arrays_of_unscopedBufs (p := 0) (pcfgs (F := F)) adm (pdatsF m) launch0.win launch0.arr_whole c
      ((pdatsF m 0 c).share_full fun _ => rfl) (rd (V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hinR0 (rd (V0 m)) c
    unfold Pipeline.ΦA at h
    rw [show (pdatsF m 0 c).Φ 0 = (datR0 (rd (V0 m)) c).Φ 0 from rfl]
    iintro ⟨Hp, -, Hr⟩
    iapply h
    isplitl [Hr]; · iexact Hr
    iexact Hp
  hout c := by
    rw [Pipeline.ownSems0_none]
    have h := houtR0 (rd (V0 m)) c
    unfold Pipeline.ΦA at h
    rw [show (pdatsF m 0 c).Φ (Fin.last _) = (datR0 (rd (V0 m)) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsF m) ((pdatsF m 0 c).share_full fun _ => rfl)
      (rd (V0 m) c) (rd (U1 m) c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Launch 1 as a region: entered from every unscoped buffer at `U2 m`, left at `U3 m`. -/
def reg1 : RegionSeg (pcfgs (F := F)) adm (pdatsF m) () defs₀ 𝒱₀ Lz lvz 1 where
  win := launch1.win.to₀
  block_pos := launch1.block_pos
  stage_whole := launch1.stage_whole
  K := PEmpty
  osem k := k.elim
  ho := Pipeline.OwnSemFacts.none _
  hbody c := (body_obligationR1 (rd (U2 m)) c).loose
  hwaits := Pipeline.hwaits_of_owed_zero _ _ _ _ Lz lvz 1 fun _ _ => rfl
  pre c := iprop(StableHlo.held (c : Thread nD τ) (Pipeline.ucRefs τ sig) (U2 m c) ∗ Rr c)
  post c := iprop(StableHlo.held (c : Thread nD τ) (Pipeline.ucRefs τ sig) (U3 m c) ∗ Rr c)
  X c := iprop(∃ r, prngReg c r)
  Y c := iprop(∃ r, prngReg c r)
  Z c := Pipeline.unscopedRest (Ix := Unit) (Name := ℕ) (U := UR sig nD τ) (Lvl := ℕ) spec1 c (rd (U2 m) c)
  hentry c := by
    rw [Pipeline.ownSems0_none]
    have hsplit := Pipeline.arrays_of_unscopedBufs (p := 1) (pcfgs (F := F)) adm (pdatsF m) launch1.win launch1.arr_whole c
      ((pdatsF m 1 c).share_full fun _ => rfl) (rd (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hinR1 (rd (U2 m)) c
    unfold Pipeline.ΦA at h
    rw [show (pdatsF m 1 c).Φ 0 = (datR1 (rd (U2 m)) c).Φ 0 from rfl]
    iintro ⟨Hp, -, Hr⟩
    iapply h
    isplitl [Hr]; · iexact Hr
    iexact Hp
  hout c := by
    rw [Pipeline.ownSems0_none]
    have h := houtR1 (rd (U2 m)) c
    unfold Pipeline.ΦA at h
    rw [show (pdatsF m 1 c).Φ (Fin.last _) = (datR1 (rd (U2 m)) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsF m) ((pdatsF m 1 c).share_full fun _ => rfl)
      (rd (U2 m) c) (rd (U3 m) c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Launch 2 as a region: entered from every unscoped buffer at `U4 m`, left at `U5 m`. -/
def reg2 : RegionSeg (pcfgs (F := F)) adm (pdatsF m) () defs₀ 𝒱₀ Lz lvz 2 where
  win := launch2.win.to₀
  block_pos := launch2.block_pos
  stage_whole := launch2.stage_whole
  K := PEmpty
  osem k := k.elim
  ho := Pipeline.OwnSemFacts.none _
  hbody c := (body_obligationR2 (rd (U4 m)) c).loose
  hwaits := Pipeline.hwaits_of_owed_zero _ _ _ _ Lz lvz 2 fun _ _ => rfl
  pre c := iprop(StableHlo.held (c : Thread nD τ) (Pipeline.ucRefs τ sig) (U4 m c) ∗ Rr c)
  post c := iprop(StableHlo.held (c : Thread nD τ) (Pipeline.ucRefs τ sig) (U5 m c) ∗ Rr c)
  X c := iprop(∃ r, prngReg c r)
  Y c := iprop(∃ r, prngReg c r)
  Z c := Pipeline.unscopedRest (Ix := Unit) (Name := ℕ) (U := UR sig nD τ) (Lvl := ℕ) spec2 c (rd (U4 m) c)
  hentry c := by
    rw [Pipeline.ownSems0_none]
    have hsplit := Pipeline.arrays_of_unscopedBufs (p := 2) (pcfgs (F := F)) adm (pdatsF m) launch2.win launch2.arr_whole c
      ((pdatsF m 2 c).share_full fun _ => rfl) (rd (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hinR2 (rd (U4 m)) c
    unfold Pipeline.ΦA at h
    rw [show (pdatsF m 2 c).Φ 0 = (datR2 (rd (U4 m)) c).Φ 0 from rfl]
    iintro ⟨Hp, -, Hr⟩
    iapply h
    isplitl [Hr]; · iexact Hr
    iexact Hp
  hout c := by
    rw [Pipeline.ownSems0_none]
    have h := houtR2 (rd (U4 m)) c
    unfold Pipeline.ΦA at h
    rw [show (pdatsF m 2 c).Φ (Fin.last _) = (datR2 (rd (U4 m)) c).Φ (Fin.last cfg2.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsF m) ((pdatsF m 2 c).share_full fun _ => rfl)
      (rd (U4 m) c) (rd (U5 m) c) ((pdatsF m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one
set_option backward.isDefEq.respectTransparency.types false in
/-- From any memory with zero counters every weakly fair execution of the program terminates, nothing faulting,
    and every core's unscoped buffers end at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m c b) := by
  have h := run_cond (F := F) m emb₁ () 𝒱₀ Lz lvz (fun _ _ => rfl) ρ (outsF m) (pdatsF m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => by rw [V1_eq]; exact .rfl)
    (reg1 m) (fun c => by rw [V2_eq]; exact .rfl) (fun c => by rw [V3_eq]; exact .rfl)
    (reg2 m) (fun c => by rw [V4_eq]; exact .rfl) (fun c => by rw [V5_eq]; exact .rfl)
  refine (θ_run defs _ _).mono (fun r hr c b hb => ?_) h
  rw [← V6_eq]; exact hr c b hb

/-- The frame claim's post: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ?_) (run_all m ρ)
  have hmem : ∀ b : Ref sig .tc, ¬ (Proc.devRef .tc b : DevRef τ sig).isScoped → Proc.devRef .tc b ∈ Pipeline.ucRefs τ sig :=
    fun b h => Finset.mem_filter.mpr ⟨StableHlo.devRef_mem_tcRefs b, h⟩
  refine ⟨?_, ?_, ?_, ?_⟩
  · exact (hr c _ (hmem main_arg0 (by decide))).trans ((V6_eq m c ▸ rfl : U6 m c main_arg0 = V6 m (outsF m) c main_arg0).trans (V6_main_arg0 m (outsF m) c))
  · exact (hr c _ (hmem main_arg1 (by decide))).trans ((V6_eq m c ▸ rfl : U6 m c main_arg1 = V6 m (outsF m) c main_arg1).trans (V6_main_arg1 m (outsF m) c))
  · exact (hr c _ (hmem main_arg2 (by decide))).trans ((V6_eq m c ▸ rfl : U6 m c main_arg2 = V6 m (outsF m) c main_arg2).trans (V6_main_arg2 m (outsF m) c))
  · exact (hr c _ (hmem main_arg3 (by decide))).trans ((V6_eq m c ▸ rfl : U6 m c main_arg3 = V6 m (outsF m) c main_arg3).trans (V6_main_arg3 m (outsF m) c))

end Cert.Kernel.Fr

end
-- ==== Proof.KI.R0.Shared.lean ====
/-
  The nearest-neighbour kernel of the first launch, on its grid of 8 query tiles by 16 candidate tiles: what its
  three body runs share. A point is the pair (i, j); the body resets its running-minimum scratch where j = 0,
  lowers it by the tile's minima at every point, and stores the square roots into the output block where j = 15.
  Here: the blocks the windows hold at a point as the region finds the arrays, the two branch conditions in closed
  form over the linear point index (j = t mod 16), where the output window is idle and where it is written back,
  and the memrefs the body is called with.
-/
import proofs.«148603_j33663953666360_1_alg».proof.Proof.Gen.KernelIdeal.Launch
import proofs.«148603_j33663953666360_1_alg».proof.Proof.Gen.KernelIdeal.Skeleton
import proofs.«148603_j33663953666360_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- The block of window `w` at point `t`, cut out of the window's array as the region finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The query window's staging buffer holds the query block at every point: it is fetched where i changes and left
    in place by the body in between. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

/-- The candidate window's staging buffer holds the candidate block at every point. -/
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-! ## The two branch conditions -/

/-- "j = 0", as the body computes it from the point's coordinates. -/
abbrev condR0_0 (i : grid0.Coords) : Prop := (Scalar.cmpi .ne (Scalar.extui (Scalar.cmpi .eq (BitVec.ofNat 32 (i 1).val) 0#32)) 0#32) = 1#1
theorem hcondR0_0 : ∀ t : Fin cfg0.N, condR0_0 (grid0.coords t) ↔ t.val % 16 = 0 :=
  (by decide +kernel : ∀ t : Fin grid0.N, condR0_0 (grid0.coords t) ↔ t.val % 16 = 0)

/-- "j = 15", as the body computes it. -/
abbrev condR0_1 (i : grid0.Coords) : Prop := k0_cond2 i = 1#1
theorem hcondR0_1 : ∀ t : Fin cfg0.N, condR0_1 (grid0.coords t) ↔ t.val % 16 = 15 :=
  (by decide +kernel : ∀ t : Fin grid0.N, condR0_1 (grid0.coords t) ↔ t.val % 16 = 15)

/-! ## Where the windows are idle -/

theorem liveR0_0 : ∀ t : Fin cfg0.N, cfg0.idle 0 (grid0.coords t) = false := by decide +kernel
theorem liveR0_1 : ∀ t : Fin cfg0.N, cfg0.idle 1 (grid0.coords t) = false := by decide +kernel
/-- Away from j = 15 the body stores nothing into the output block, and the pipeline does not write it back. -/
theorem idleR0_2 : ∀ t : Fin cfg0.N, ¬condR0_1 (grid0.coords t) → cfg0.idle 2 (grid0.coords t) = true := by decide +kernel
theorem noFlushR0_2 : ∀ t : Fin cfg0.N, ¬condR0_1 (grid0.coords t) → (cfg0.win 2).flush t = false := by decide +kernel
/-- At j = 15 it stores the whole block. -/
theorem liveR0_2 : ∀ t : Fin cfg0.N, condR0_1 (grid0.coords t) → cfg0.idle 2 (grid0.coords t) = false := by decide +kernel

/-! ## The memrefs the body is called with -/

abbrev msR0_0 (t : Fin cfg0.N) : Memref sig .tc .vmem S4x1024x3 .f32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S4x512x3 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S4x1024 .f32 := win0_2.stage (cfg0.slots t 2)
abbrev hsR0_2 (t : Fin cfg0.N) : (msR0_2 t).IsWhole := hstage0_2 ((cfg0.slots t 2).cast nbuf0_2)
/-- The running-minimum scratch, a whole scoped buffer of the kernel's own. -/
abbrev scR0 : Memref sig .tc .vmem S4x1024 .f32 := Memref.whole cc0_scratch0
/-- The views through which the output block's and the scratch's contents are stated. -/
abbrev VOR0 : View sig .tc .vmem S4x1024 .f32 := (Memref.whole cc0_stg2_0 : Memref sig .tc .vmem S4x1024 .f32).view
abbrev VSR0 : View sig .tc .vmem S4x1024 .f32 := scR0.view

/-- The core's other scoped buffers (the other launches' staging buffers and scratch), carried unopened. -/
abbrev RestR0 (c : Dev nD) : sProp 𝕄 :=
  Pipeline.scopedRestBut (Ix := Unit) (Name := ℕ) (U := UR sig nD τ) (Lvl := ℕ) (Val := Elt F) spec0 c [cc0_scratch0]

/-- What the region's invariant holds before the first point: the scratch as a memref owned at some contents, the
    other scoped buffers, and the generator register. -/
theorem PhiAR0_eq (c : Dev nD) :
    (Pipeline.ΦA spec0 c : sProp 𝕄)
      = iprop(iprop((∃ d, owns (c : Thread nD τ) scR0 fullShare d) ∗ RestR0 c) ∗ (∃ r, prngReg c r)) := by
  unfold Pipeline.ΦA
  rw [Pipeline.scopedRest_split_of_list spec0 c [cc0_scratch0] (by decide) (by decide)]
  simp only [scR0, owns_whole]; try rfl

end Cert.KernelIdeal.Fr

end
-- ==== Proof.KI.R0.RunA.lean ====
/-
  The body of the first launch's kernel at a point with j = 0: the first branch is taken, the second is not. It
  overwrites the running-minimum scratch with +∞, then loads the query block, the candidate block and the scratch, and
  stores the lowered minima; the output block is not touched. Whatever the scratch held on entry is overwritten before
  it matters. The pieces the scratch ends with are found by running the body.
-/
import proofs.«148603_j33663953666360_1_alg».proof.Proof.KI.R0.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the two input blocks at their contents, the output block at contents handed back untouched,
    the scratch at anything — the body runs to the continuation with the inputs and the output block as they were
    and the scratch with its pieces written. -/
noncomputable def kernelRunR0_A (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : condR0_0 i) (hc1 : ¬condR0_1 i)
    (x0 : Vec F S4x1024x3 .f32) (x1 : Vec F S4x512x3 .f32) :
    { LS : List (View.Piece (Elt F) S4x1024 .f32) //
      ∀ (xi2 : Vec F S4x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.KI.R0.RunB.lean ====
/-
  The body of the first launch's kernel at a point with 0 < j < 15: neither branch is taken. It loads the query
  block, the candidate block and the running minima, and stores the lowered minima back into the scratch; the output
  block is not touched. The pieces the scratch ends with are found by running the body.
-/
import proofs.«148603_j33663953666360_1_alg».proof.Proof.KI.R0.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the two input blocks at their contents, the output block at contents handed back untouched,
    the scratch at what the point before left — the body runs to the continuation with the inputs and the output
    block as they were and the scratch with its pieces written. -/
noncomputable def kernelRunR0_B (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : ¬condR0_0 i) (hc1 : ¬condR0_1 i)
    (x0 : Vec F S4x1024x3 .f32) (x1 : Vec F S4x512x3 .f32) (xs : Vec F S4x1024 .f32) :
    { LS : List (View.Piece (Elt F) S4x1024 .f32) //
      ∀ (xi2 : Vec F S4x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, fun xi2 E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.KI.R0.RunC.lean ====
/-
  The body of the first launch's kernel at a point with j = 15: the first branch is not taken, the second is. It
  loads the query block, the candidate block and the running minima, stores the lowered minima back into the scratch,
  then loads the scratch again and stores its square roots over the whole output block. The pieces the output block
  and the scratch end with are found by running the body.
-/
import proofs.«148603_j33663953666360_1_alg».proof.Proof.KI.R0.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the two input blocks at their contents, the output block at anything, the scratch at what the
    point before left — the body runs to the continuation with the inputs as they were and the output block and the
    scratch with their pieces written. -/
noncomputable def kernelRunR0_C (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : ¬condR0_0 i) (hc1 : condR0_1 i)
    (x0 : Vec F S4x1024x3 .f32) (x1 : Vec F S4x512x3 .f32) (xs : Vec F S4x1024 .f32) :
    Σ' (L2 : List (View.Piece (Elt F) S4x1024 .f32)), { LS : List (View.Piece (Elt F) S4x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__nn_min_kernel i arg2 harg2 arg3 harg3 arg4 harg4 arg5 harg5) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.Fr

end
-- ==== Proof.KI.R0.Region.lean ====
/-
  The first launch as a region of the program, at the contents `V` the region finds in the TensorCore's buffers.

  What each of the three body cases leaves in the running-minimum scratch and in the output block is read back from
  the pieces its run found. `outsAtR0 n` is the pair (output block, scratch) after the point of linear index n,
  by recursion on n: a point with j = 0 forgets what came before (the scratch is reset there), every other point
  lowers the scratch the point before left, and a point with j = 15 also emits the output block from it.
  The region's invariant before point n ≥ 1 holds the scratch at exactly `(outsAtR0 (n−1)).2`; before the first
  point it holds it at anything. With that, the body's three runs discharge the body obligation at every point.
-/
import proofs.«148603_j33663953666360_1_alg».proof.Proof.KI.R0.RunA
import proofs.«148603_j33663953666360_1_alg».proof.Proof.KI.R0.RunB
import proofs.«148603_j33663953666360_1_alg».proof.Proof.KI.R0.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output block where the body stores nothing into it: at those points the block is neither
    written back nor read, so nothing consults it. -/
def idleOutR0 : Vec F S4x1024 .f32 := VOR0.read (Elt F) (VOR0.writes (Elt F) VOR0.junk [])

section Cases
variable (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)

theorem scoverR0_A (hc0 : condR0_0 i) (hc1 : ¬condR0_1 i) (x0 : Vec F S4x1024x3 .f32) (x1 : Vec F S4x512x3 .f32) (y : S4x1024.Idx) :
    ∃ pc ∈ (kernelRunR0_A c i arg2 harg2 arg3 harg3 arg4 harg4 arg5 harg5 hc0 hc1 x0 x1).1, y ∈ pc.1.set :=
  View.cover_of_tiledL (kernelRunR0_A c i arg2 harg2 arg3 harg3 arg4 harg4 arg5 harg5 hc0 hc1 x0 x1).1 S4x1024.size (by sl_kernel_rfl) y

/-- The scratch after a point with j = 0. -/
def soutR0_A (hc0 : condR0_0 i) (hc1 : ¬condR0_1 i) (x0 : Vec F S4x1024x3 .f32) (x1 : Vec F S4x512x3 .f32) : Vec F S4x1024 .f32 :=
  VSR0.read (Elt F) (VSR0.writes (Elt F) VSR0.junk (kernelRunR0_A c i arg2 harg2 arg3 harg3 arg4 harg4 arg5 harg5 hc0 hc1 x0 x1).1)

theorem scoverR0_B (hc0 : ¬condR0_0 i) (hc1 : ¬condR0_1 i) (x0 : Vec F S4x1024x3 .f32) (x1 : Vec F S4x512x3 .f32) (xs : Vec F S4x1024 .f32) (y : S4x1024.Idx) :
    ∃ pc ∈ (kernelRunR0_B c i arg2 harg2 arg3 harg3 arg4 harg4 arg5 harg5 hc0 hc1 x0 x1 xs).1, y ∈ pc.1.set :=
  View.cover_of_tiledL (kernelRunR0_B c i arg2 harg2 arg3 harg3 arg4 harg4 arg5 harg5 hc0 hc1 x0 x1 xs).1 S4x1024.size (by sl_kernel_rfl) y

/-- The scratch after a point with 0 < j < 15, over what the point before left. -/
def soutR0_B (hc0 : ¬condR0_0 i) (hc1 : ¬condR0_1 i) (x0 : Vec F S4x1024x3 .f32) (x1 : Vec F S4x512x3 .f32) (xs : Vec F S4x1024 .f32) : Vec F S4x1024 .f32 :=
  VSR0.read (Elt F) (VSR0.writes (Elt F) VSR0.junk (kernelRunR0_B c i arg2 harg2 arg3 harg3 arg4 harg4 arg5 harg5 hc0 hc1 x0 x1 xs).1)

theorem coverR0_C (hc0 : ¬condR0_0 i) (hc1 : condR0_1 i) (x0 : Vec F S4x1024x3 .f32) (x1 : Vec F S4x512x3 .f32) (xs : Vec F S4x1024 .f32) (y : S4x1024.Idx) :
    ∃ pc ∈ (kernelRunR0_C c i arg2 harg2 arg3 harg3 arg4 harg4 arg5 harg5 hc0 hc1 x0 x1 xs).1, y ∈ pc.1.set :=
  View.cover_of_tiledL (kernelRunR0_C c i arg2 harg2 arg3 harg3 arg4 harg4 arg5 harg5 hc0 hc1 x0 x1 xs).1 S4x1024.size (by sl_kernel_rfl) y

/-- The output block after a point with j = 15. -/
def outR0_C (hc0 : ¬condR0_0 i) (hc1 : condR0_1 i) (x0 : Vec F S4x1024x3 .f32) (x1 : Vec F S4x512x3 .f32) (xs : Vec F S4x1024 .f32) : Vec F S4x1024 .f32 :=
  VOR0.read (Elt F) (VOR0.writes (Elt F) VOR0.junk (kernelRunR0_C c i arg2 harg2 arg3 harg3 arg4 harg4 arg5 harg5 hc0 hc1 x0 x1 xs).1)

theorem scoverR0_C (hc0 : ¬condR0_0 i) (hc1 : condR0_1 i) (x0 : Vec F S4x1024x3 .f32) (x1 : Vec F S4x512x3 .f32) (xs : Vec F S4x1024 .f32) (y : S4x1024.Idx) :
    ∃ pc ∈ (kernelRunR0_C c i arg2 harg2 arg3 harg3 arg4 harg4 arg5 harg5 hc0 hc1 x0 x1 xs).2.1, y ∈ pc.1.set :=
  View.cover_of_tiledL (kernelRunR0_C c i arg2 harg2 arg3 harg3 arg4 harg4 arg5 harg5 hc0 hc1 x0 x1 xs).2.1 S4x1024.size (by sl_kernel_rfl) y

/-- The scratch after a point with j = 15. -/
def soutR0_C (hc0 : ¬condR0_0 i) (hc1 : condR0_1 i) (x0 : Vec F S4x1024x3 .f32) (x1 : Vec F S4x512x3 .f32) (xs : Vec F S4x1024 .f32) : Vec F S4x1024 .f32 :=
  VSR0.read (Elt F) (VSR0.writes (Elt F) VSR0.junk (kernelRunR0_C c i arg2 harg2 arg3 harg3 arg4 harg4 arg5 harg5 hc0 hc1 x0 x1 xs).2.1)

end Cases

/-! ## Point by point -/

/-- One point's step: (output block, scratch) after point `t`, given the scratch `prev` the point before left. -/
def stepR0 (c : Dev nD) (t : Fin cfg0.N) (prev : Vec F S4x1024 .f32) : Vec F S4x1024 .f32 × Vec F S4x1024 .f32 :=
  if h0 : t.val % 16 = 0 then
    (idleOutR0, soutR0_A c (grid0.coords t) (msR0_0 t) (hsR0_0 t) (msR0_1 t) (hsR0_1 t) (msR0_2 t) (hsR0_2 t) scR0 (Memref.isWhole_whole _) ((hcondR0_0 t).mpr h0) (fun h => by have := (hcondR0_1 t).mp h; omega) (iblkR0 V c 0 t) (iblkR0 V c 1 t))
  else if h1 : t.val % 16 = 15 then
    (outR0_C c (grid0.coords t) (msR0_0 t) (hsR0_0 t) (msR0_1 t) (hsR0_1 t) (msR0_2 t) (hsR0_2 t) scR0 (Memref.isWhole_whole _) (fun h => h0 ((hcondR0_0 t).mp h)) ((hcondR0_1 t).mpr h1) (iblkR0 V c 0 t) (iblkR0 V c 1 t) prev,
     soutR0_C c (grid0.coords t) (msR0_0 t) (hsR0_0 t) (msR0_1 t) (hsR0_1 t) (msR0_2 t) (hsR0_2 t) scR0 (Memref.isWhole_whole _) (fun h => h0 ((hcondR0_0 t).mp h)) ((hcondR0_1 t).mpr h1) (iblkR0 V c 0 t) (iblkR0 V c 1 t) prev)
  else
    (idleOutR0, soutR0_B c (grid0.coords t) (msR0_0 t) (hsR0_0 t) (msR0_1 t) (hsR0_1 t) (msR0_2 t) (hsR0_2 t) scR0 (Memref.isWhole_whole _) (fun h => h0 ((hcondR0_0 t).mp h)) (fun h => h1 ((hcondR0_1 t).mp h)) (iblkR0 V c 0 t) (iblkR0 V c 1 t) prev)

/-- (output block, scratch) after the point of linear index `n`. -/
def outsAtR0 (c : Dev nD) : (n : ℕ) → n < cfg0.N → Vec F S4x1024 .f32 × Vec F S4x1024 .f32
  | 0, hn => stepR0 V c ⟨0, hn⟩ idleOutR0
  | n + 1, hn => stepR0 V c ⟨n + 1, hn⟩ (outsAtR0 c n (Nat.lt_of_succ_lt hn)).2

/-- At a point that is not the first, `outsAtR0` is one step over the point before. -/
theorem outsAtR0_pos (c : Dev nD) (t : Fin cfg0.N) (hz : t.val ≠ 0) :
    outsAtR0 V c t.val t.isLt = stepR0 V c t (outsAtR0 V c (t.val - 1) (Nat.lt_of_le_of_lt (Nat.sub_le _ _) t.isLt)).2 := by
  obtain ⟨n, hn⟩ := t
  cases n with
  | zero => exact absurd rfl hz
  | succ n => rfl

/-- At a point with j = 0 the step does not look at what came before. -/
theorem stepR0_A (c : Dev nD) (t : Fin cfg0.N) (h0 : t.val % 16 = 0) (prev : Vec F S4x1024 .f32) :
    stepR0 V c t prev = (idleOutR0, soutR0_A c (grid0.coords t) (msR0_0 t) (hsR0_0 t) (msR0_1 t) (hsR0_1 t) (msR0_2 t) (hsR0_2 t) scR0 (Memref.isWhole_whole _) ((hcondR0_0 t).mpr h0) (fun h => by have := (hcondR0_1 t).mp h; omega) (iblkR0 V c 0 t) (iblkR0 V c 1 t)) := by
  unfold stepR0; exact dif_pos h0

theorem stepR0_B (c : Dev nD) (t : Fin cfg0.N) (h0 : ¬t.val % 16 = 0) (h1 : ¬t.val % 16 = 15) (prev : Vec F S4x1024 .f32) :
    stepR0 V c t prev = (idleOutR0, soutR0_B c (grid0.coords t) (msR0_0 t) (hsR0_0 t) (msR0_1 t) (hsR0_1 t) (msR0_2 t) (hsR0_2 t) scR0 (Memref.isWhole_whole _) (fun h => h0 ((hcondR0_0 t).mp h)) (fun h => h1 ((hcondR0_1 t).mp h)) (iblkR0 V c 0 t) (iblkR0 V c 1 t) prev) := by
  unfold stepR0; exact (dif_neg h0).trans (dif_neg h1)

theorem stepR0_C (c : Dev nD) (t : Fin cfg0.N) (h0 : ¬t.val % 16 = 0) (h1 : t.val % 16 = 15) (prev : Vec F S4x1024 .f32) :
    stepR0 V c t prev = (outR0_C c (grid0.coords t) (msR0_0 t) (hsR0_0 t) (msR0_1 t) (hsR0_1 t) (msR0_2 t) (hsR0_2 t) scR0 (Memref.isWhole_whole _) (fun h => h0 ((hcondR0_0 t).mp h)) ((hcondR0_1 t).mpr h1) (iblkR0 V c 0 t) (iblkR0 V c 1 t) prev,
      soutR0_C c (grid0.coords t) (msR0_0 t) (hsR0_0 t) (msR0_1 t) (hsR0_1 t) (msR0_2 t) (hsR0_2 t) scR0 (Memref.isWhole_whole _) (fun h => h0 ((hcondR0_0 t).mp h)) ((hcondR0_1 t).mpr h1) (iblkR0 V c 0 t) (iblkR0 V c 1 t) prev) := by
  unfold stepR0; exact (dif_neg h0).trans (dif_pos h1)

/-- At the first point too, `outsAtR0` is a step (from the placeholder, which a point with j = 0 ignores). -/
theorem outsAtR0_zero (c : Dev nD) (t : Fin cfg0.N) (hz : t.val = 0) :
    outsAtR0 V c t.val t.isLt = stepR0 V c t idleOutR0 := by
  obtain ⟨n, hn⟩ := t
  cases n with
  | zero => rfl
  | succ n => exact absurd hz (Nat.succ_ne_zero n)

/-! ## The invariant -/

/-- Before point `n`: before the first, the class's invariant (every scoped buffer at anything, the generator
    register at some state); afterwards the scratch at what the point before left, the other scoped buffers, and the
    generator register. -/
def PhiSR0 (c : Dev nD) : (n : ℕ) → n ≤ cfg0.N → sProp 𝕄
  | 0, _ => Pipeline.ΦA spec0 c
  | n + 1, hn => iprop(iprop(owns (c : Thread nD τ) scR0 fullShare ((outsAtR0 V c n hn).2) ∗ RestR0 c) ∗ (∃ r, prngReg c r))

theorem PhiSR0_zero (c : Dev nD) (n : ℕ) (h : n ≤ cfg0.N) (hz : n = 0) : PhiSR0 V c n h = Pipeline.ΦA spec0 c := by
  subst hz; rfl

theorem PhiSR0_succ (c : Dev nD) (n : ℕ) (hn : n < cfg0.N) :
    PhiSR0 V c (n + 1) hn = iprop(iprop(owns (c : Thread nD τ) scR0 fullShare ((outsAtR0 V c n hn).2) ∗ RestR0 c) ∗ (∃ r, prngReg c r)) := rfl

theorem PhiSR0_pos (c : Dev nD) (n : ℕ) (h : n ≤ cfg0.N) (hz : n ≠ 0) :
    PhiSR0 V c n h = iprop(iprop(owns (c : Thread nD τ) scR0 fullShare ((outsAtR0 V c (n - 1) (by omega)).2) ∗ RestR0 c) ∗ (∃ r, prngReg c r)) := by
  cases n with
  | zero => exact absurd rfl hz
  | succ n => rfl

/-! ## The proof data -/

/-- The arrays as the region finds them; after the body at point `t` each input's buffer at its block and the output's
    at `outsAtR0`'s first component; the invariant above; nothing owed; full shares. -/
def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => (outsAtR0 V c t.val t.isLt).1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiSR0_castSucc (c : Dev nD) (t : Fin cfg0.N) :
    (datR0 V c).Φ t.castSucc = PhiSR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = (outsAtR0 V c t.val t.isLt).1 := by dsimp only [datR0]

theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d

end Cert.KernelIdeal.Fr

end
-- ==== Proof.KI.R0.Body.lean ====
/-
  The first launch's body obligation: at every point, from the region's invariant and the windows' staging buffers
  at what the pipeline hands the body, the body runs and gives back the invariant for the next point and every
  window's buffer at what the proof data say. Which of the three runs applies is decided by j = t mod 16. The
  invariant hands the body the scratch at what the point before left (at anything before the first point) and
  takes it back at this point's contents; the output block is handed back untouched where the body does not store
  into it. Then the invariant's two ends: what the region's entry supplies is the invariant before the first
  point, and after the last point the invariant gives the scoped buffers back with the scratch's contents forgotten.
-/
import proofs.«148603_j33663953666360_1_alg».proof.Proof.KI.R0.Region

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d)))

/-- and what it returns. -/
def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t)

theorem leaves0R0 (c : Dev nD) (t : Fin cfg0.N) :
    (datR0 V c).leavesExact 0 t = owns (c : Thread nD τ) (msR0_0 t) fullShare (iblkR0 V c 0 t) := by
  unfold Dat.leavesExact; rw [liveR0_0 t, afterR0_0]
theorem leaves1R0 (c : Dev nD) (t : Fin cfg0.N) :
    (datR0 V c).leavesExact 1 t = owns (c : Thread nD τ) (msR0_1 t) fullShare (iblkR0 V c 1 t) := by
  unfold Dat.leavesExact; rw [liveR0_1 t, afterR0_1]

set_option maxHeartbeats 4800000 in
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1]
  rw [show (datR0 V c).owesAt () t.succ = (datR0 V c).owesAt () t.castSucc from rfl]
  rw [show (datR0 V c).Φ t.succ = PhiSR0 V c (t.val + 1) t.isLt from rfl, PhiSR0_succ]
  rw [leaves0R0, leaves1R0]
  have hN : t.val < 128 := lt_of_lt_of_eq t.isLt (show cfg0.N = 128 from N_0)
  by_cases h0 : t.val % 16 = 0
  · -- j = 0: the reset, then the update
    have hc1 : ¬condR0_1 (grid0.coords t) := fun h => by have := (hcondR0_1 t).mp h; omega
    rw [Dat.leavesExact_idle (datR0 V c) 2 t (idleR0_2 t hc1) (noFlushR0_2 t hc1)]
    have hstep : (outsAtR0 V c t.val t.isLt).2 = soutR0_A c (grid0.coords t) (msR0_0 t) (hsR0_0 t) (msR0_1 t) (hsR0_1 t) (msR0_2 t) (hsR0_2 t) scR0 (Memref.isWhole_whole _) ((hcondR0_0 t).mpr h0) (fun h => by have := (hcondR0_1 t).mp h; omega) (iblkR0 V c 0 t) (iblkR0 V c 1 t) := by
      by_cases hz : t.val = 0
      · rw [outsAtR0_zero V c t hz, stepR0_A V c t h0]
      · rw [outsAtR0_pos V c t hz, stepR0_A V c t h0]
    rw [hstep]; unfold soutR0_A
    by_cases hz : t.val = 0
    · rw [PhiSR0_castSucc V c t, PhiSR0_zero V c _ _ hz, PhiAR0_eq]
      iintro ⟨⟨⟨HS, HR⟩, Hg⟩, Ho, ⟨%d0, H0⟩, ⟨%d1, H1⟩, ⟨%d2, H2⟩⟩
      iapply ((kernelRunR0_A c (grid0.coords t) _ _ _ _ _ _ _ _ ((hcondR0_0 t).mpr h0) hc1 (iblkR0 V c 0 t) (iblkR0 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR0_A c _ _ _ _ _ _ _ _ _ _ _ _ _)
          iexact HR
        iexact Hg
      isplitl [Ho]; · iexact Ho
      isplitl [H0]; · iexact H0
      isplitl [H1]; · iexact H1
      iexists _; iexact H2
    · rw [PhiSR0_castSucc V c t, PhiSR0_pos V c _ _ hz]
      iintro ⟨⟨⟨HS, HR⟩, Hg⟩, Ho, ⟨%d0, H0⟩, ⟨%d1, H1⟩, ⟨%d2, H2⟩⟩
      iapply ((kernelRunR0_A c (grid0.coords t) _ _ _ _ _ _ _ _ ((hcondR0_0 t).mpr h0) hc1 (iblkR0 V c 0 t) (iblkR0 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR0_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun hz => h0 (by rw [hz])
    have hc0 : ¬condR0_0 (grid0.coords t) := fun h => h0 ((hcondR0_0 t).mp h)
    by_cases h1 : t.val % 16 = 15
    · -- j = 15: the update, then the output block
      have hc1 : condR0_1 (grid0.coords t) := (hcondR0_1 t).mpr h1
      rw [show (datR0 V c).leavesExact 2 t = owns (c : Thread nD τ) (msR0_2 t) fullShare ((datR0 V c).after 2 t) from by
        unfold Dat.leavesExact; rw [liveR0_2 t hc1], afterR0_2]
      rw [outsAtR0_pos V c t hz, stepR0_C V c t h0 h1]
      unfold outR0_C soutR0_C; (try dsimp only)
      rw [PhiSR0_castSucc V c t, PhiSR0_pos V c _ _ hz]
      iintro ⟨⟨⟨HS, HR⟩, Hg⟩, Ho, ⟨%d0, H0⟩, ⟨%d1, H1⟩, ⟨%d2, H2⟩⟩
      iapply ((kernelRunR0_C c (grid0.coords t) _ _ _ _ _ _ _ _ hc0 hc1 (iblkR0 V c 0 t) (iblkR0 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scoverR0_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (coverR0_C c _ _ _ _ _ _ _ _ _ _ _ _ _ _)
    · -- 0 < j < 15: the update only
      have hc1 : ¬condR0_1 (grid0.coords t) := fun h => h1 ((hcondR0_1 t).mp h)
      rw [Dat.leavesExact_idle (datR0 V c) 2 t (idleR0_2 t hc1) (noFlushR0_2 t hc1)]
      rw [outsAtR0_pos V c t hz, stepR0_B V c t h0 h1]
      unfold soutR0_B; (try dsimp only)
      rw [PhiSR0_castSucc V c t, PhiSR0_pos V c _ _ hz]
      iintro ⟨⟨⟨HS, HR⟩, Hg⟩, Ho, ⟨%d0, H0⟩, ⟨%d1, H1⟩, ⟨%d2, H2⟩⟩
      iapply ((kernelRunR0_B c (grid0.coords t) _ _ _ _ _ _ _ _ hc0 hc1 (iblkR0 V c 0 t) (iblkR0 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR0_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligationR0 (c : Dev nD) : BodyObligation (datR0 (F := F) V c) (defs₀ (F := F)) Variants.none () Set.univ := fun t => by
  rw [bigSep_W0, bigSep_W0]
  exact sound_bodyR0 V c t

/-- What the entry supplies is the invariant before the first point. -/
theorem hinR0 (c : Dev nD) : Pipeline.ΦA spec0 c ⊢ (datR0 V c).Φ 0 := by
  rw [show (datR0 V c).Φ 0 = PhiSR0 V c 0 (Nat.zero_le _) from rfl, PhiSR0_zero V c 0 _ rfl]
  try exact Idealize.SL.BI.Entails.refl _

/-- After the last point the invariant gives the class's back: the scratch's named contents are forgotten. -/
theorem houtR0 (c : Dev nD) : (datR0 V c).Φ (Fin.last cfg0.N) ⊢ Pipeline.ΦA spec0 c := by
  have hne : (Fin.last cfg0.N).val ≠ 0 := by rw [Fin.val_last]; have : cfg0.N = 128 := N_0; omega
  rw [show (datR0 V c).Φ (Fin.last cfg0.N) = PhiSR0 V c (Fin.last cfg0.N).val (Nat.le_of_lt_succ (Fin.last cfg0.N).isLt) from rfl,
    PhiSR0_pos V c _ _ hne, PhiAR0_eq]
  iintro ⟨⟨HS, HR⟩, Hg⟩
  isplitl [HS HR]
  · isplitl [HS]
    · iexists _; iexact HS
    iexact HR
  iexact Hg

end Cert.KernelIdeal.Fr

end
-- ==== Proof.KI.R1.Shared.lean ====
/-
  The nearest-neighbour kernel of the second launch, on its grid of 8 query tiles by 16 candidate tiles: what its
  three body runs share. A point is the pair (i, j); the body resets its running-minimum scratch where j = 0,
  lowers it by the tile's minima at every point, and stores the square roots into the output block where j = 15.
  Here: the blocks the windows hold at a point as the region finds the arrays, the two branch conditions in closed
  form over the linear point index (j = t mod 16), where the output window is idle and where it is written back,
  and the memrefs the body is called with.
-/
import proofs.«148603_j33663953666360_1_alg».proof.Proof.Gen.KernelIdeal.Launch
import proofs.«148603_j33663953666360_1_alg».proof.Proof.Gen.KernelIdeal.Skeleton
import proofs.«148603_j33663953666360_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- The block of window `w` at point `t`, cut out of the window's array as the region finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block at every point: it is fetched where i changes and left
    in place by the body in between. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

/-- The candidate window's staging buffer holds the candidate block at every point. -/
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-! ## The two branch conditions -/

/-- "j = 0", as the body computes it from the point's coordinates. -/
abbrev condR1_0 (i : grid1.Coords) : Prop := (Scalar.cmpi .ne (Scalar.extui (Scalar.cmpi .eq (BitVec.ofNat 32 (i 1).val) 0#32)) 0#32) = 1#1
theorem hcondR1_0 : ∀ t : Fin cfg1.N, condR1_0 (grid1.coords t) ↔ t.val % 16 = 0 :=
  (by decide +kernel : ∀ t : Fin grid1.N, condR1_0 (grid1.coords t) ↔ t.val % 16 = 0)

/-- "j = 15", as the body computes it. -/
abbrev condR1_1 (i : grid1.Coords) : Prop := k1_cond2 i = 1#1
theorem hcondR1_1 : ∀ t : Fin cfg1.N, condR1_1 (grid1.coords t) ↔ t.val % 16 = 15 :=
  (by decide +kernel : ∀ t : Fin grid1.N, condR1_1 (grid1.coords t) ↔ t.val % 16 = 15)

/-! ## Where the windows are idle -/

theorem liveR1_0 : ∀ t : Fin cfg1.N, cfg1.idle 0 (grid1.coords t) = false := by decide +kernel
theorem liveR1_1 : ∀ t : Fin cfg1.N, cfg1.idle 1 (grid1.coords t) = false := by decide +kernel
/-- Away from j = 15 the body stores nothing into the output block, and the pipeline does not write it back. -/
theorem idleR1_2 : ∀ t : Fin cfg1.N, ¬condR1_1 (grid1.coords t) → cfg1.idle 2 (grid1.coords t) = true := by decide +kernel
theorem noFlushR1_2 : ∀ t : Fin cfg1.N, ¬condR1_1 (grid1.coords t) → (cfg1.win 2).flush t = false := by decide +kernel
/-- At j = 15 it stores the whole block. -/
theorem liveR1_2 : ∀ t : Fin cfg1.N, condR1_1 (grid1.coords t) → cfg1.idle 2 (grid1.coords t) = false := by decide +kernel

/-! ## The memrefs the body is called with -/

abbrev msR1_0 (t : Fin cfg1.N) : Memref sig .tc .vmem S4x1024x3 .f32 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S4x512x3 .f32 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S4x1024 .f32 := win1_2.stage (cfg1.slots t 2)
abbrev hsR1_2 (t : Fin cfg1.N) : (msR1_2 t).IsWhole := hstage1_2 ((cfg1.slots t 2).cast nbuf1_2)
/-- The running-minimum scratch, a whole scoped buffer of the kernel's own. -/
abbrev scR1 : Memref sig .tc .vmem S4x1024 .f32 := Memref.whole cc1_scratch0
/-- The views through which the output block's and the scratch's contents are stated. -/
abbrev VOR1 : View sig .tc .vmem S4x1024 .f32 := (Memref.whole cc1_stg2_0 : Memref sig .tc .vmem S4x1024 .f32).view
abbrev VSR1 : View sig .tc .vmem S4x1024 .f32 := scR1.view

/-- The core's other scoped buffers (the other launches' staging buffers and scratch), carried unopened. -/
abbrev RestR1 (c : Dev nD) : sProp 𝕄 :=
  Pipeline.scopedRestBut (Ix := Unit) (Name := ℕ) (U := UR sig nD τ) (Lvl := ℕ) (Val := Elt F) spec1 c [cc1_scratch0]

/-- What the region's invariant holds before the first point: the scratch as a memref owned at some contents, the
    other scoped buffers, and the generator register. -/
theorem PhiAR1_eq (c : Dev nD) :
    (Pipeline.ΦA spec1 c : sProp 𝕄)
      = iprop(iprop((∃ d, owns (c : Thread nD τ) scR1 fullShare d) ∗ RestR1 c) ∗ (∃ r, prngReg c r)) := by
  unfold Pipeline.ΦA
  rw [Pipeline.scopedRest_split_of_list spec1 c [cc1_scratch0] (by decide) (by decide)]
  simp only [scR1, owns_whole]; try rfl

end Cert.KernelIdeal.Fr

end
-- ==== Proof.KI.R1.RunA.lean ====
/-
  The body of the second launch's kernel at a point with j = 0: the first branch is taken, the second is not. It
  overwrites the running-minimum scratch with +∞, then loads the query block, the candidate block and the scratch, and
  stores the lowered minima; the output block is not touched. Whatever the scratch held on entry is overwritten before
  it matters. The pieces the scratch ends with are found by running the body.
-/
import proofs.«148603_j33663953666360_1_alg».proof.Proof.KI.R1.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the two input blocks at their contents, the output block at contents handed back untouched,
    the scratch at anything — the body runs to the continuation with the inputs and the output block as they were
    and the scratch with its pieces written. -/
noncomputable def kernelRunR1_A (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : condR1_0 i) (hc1 : ¬condR1_1 i)
    (x0 : Vec F S4x1024x3 .f32) (x1 : Vec F S4x512x3 .f32) :
    { LS : List (View.Piece (Elt F) S4x1024 .f32) //
      ∀ (xi2 : Vec F S4x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.KI.R1.RunB.lean ====
/-
  The body of the second launch's kernel at a point with 0 < j < 15: neither branch is taken. It loads the query
  block, the candidate block and the running minima, and stores the lowered minima back into the scratch; the output
  block is not touched. The pieces the scratch ends with are found by running the body.
-/
import proofs.«148603_j33663953666360_1_alg».proof.Proof.KI.R1.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the two input blocks at their contents, the output block at contents handed back untouched,
    the scratch at what the point before left — the body runs to the continuation with the inputs and the output
    block as they were and the scratch with its pieces written. -/
noncomputable def kernelRunR1_B (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : ¬condR1_0 i) (hc1 : ¬condR1_1 i)
    (x0 : Vec F S4x1024x3 .f32) (x1 : Vec F S4x512x3 .f32) (xs : Vec F S4x1024 .f32) :
    { LS : List (View.Piece (Elt F) S4x1024 .f32) //
      ∀ (xi2 : Vec F S4x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, fun xi2 E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

end Cert.KernelIdeal.Fr

end
-- ==== Proof.KI.R1.RunC.lean ====
/-
  The body of the second launch's kernel at a point with j = 15: the first branch is not taken, the second is. It
  loads the query block, the candidate block and the running minima, stores the lowered minima back into the scratch,
  then loads the scratch again and stores its square roots over the whole output block. The pieces the output block
  and the scratch end with are found by running the body.
-/
import proofs.«148603_j33663953666360_1_alg».proof.Proof.KI.R1.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- On whole memrefs — the two input blocks at their contents, the output block at anything, the scratch at what the
    point before left — the body runs to the continuation with the inputs as they were and the output block and the
    scratch with their pieces written. -/
noncomputable def kernelRunR1_C (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole) (hc0 : ¬condR1_0 i) (hc1 : condR1_1 i)
    (x0 : Vec F S4x1024x3 .f32) (x1 : Vec F S4x512x3 .f32) (xs : Vec F S4x1024 .f32) :
    Σ' (L2 : List (View.Piece (Elt F) S4x1024 .f32)), { LS : List (View.Piece (Elt F) S4x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__nn_min_kernel i arg2 harg2 arg3 harg3 arg4 harg4 arg5 harg5) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact HS

end Cert.KernelIdeal.Fr

end
-- ==== Proof.KI.R1.Region.lean ====
/-
  The second launch as a region of the program, at the contents `V` the region finds in the TensorCore's buffers.

  What each of the three body cases leaves in the running-minimum scratch and in the output block is read back from
  the pieces its run found. `outsAtR1 n` is the pair (output block, scratch) after the point of linear index n,
  by recursion on n: a point with j = 0 forgets what came before (the scratch is reset there), every other point
  lowers the scratch the point before left, and a point with j = 15 also emits the output block from it.
  The region's invariant before point n ≥ 1 holds the scratch at exactly `(outsAtR1 (n−1)).2`; before the first
  point it holds it at anything. With that, the body's three runs discharge the body obligation at every point.
-/
import proofs.«148603_j33663953666360_1_alg».proof.Proof.KI.R1.RunA
import proofs.«148603_j33663953666360_1_alg».proof.Proof.KI.R1.RunB
import proofs.«148603_j33663953666360_1_alg».proof.Proof.KI.R1.RunC

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A placeholder for the output block where the body stores nothing into it: at those points the block is neither
    written back nor read, so nothing consults it. -/
def idleOutR1 : Vec F S4x1024 .f32 := VOR1.read (Elt F) (VOR1.writes (Elt F) VOR1.junk [])

section Cases
variable (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)

theorem scoverR1_A (hc0 : condR1_0 i) (hc1 : ¬condR1_1 i) (x0 : Vec F S4x1024x3 .f32) (x1 : Vec F S4x512x3 .f32) (y : S4x1024.Idx) :
    ∃ pc ∈ (kernelRunR1_A c i arg2 harg2 arg3 harg3 arg4 harg4 arg5 harg5 hc0 hc1 x0 x1).1, y ∈ pc.1.set :=
  View.cover_of_tiledL (kernelRunR1_A c i arg2 harg2 arg3 harg3 arg4 harg4 arg5 harg5 hc0 hc1 x0 x1).1 S4x1024.size (by sl_kernel_rfl) y

/-- The scratch after a point with j = 0. -/
def soutR1_A (hc0 : condR1_0 i) (hc1 : ¬condR1_1 i) (x0 : Vec F S4x1024x3 .f32) (x1 : Vec F S4x512x3 .f32) : Vec F S4x1024 .f32 :=
  VSR1.read (Elt F) (VSR1.writes (Elt F) VSR1.junk (kernelRunR1_A c i arg2 harg2 arg3 harg3 arg4 harg4 arg5 harg5 hc0 hc1 x0 x1).1)

theorem scoverR1_B (hc0 : ¬condR1_0 i) (hc1 : ¬condR1_1 i) (x0 : Vec F S4x1024x3 .f32) (x1 : Vec F S4x512x3 .f32) (xs : Vec F S4x1024 .f32) (y : S4x1024.Idx) :
    ∃ pc ∈ (kernelRunR1_B c i arg2 harg2 arg3 harg3 arg4 harg4 arg5 harg5 hc0 hc1 x0 x1 xs).1, y ∈ pc.1.set :=
  View.cover_of_tiledL (kernelRunR1_B c i arg2 harg2 arg3 harg3 arg4 harg4 arg5 harg5 hc0 hc1 x0 x1 xs).1 S4x1024.size (by sl_kernel_rfl) y

/-- The scratch after a point with 0 < j < 15, over what the point before left. -/
def soutR1_B (hc0 : ¬condR1_0 i) (hc1 : ¬condR1_1 i) (x0 : Vec F S4x1024x3 .f32) (x1 : Vec F S4x512x3 .f32) (xs : Vec F S4x1024 .f32) : Vec F S4x1024 .f32 :=
  VSR1.read (Elt F) (VSR1.writes (Elt F) VSR1.junk (kernelRunR1_B c i arg2 harg2 arg3 harg3 arg4 harg4 arg5 harg5 hc0 hc1 x0 x1 xs).1)

theorem coverR1_C (hc0 : ¬condR1_0 i) (hc1 : condR1_1 i) (x0 : Vec F S4x1024x3 .f32) (x1 : Vec F S4x512x3 .f32) (xs : Vec F S4x1024 .f32) (y : S4x1024.Idx) :
    ∃ pc ∈ (kernelRunR1_C c i arg2 harg2 arg3 harg3 arg4 harg4 arg5 harg5 hc0 hc1 x0 x1 xs).1, y ∈ pc.1.set :=
  View.cover_of_tiledL (kernelRunR1_C c i arg2 harg2 arg3 harg3 arg4 harg4 arg5 harg5 hc0 hc1 x0 x1 xs).1 S4x1024.size (by sl_kernel_rfl) y

/-- The output block after a point with j = 15. -/
def outR1_C (hc0 : ¬condR1_0 i) (hc1 : condR1_1 i) (x0 : Vec F S4x1024x3 .f32) (x1 : Vec F S4x512x3 .f32) (xs : Vec F S4x1024 .f32) : Vec F S4x1024 .f32 :=
  VOR1.read (Elt F) (VOR1.writes (Elt F) VOR1.junk (kernelRunR1_C c i arg2 harg2 arg3 harg3 arg4 harg4 arg5 harg5 hc0 hc1 x0 x1 xs).1)

theorem scoverR1_C (hc0 : ¬condR1_0 i) (hc1 : condR1_1 i) (x0 : Vec F S4x1024x3 .f32) (x1 : Vec F S4x512x3 .f32) (xs : Vec F S4x1024 .f32) (y : S4x1024.Idx) :
    ∃ pc ∈ (kernelRunR1_C c i arg2 harg2 arg3 harg3 arg4 harg4 arg5 harg5 hc0 hc1 x0 x1 xs).2.1, y ∈ pc.1.set :=
  View.cover_of_tiledL (kernelRunR1_C c i arg2 harg2 arg3 harg3 arg4 harg4 arg5 harg5 hc0 hc1 x0 x1 xs).2.1 S4x1024.size (by sl_kernel_rfl) y

/-- The scratch after a point with j = 15. -/
def soutR1_C (hc0 : ¬condR1_0 i) (hc1 : condR1_1 i) (x0 : Vec F S4x1024x3 .f32) (x1 : Vec F S4x512x3 .f32) (xs : Vec F S4x1024 .f32) : Vec F S4x1024 .f32 :=
  VSR1.read (Elt F) (VSR1.writes (Elt F) VSR1.junk (kernelRunR1_C c i arg2 harg2 arg3 harg3 arg4 harg4 arg5 harg5 hc0 hc1 x0 x1 xs).2.1)

end Cases

/-! ## Point by point -/

/-- One point's step: (output block, scratch) after point `t`, given the scratch `prev` the point before left. -/
def stepR1 (c : Dev nD) (t : Fin cfg1.N) (prev : Vec F S4x1024 .f32) : Vec F S4x1024 .f32 × Vec F S4x1024 .f32 :=
  if h0 : t.val % 16 = 0 then
    (idleOutR1, soutR1_A c (grid1.coords t) (msR1_0 t) (hsR1_0 t) (msR1_1 t) (hsR1_1 t) (msR1_2 t) (hsR1_2 t) scR1 (Memref.isWhole_whole _) ((hcondR1_0 t).mpr h0) (fun h => by have := (hcondR1_1 t).mp h; omega) (iblkR1 V c 0 t) (iblkR1 V c 1 t))
  else if h1 : t.val % 16 = 15 then
    (outR1_C c (grid1.coords t) (msR1_0 t) (hsR1_0 t) (msR1_1 t) (hsR1_1 t) (msR1_2 t) (hsR1_2 t) scR1 (Memref.isWhole_whole _) (fun h => h0 ((hcondR1_0 t).mp h)) ((hcondR1_1 t).mpr h1) (iblkR1 V c 0 t) (iblkR1 V c 1 t) prev,
     soutR1_C c (grid1.coords t) (msR1_0 t) (hsR1_0 t) (msR1_1 t) (hsR1_1 t) (msR1_2 t) (hsR1_2 t) scR1 (Memref.isWhole_whole _) (fun h => h0 ((hcondR1_0 t).mp h)) ((hcondR1_1 t).mpr h1) (iblkR1 V c 0 t) (iblkR1 V c 1 t) prev)
  else
    (idleOutR1, soutR1_B c (grid1.coords t) (msR1_0 t) (hsR1_0 t) (msR1_1 t) (hsR1_1 t) (msR1_2 t) (hsR1_2 t) scR1 (Memref.isWhole_whole _) (fun h => h0 ((hcondR1_0 t).mp h)) (fun h => h1 ((hcondR1_1 t).mp h)) (iblkR1 V c 0 t) (iblkR1 V c 1 t) prev)

/-- (output block, scratch) after the point of linear index `n`. -/
def outsAtR1 (c : Dev nD) : (n : ℕ) → n < cfg1.N → Vec F S4x1024 .f32 × Vec F S4x1024 .f32
  | 0, hn => stepR1 V c ⟨0, hn⟩ idleOutR1
  | n + 1, hn => stepR1 V c ⟨n + 1, hn⟩ (outsAtR1 c n (Nat.lt_of_succ_lt hn)).2

/-- At a point that is not the first, `outsAtR1` is one step over the point before. -/
theorem outsAtR1_pos (c : Dev nD) (t : Fin cfg1.N) (hz : t.val ≠ 0) :
    outsAtR1 V c t.val t.isLt = stepR1 V c t (outsAtR1 V c (t.val - 1) (Nat.lt_of_le_of_lt (Nat.sub_le _ _) t.isLt)).2 := by
  obtain ⟨n, hn⟩ := t
  cases n with
  | zero => exact absurd rfl hz
  | succ n => rfl

/-- At a point with j = 0 the step does not look at what came before. -/
theorem stepR1_A (c : Dev nD) (t : Fin cfg1.N) (h0 : t.val % 16 = 0) (prev : Vec F S4x1024 .f32) :
    stepR1 V c t prev = (idleOutR1, soutR1_A c (grid1.coords t) (msR1_0 t) (hsR1_0 t) (msR1_1 t) (hsR1_1 t) (msR1_2 t) (hsR1_2 t) scR1 (Memref.isWhole_whole _) ((hcondR1_0 t).mpr h0) (fun h => by have := (hcondR1_1 t).mp h; omega) (iblkR1 V c 0 t) (iblkR1 V c 1 t)) := by
  unfold stepR1; exact dif_pos h0

theorem stepR1_B (c : Dev nD) (t : Fin cfg1.N) (h0 : ¬t.val % 16 = 0) (h1 : ¬t.val % 16 = 15) (prev : Vec F S4x1024 .f32) :
    stepR1 V c t prev = (idleOutR1, soutR1_B c (grid1.coords t) (msR1_0 t) (hsR1_0 t) (msR1_1 t) (hsR1_1 t) (msR1_2 t) (hsR1_2 t) scR1 (Memref.isWhole_whole _) (fun h => h0 ((hcondR1_0 t).mp h)) (fun h => h1 ((hcondR1_1 t).mp h)) (iblkR1 V c 0 t) (iblkR1 V c 1 t) prev) := by
  unfold stepR1; exact (dif_neg h0).trans (dif_neg h1)

theorem stepR1_C (c : Dev nD) (t : Fin cfg1.N) (h0 : ¬t.val % 16 = 0) (h1 : t.val % 16 = 15) (prev : Vec F S4x1024 .f32) :
    stepR1 V c t prev = (outR1_C c (grid1.coords t) (msR1_0 t) (hsR1_0 t) (msR1_1 t) (hsR1_1 t) (msR1_2 t) (hsR1_2 t) scR1 (Memref.isWhole_whole _) (fun h => h0 ((hcondR1_0 t).mp h)) ((hcondR1_1 t).mpr h1) (iblkR1 V c 0 t) (iblkR1 V c 1 t) prev,
      soutR1_C c (grid1.coords t) (msR1_0 t) (hsR1_0 t) (msR1_1 t) (hsR1_1 t) (msR1_2 t) (hsR1_2 t) scR1 (Memref.isWhole_whole _) (fun h => h0 ((hcondR1_0 t).mp h)) ((hcondR1_1 t).mpr h1) (iblkR1 V c 0 t) (iblkR1 V c 1 t) prev) := by
  unfold stepR1; exact (dif_neg h0).trans (dif_pos h1)

/-- At the first point too, `outsAtR1` is a step (from the placeholder, which a point with j = 0 ignores). -/
theorem outsAtR1_zero (c : Dev nD) (t : Fin cfg1.N) (hz : t.val = 0) :
    outsAtR1 V c t.val t.isLt = stepR1 V c t idleOutR1 := by
  obtain ⟨n, hn⟩ := t
  cases n with
  | zero => rfl
  | succ n => exact absurd hz (Nat.succ_ne_zero n)

/-! ## The invariant -/

/-- Before point `n`: before the first, the class's invariant (every scoped buffer at anything, the generator
    register at some state); afterwards the scratch at what the point before left, the other scoped buffers, and the
    generator register. -/
def PhiSR1 (c : Dev nD) : (n : ℕ) → n ≤ cfg1.N → sProp 𝕄
  | 0, _ => Pipeline.ΦA spec1 c
  | n + 1, hn => iprop(iprop(owns (c : Thread nD τ) scR1 fullShare ((outsAtR1 V c n hn).2) ∗ RestR1 c) ∗ (∃ r, prngReg c r))

theorem PhiSR1_zero (c : Dev nD) (n : ℕ) (h : n ≤ cfg1.N) (hz : n = 0) : PhiSR1 V c n h = Pipeline.ΦA spec1 c := by
  subst hz; rfl

theorem PhiSR1_succ (c : Dev nD) (n : ℕ) (hn : n < cfg1.N) :
    PhiSR1 V c (n + 1) hn = iprop(iprop(owns (c : Thread nD τ) scR1 fullShare ((outsAtR1 V c n hn).2) ∗ RestR1 c) ∗ (∃ r, prngReg c r)) := rfl

theorem PhiSR1_pos (c : Dev nD) (n : ℕ) (h : n ≤ cfg1.N) (hz : n ≠ 0) :
    PhiSR1 V c n h = iprop(iprop(owns (c : Thread nD τ) scR1 fullShare ((outsAtR1 V c (n - 1) (by omega)).2) ∗ RestR1 c) ∗ (∃ r, prngReg c r)) := by
  cases n with
  | zero => exact absurd rfl hz
  | succ n => rfl

/-! ## The proof data -/

/-- The arrays as the region finds them; after the body at point `t` each input's buffer at its block and the output's
    at `outsAtR1`'s first component; the invariant above; nothing owed; full shares. -/
def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => (outsAtR1 V c t.val t.isLt).1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiSR1_castSucc (c : Dev nD) (t : Fin cfg1.N) :
    (datR1 V c).Φ t.castSucc = PhiSR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = (outsAtR1 V c t.val t.isLt).1 := by dsimp only [datR1]

theorem beforeR1_0 (c : Dev nD) (t : Fin cfg1.N) (d) : (datR1 V c).before 0 t d = iblkR1 V c 0 t :=
  beforeR1_0_of V (datR1 V c) (A_eqR1 V c 0) (afterR1_0 V c) t d
theorem beforeR1_1 (c : Dev nD) (t : Fin cfg1.N) (d) : (datR1 V c).before 1 t d = iblkR1 V c 1 t :=
  beforeR1_1_of V (datR1 V c) (A_eqR1 V c 1) (afterR1_1 V c) t d

end Cert.KernelIdeal.Fr

end
-- ==== Proof.KI.R1.Body.lean ====
/-
  The second launch's body obligation: at every point, from the region's invariant and the windows' staging buffers
  at what the pipeline hands the body, the body runs and gives back the invariant for the next point and every
  window's buffer at what the proof data say. Which of the three runs applies is decided by j = t mod 16. The
  invariant hands the body the scratch at what the point before left (at anything before the first point) and
  takes it back at this point's contents; the output block is handed back untouched where the body does not store
  into it. Then the invariant's two ends: what the region's entry supplies is the invariant before the first
  point, and after the last point the invariant gives the scoped buffers back with the scratch's contents forgotten.
-/
import proofs.«148603_j33663953666360_1_alg».proof.Proof.KI.R1.Region

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d)))

/-- and what it returns. -/
def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t)

theorem leaves0R1 (c : Dev nD) (t : Fin cfg1.N) :
    (datR1 V c).leavesExact 0 t = owns (c : Thread nD τ) (msR1_0 t) fullShare (iblkR1 V c 0 t) := by
  unfold Dat.leavesExact; rw [liveR1_0 t, afterR1_0]
theorem leaves1R1 (c : Dev nD) (t : Fin cfg1.N) :
    (datR1 V c).leavesExact 1 t = owns (c : Thread nD τ) (msR1_1 t) fullShare (iblkR1 V c 1 t) := by
  unfold Dat.leavesExact; rw [liveR1_1 t, afterR1_1]

set_option maxHeartbeats 4800000 in
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1]
  rw [show (datR1 V c).owesAt () t.succ = (datR1 V c).owesAt () t.castSucc from rfl]
  rw [show (datR1 V c).Φ t.succ = PhiSR1 V c (t.val + 1) t.isLt from rfl, PhiSR1_succ]
  rw [leaves0R1, leaves1R1]
  have hN : t.val < 128 := lt_of_lt_of_eq t.isLt (show cfg1.N = 128 from N_1)
  by_cases h0 : t.val % 16 = 0
  · -- j = 0: the reset, then the update
    have hc1 : ¬condR1_1 (grid1.coords t) := fun h => by have := (hcondR1_1 t).mp h; omega
    rw [Dat.leavesExact_idle (datR1 V c) 2 t (idleR1_2 t hc1) (noFlushR1_2 t hc1)]
    have hstep : (outsAtR1 V c t.val t.isLt).2 = soutR1_A c (grid1.coords t) (msR1_0 t) (hsR1_0 t) (msR1_1 t) (hsR1_1 t) (msR1_2 t) (hsR1_2 t) scR1 (Memref.isWhole_whole _) ((hcondR1_0 t).mpr h0) (fun h => by have := (hcondR1_1 t).mp h; omega) (iblkR1 V c 0 t) (iblkR1 V c 1 t) := by
      by_cases hz : t.val = 0
      · rw [outsAtR1_zero V c t hz, stepR1_A V c t h0]
      · rw [outsAtR1_pos V c t hz, stepR1_A V c t h0]
    rw [hstep]; unfold soutR1_A
    by_cases hz : t.val = 0
    · rw [PhiSR1_castSucc V c t, PhiSR1_zero V c _ _ hz, PhiAR1_eq]
      iintro ⟨⟨⟨HS, HR⟩, Hg⟩, Ho, ⟨%d0, H0⟩, ⟨%d1, H1⟩, ⟨%d2, H2⟩⟩
      iapply ((kernelRunR1_A c (grid1.coords t) _ _ _ _ _ _ _ _ ((hcondR1_0 t).mpr h0) hc1 (iblkR1 V c 0 t) (iblkR1 V c 1 t)).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR1_A c _ _ _ _ _ _ _ _ _ _ _ _ _)
          iexact HR
        iexact Hg
      isplitl [Ho]; · iexact Ho
      isplitl [H0]; · iexact H0
      isplitl [H1]; · iexact H1
      iexists _; iexact H2
    · rw [PhiSR1_castSucc V c t, PhiSR1_pos V c _ _ hz]
      iintro ⟨⟨⟨HS, HR⟩, Hg⟩, Ho, ⟨%d0, H0⟩, ⟨%d1, H1⟩, ⟨%d2, H2⟩⟩
      iapply ((kernelRunR1_A c (grid1.coords t) _ _ _ _ _ _ _ _ ((hcondR1_0 t).mpr h0) hc1 (iblkR1 V c 0 t) (iblkR1 V c 1 t)).2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR1_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun hz => h0 (by rw [hz])
    have hc0 : ¬condR1_0 (grid1.coords t) := fun h => h0 ((hcondR1_0 t).mp h)
    by_cases h1 : t.val % 16 = 15
    · -- j = 15: the update, then the output block
      have hc1 : condR1_1 (grid1.coords t) := (hcondR1_1 t).mpr h1
      rw [show (datR1 V c).leavesExact 2 t = owns (c : Thread nD τ) (msR1_2 t) fullShare ((datR1 V c).after 2 t) from by
        unfold Dat.leavesExact; rw [liveR1_2 t hc1], afterR1_2]
      rw [outsAtR1_pos V c t hz, stepR1_C V c t h0 h1]
      unfold outR1_C soutR1_C; (try dsimp only)
      rw [PhiSR1_castSucc V c t, PhiSR1_pos V c _ _ hz]
      iintro ⟨⟨⟨HS, HR⟩, Hg⟩, Ho, ⟨%d0, H0⟩, ⟨%d1, H1⟩, ⟨%d2, H2⟩⟩
      iapply ((kernelRunR1_C c (grid1.coords t) _ _ _ _ _ _ _ _ hc0 hc1 (iblkR1 V c 0 t) (iblkR1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitl [HS HR]
        · isplitl [HS]
          · unfold owns; iexists _; isplitr
            swap; · iexact HS
            ipureintro; exact View.read_writes_of_cover _ _ _ _ _ (scoverR1_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (coverR1_C c _ _ _ _ _ _ _ _ _ _ _ _ _ _)
    · -- 0 < j < 15: the update only
      have hc1 : ¬condR1_1 (grid1.coords t) := fun h => h1 ((hcondR1_1 t).mp h)
      rw [Dat.leavesExact_idle (datR1 V c) 2 t (idleR1_2 t hc1) (noFlushR1_2 t hc1)]
      rw [outsAtR1_pos V c t hz, stepR1_B V c t h0 h1]
      unfold soutR1_B; (try dsimp only)
      rw [PhiSR1_castSucc V c t, PhiSR1_pos V c _ _ hz]
      iintro ⟨⟨⟨HS, HR⟩, Hg⟩, Ho, ⟨%d0, H0⟩, ⟨%d1, H1⟩, ⟨%d2, H2⟩⟩
      iapply ((kernelRunR1_B c (grid1.coords t) _ _ _ _ _ _ _ _ hc0 hc1 (iblkR1 V c 0 t) (iblkR1 V c 1 t) _).2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitl [HS HR]
        · isplitl [HS]
          · unfold owns; iexists _; isplitr
            swap; · iexact HS
            ipureintro; exact View.read_writes_of_cover _ _ _ _ _ (scoverR1_B c _ _ _ _ _ _ _ _ _ _ _ _ _ _)
          iexact HR
        iexact Hg
      isplitl [Ho]; · iexact Ho
      isplitl [H0]; · iexact H0
      isplitl [H1]; · iexact H1
      iexists _; iexact H2

/-- The library's body obligation, at every point. -/
theorem body_obligationR1 (c : Dev nD) : BodyObligation (datR1 (F := F) V c) (defs₀ (F := F)) Variants.none () Set.univ := fun t => by
  rw [bigSep_W1, bigSep_W1]
  exact sound_bodyR1 V c t

/-- What the entry supplies is the invariant before the first point. -/
theorem hinR1 (c : Dev nD) : Pipeline.ΦA spec1 c ⊢ (datR1 V c).Φ 0 := by
  rw [show (datR1 V c).Φ 0 = PhiSR1 V c 0 (Nat.zero_le _) from rfl, PhiSR1_zero V c 0 _ rfl]
  try exact Idealize.SL.BI.Entails.refl _

/-- After the last point the invariant gives the class's back: the scratch's named contents are forgotten. -/
theorem houtR1 (c : Dev nD) : (datR1 V c).Φ (Fin.last cfg1.N) ⊢ Pipeline.ΦA spec1 c := by
  have hne : (Fin.last cfg1.N).val ≠ 0 := by rw [Fin.val_last]; have : cfg1.N = 128 := N_1; omega
  rw [show (datR1 V c).Φ (Fin.last cfg1.N) = PhiSR1 V c (Fin.last cfg1.N).val (Nat.le_of_lt_succ (Fin.last cfg1.N).isLt) from rfl,
    PhiSR1_pos V c _ _ hne, PhiAR1_eq]
  iintro ⟨⟨HS, HR⟩, Hg⟩
  isplitl [HS HR]
  · isplitl [HS]
    · iexists _; iexact HS
    iexact HR
  iexact Hg

end Cert.KernelIdeal.Fr

end
-- ==== Proof.KI.R2.Region.lean ====
/-
  The coarse-distance kernel of the third launch, on its grid of one point, as a region of the program entered at
  buffer contents V. Every window is one whole block. The body loads its two input blocks whole, computes the sum over
  all points of the distance between corresponding points from them, loads the output block (a value it never uses) and
  stores the sum over the whole 1×1 output block. Here: the blocks the windows hold as the region finds the arrays,
  what the one store leaves in the output block as a closed function of the two input blocks, the body's triple, the
  pipeline's proof data and the body obligation; and that what the store leaves is the computed sum itself.
-/
import proofs.«148603_j33663953666360_1_alg».proof.Proof.Gen.KernelIdeal.Launch
import proofs.«148603_j33663953666360_1_alg».proof.Proof.Gen.KernelIdeal.Skeleton
import proofs.«148603_j33663953666360_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the TensorCore's buffers when the region is entered
variable (V : (c : Dev nD) → (b : Ref sig .tc) → Buf (Elt F) ((c : Thread nD τ).loc b))

/-! ## The blocks -/

/-- The block of window w at point t, cut out of the window's array as the region finds it. -/
def iblkR2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input window's staging buffer holds its block at the point, for any proof data whose array is the
    region's and whose body leaves the block in place. -/
theorem beforeR2_0_of {c : Dev nD} (dat : Dat τ (Elt F) Unit ℕ (UR sig nD τ) ℕ cfg2 c) (hA : dat.A 0 = V c (Pipeline.arrRef spec2 0))
    (hafter : ∀ t, dat.after 0 t = iblkR2 V c 0 t) (t : Fin cfg2.N) (d) : dat.before 0 t d = iblkR2 V c 0 t :=
  (dat.before_in_eq_fetched 0 rfl (fun _ => rfl) (fun _ _ _ => rfl) (fun t => by rw [hafter]; unfold Dat.blockOf iblkR2; rw [hA]; try rfl) t d).trans
    (by unfold Dat.fetched Dat.blockOf iblkR2; rw [hA]; try rfl)

/-- The second input window's staging buffer holds its block at the point. -/
theorem beforeR2_1_of {c : Dev nD} (dat : Dat τ (Elt F) Unit ℕ (UR sig nD τ) ℕ cfg2 c) (hA : dat.A 1 = V c (Pipeline.arrRef spec2 1))
    (hafter : ∀ t, dat.after 1 t = iblkR2 V c 1 t) (t : Fin cfg2.N) (d) : dat.before 1 t d = iblkR2 V c 1 t :=
  (dat.before_in_eq_fetched 1 rfl (fun _ => rfl) (fun _ _ _ => rfl) (fun t => by rw [hafter]; unfold Dat.blockOf iblkR2; rw [hA]; try rfl) t d).trans
    (by unfold Dat.fetched Dat.blockOf iblkR2; rw [hA]; try rfl)

/-! ## The body's accesses -/

/-- The whole 4×1024×3 block: the rectangle both loads read through. -/
abbrev rinR2 : Rect S4x1024x3 := Rect.unit (s := S4x1024x3) ![0, 0, 0] S4x1024x3.size inb_S4x1024x3_S4x1024x3_0_0_0
/-- The whole 1×1 block: the rectangle of the one store. -/
abbrev routR2 : Rect S1x1 := Rect.unit (s := S1x1) ![0, 0] S1x1.size inb_S1x1_S1x1_0_0

/-! ## What the body leaves in the output block -/

/-- The output window's staging buffer after the body, from the two input blocks: its one store as a piece. -/
def outR2 (x0 x1 : Vec F S4x1024x3 .f32) : Vec F S1x1 .f32 :=
  View.canon [⟨routR2, k2_pay1 (View.ld x0 rinR2) (View.ld x1 rinR2)⟩]

/-- The one store tiles the 1×1 block, so it covers it. -/
theorem coverR2 (p0 : Vec F S1x1 .f32) (y : S1x1.Idx) :
    ∃ pc ∈ ([⟨routR2, p0⟩] : List (View.Piece (Elt F) S1x1 .f32)), y ∈ pc.1.set :=
  View.cover_of_tiled [⟨routR2, p0⟩] S1x1.size (by rfl) y

/-! ## The body's triple -/

set_option maxHeartbeats 1000000 in
/-- The body on whole staging memrefs, the two inputs' at read contents x0 and x1 and the output's at anything, runs
    to the continuation holding the inputs' as they were and the output's at outR2 of the inputs'. -/
theorem sound_kernelR2 (c : Dev nD) (E : Set ℕ) (i : grid2.Coords)
    (arg1 : Memref sig .tc .vmem S4x1024x3 .f32) (harg1 : arg1.IsWhole)
    (arg2 : Memref sig .tc .vmem S4x1024x3 .f32) (harg2 : arg2.IsWhole)
    (arg3 : Memref sig .tc .vmem S1x1 .f32) (harg3 : arg3.IsWhole)
    (x0 x1 : Vec F S4x1024x3 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (outR2 x0 x1)) -∗ K ⟨⟩))
      ⊢ wp frame (wpE (defs₀ (F := F)) Variants.none c none) E (cc2__coarse_kernel i arg1 harg1 arg2 harg2 arg3 harg3) K := by
  simp only [cc2__coarse_kernel_eq_skeleton]; unfold cc2__coarse_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverR2 _)

/-! ## The pipeline's proof data -/

/-- The proof data of the launch on core c: the arrays as the region finds them; after the body at the point each
    input's buffer at its block and the output's at outR2 of the two input blocks; the invariant the scoped rest and
    the generator register, untouched; nothing owed; full shares. -/
def datR2 (c : Dev nD) : Dat τ (Elt F) Unit ℕ (UR sig nD τ) ℕ cfg2 c where
  A w := V c (Pipeline.arrRef spec2 w)
  after w t := match w with
    | ⟨0, _⟩ => iblkR2 V c 0 t
    | ⟨1, _⟩ => iblkR2 V c 1 t
    | ⟨2, _⟩ => outR2 (iblkR2 V c 0 t) (iblkR2 V c 1 t)
  Φ _ := Pipeline.ΦA spec2 c
  q _ := fullShare
  owed _ := 0

/-- The proof data's arrays are the region-entry contents. -/
theorem A_eqR2 (c : Dev nD) (w : Fin cfg2.W) : (datR2 V c).A w = V c (Pipeline.arrRef spec2 w) := by
  dsimp only [datR2]

/-- What the body leaves, window by window. -/
theorem afterR2_0 (c : Dev nD) (t : Fin cfg2.N) : (datR2 V c).after 0 t = iblkR2 V c 0 t := by dsimp only [datR2]
theorem afterR2_1 (c : Dev nD) (t : Fin cfg2.N) : (datR2 V c).after 1 t = iblkR2 V c 1 t := by dsimp only [datR2]
theorem afterR2_2 (c : Dev nD) (t : Fin cfg2.N) : (datR2 V c).after 2 t = outR2 (iblkR2 V c 0 t) (iblkR2 V c 1 t) := by dsimp only [datR2]

/-- Each input's staging buffer holds its block at the point. -/
theorem beforeR2_0 (c : Dev nD) (t : Fin cfg2.N) (d) : (datR2 V c).before 0 t d = iblkR2 V c 0 t :=
  beforeR2_0_of V (datR2 V c) (A_eqR2 V c 0) (afterR2_0 V c) t d
theorem beforeR2_1 (c : Dev nD) (t : Fin cfg2.N) (d) : (datR2 V c).before 1 t d = iblkR2 V c 1 t :=
  beforeR2_1_of V (datR2 V c) (A_eqR2 V c 1) (afterR2_1 V c) t d

/-! ## The body obligation, at a generic point -/

/-- What the body is called with at point t, the windows one by one, -/
def bodyPreR2 (c : Dev nD) (t : Fin cfg2.N) : sProp 𝕄 :=
  iprop((datR2 V c).Φ t.castSucc ∗ (datR2 V c).owesAt () t.castSucc
    ∗ (∃ d, owns (c : Thread nD τ) (st2_0 t) fullShare ((datR2 V c).before 0 t d))
    ∗ (∃ d, owns (c : Thread nD τ) (st2_1 t) fullShare ((datR2 V c).before 1 t d))
    ∗ (∃ d, owns (c : Thread nD τ) (st2_2 t) fullShare ((datR2 V c).before 2 t d)))

/-- and what it returns. -/
def bodyPostR2 (c : Dev nD) (t : Fin cfg2.N) : sProp 𝕄 :=
  iprop((datR2 V c).Φ t.succ ∗ (datR2 V c).owesAt () t.succ
    ∗ owns (c : Thread nD τ) (st2_0 t) fullShare ((datR2 V c).after 0 t)
    ∗ owns (c : Thread nD τ) (st2_1 t) fullShare ((datR2 V c).after 1 t)
    ∗ owns (c : Thread nD τ) (st2_2 t) fullShare ((datR2 V c).after 2 t))

/-- The body at the point: the inputs' memrefs hold their blocks, so the body's triple applies; the invariant and the
    core's debts pass through unread. -/
theorem sound_bodyR2 (c : Dev nD) (t : Fin cfg2.N) :
    bodyPreR2 V c t ⊢ wp frame (wpE (defs₀ (F := F)) Variants.none c none) Set.univ (bodyAt2 t) (fun _ => bodyPostR2 V c t) := by
  unfold bodyPreR2 bodyPostR2 bodyAt2
  simp only [beforeR2_0, beforeR2_1]
  rw [show (datR2 V c).Φ t.succ = (datR2 V c).Φ t.castSucc from rfl,
    show (datR2 V c).owesAt () t.succ = (datR2 V c).owesAt () t.castSucc from rfl,
    afterR2_0, afterR2_1, afterR2_2]
  iintro ⟨HΦ, Ho, ⟨%d0, H0⟩, ⟨%d1, H1⟩, ⟨%d2, H2⟩⟩
  iapply (sound_kernelR2 c Set.univ _ _ _ _ _ _ _ (iblkR2 V c 0 t) (iblkR2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligationR2 (c : Dev nD) : BodyObligation (datR2 (F := F) V c) (defs₀ (F := F)) Variants.none () Set.univ := fun t => by
  rw [bigSep_W2, bigSep_W2]
  exact sound_bodyR2 V c t

/-! ## The one store covers the block -/

/-- A load through the whole block reads the contents, and the one store through the whole 1×1 block leaves its
    payload: what the body leaves in the output block is the computed sum of the two input blocks. -/
theorem outR2_eq (x0 x1 : Vec F S4x1024x3 .f32) : outR2 x0 x1 = k2_pay1 x0 x1 := by
  have h3 : (![0, 0, 0] : Fin 3 → ℕ) = fun _ => 0 := by funext a; fin_cases a <;> rfl
  have h2 : (![0, 0] : Fin 2 → ℕ) = fun _ => 0 := by funext a; fin_cases a <;> rfl
  unfold outR2
  rw [View.canon_unit_zero (S := S1x1) h2, View.ld_unit_zero (S := S4x1024x3) h3, View.ld_unit_zero (S := S4x1024x3) h3]

end Cert.KernelIdeal.Fr

end
-- ==== Proof.KI.Frame.lean ====
/-
  The three launches put together. Between two items of the program every core holds its unscoped buffers at a
  known valuation: the launch contents; after the first launch the same with its output array at what its
  write-backs leave; after a stretch of host operations the stretch applied; and so on to the end. Each launch is a
  region entered from the valuation before it and left at the one after it: its arrays are split out of the
  unscoped buffers on entry and put back at their final contents on exit, the generator register goes into the
  region's invariant and comes back, nothing is owed, and no kernel has a semaphore of its own.
-/
import proofs.«148603_j33663953666360_1_alg».proof.Proof.KI.R0.Body
import proofs.«148603_j33663953666360_1_alg».proof.Proof.KI.R1.Body
import proofs.«148603_j33663953666360_1_alg».proof.Proof.KI.R2.Region
import proofs.«148603_j33663953666360_1_alg».proof.Proof.KI.RunCond
import Idealize.ShloMosaic.Lib.Pipeline.RegionsLoop

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation read at the TensorCore's references: what a region's proof data take. -/
abbrev rd (W : Dev nD → Valuation τ sig (Elt F)) : (c : Dev nD) → (b : Ref sig .tc) → Buf (Elt F) ((c : Thread nD τ).loc b) := fun c b => W c b

/-! ## The valuations between the items -/

/-- After the first launch: its output array at what its write-backs leave, every other buffer as launched. -/
def U1 (c : Dev nD) : Valuation τ sig (Elt F) := Function.update (V0 m c) main_v0 ((datR0 (rd (V0 m)) c).arrAt 2 cfg0.N)
/-- After the first stretch of host operations. -/
def U2 (c : Dev nD) : Valuation τ sig (Elt F) := StableHlo.after hostOps1 (U1 m c)
/-- After the second launch. -/
def U3 (c : Dev nD) : Valuation τ sig (Elt F) := Function.update (U2 m c) main_v2 ((datR1 (rd (U2 m)) c).arrAt 2 cfg1.N)
/-- After the second stretch. -/
def U4 (c : Dev nD) : Valuation τ sig (Elt F) := StableHlo.after hostOps2 (U3 m c)
/-- After the third launch. -/
def U5 (c : Dev nD) : Valuation τ sig (Elt F) := Function.update (U4 m c) main_v8 ((datR2 (rd (U4 m)) c).arrAt 2 cfg2.N)
/-- After the last stretch. -/
def U6 (c : Dev nD) : Valuation τ sig (Elt F) := StableHlo.after hostOps3 (U5 m c)

/-- What the launches leave in the buffers they may change, read off those valuations. -/
def outsF : Outs (F := F) := fun J r c =>
  match J with
  | 1 => U1 m c r
  | 3 => U3 m c r
  | 5 => U5 m c r
  | _ => V0 m c r

theorem outsF_1 (c : Dev nD) : outsF m 1 main_v0 c = (datR0 (rd (V0 m)) c).arrAt 2 cfg0.N := by
  show U1 m c (Proc.devRef .tc main_v0) = _
  unfold U1
  exact Function.update_self (Proc.devRef .tc main_v0 : DevRef τ sig) _ (V0 m c)
theorem outsF_3 (c : Dev nD) : outsF m 3 main_v2 c = (datR1 (rd (U2 m)) c).arrAt 2 cfg1.N := by
  show U3 m c (Proc.devRef .tc main_v2) = _
  unfold U3
  exact Function.update_self (Proc.devRef .tc main_v2 : DevRef τ sig) _ (U2 m c)
theorem outsF_5 (c : Dev nD) : outsF m 5 main_v8 c = (datR2 (rd (U4 m)) c).arrAt 2 cfg2.N := by
  show U5 m c (Proc.devRef .tc main_v8) = _
  unfold U5
  exact Function.update_self (Proc.devRef .tc main_v8 : DevRef τ sig) _ (U4 m c)

theorem V1_eq (c : Dev nD) : V1 m (outsF m) c = U1 m c := by
  show Function.update (V0 m c) main_v0 (outsF m 1 main_v0 c) = _
  rw [outsF_1]; rfl
theorem V2_eq (c : Dev nD) : V2 m (outsF m) c = U2 m c := by
  show StableHlo.after hostOps1 (V1 m (outsF m) c) = StableHlo.after hostOps1 (U1 m c); rw [V1_eq]
theorem V3_eq (c : Dev nD) : V3 m (outsF m) c = U3 m c := by
  show Function.update (V2 m (outsF m) c) main_v2 (outsF m 3 main_v2 c) = _
  rw [outsF_3, V2_eq]; rfl
theorem V4_eq (c : Dev nD) : V4 m (outsF m) c = U4 m c := by
  show StableHlo.after hostOps2 (V3 m (outsF m) c) = StableHlo.after hostOps2 (U3 m c); rw [V3_eq]
theorem V5_eq (c : Dev nD) : V5 m (outsF m) c = U5 m c := by
  show Function.update (V4 m (outsF m) c) main_v8 (outsF m 5 main_v8 c) = _
  rw [outsF_5, V4_eq]; rfl
theorem V6_eq (c : Dev nD) : V6 m (outsF m) c = U6 m c := by
  show StableHlo.after hostOps3 (V5 m (outsF m) c) = StableHlo.after hostOps3 (U5 m c); rw [V5_eq]

/-! ## The proof data family and what rides along -/

abbrev 𝒱₀ : Variants := Variants.none
abbrev Lz : GSem nD τ sig → Finset Unit := fun _ => ∅
abbrev lvz : GSem nD τ sig → Unit → ℕ := fun _ _ => 0
/-- Beside the buffers through every item: the generator register at some state, and nothing owed. -/
abbrev Rr (c : Dev nD) : sProp 𝕄 := iprop((∃ r, prngReg c r) ∗ ∃ W, owes (c : Thread nD τ) (0 : CellTallies nD τ sig Unit) W)

/-- The proof data of every launch, each at the valuation its region is entered from. -/
def pdatsF : (p : Fin 3) → (c : Dev nD) → Dat τ (Elt F) Unit ℕ (UR sig nD τ) ℕ (cfgs p) c
  | ⟨0, _⟩ => fun c => datR0 (rd (V0 m)) c
  | ⟨1, _⟩ => fun c => datR1 (rd (U2 m)) c
  | ⟨2, _⟩ => fun c => datR2 (rd (U4 m)) c

/-- At launch 0's exit each of its arrays holds what the pipeline leaves: an input its entry contents, the output
    what the write-backs leave. -/
theorem hF0 (c : Dev nD) (w : Fin cfg0.W) : (pdatsF m 0 c).arrAt w cfg0.N = rd (U1 m) c (Pipeline.arrRef spec0 w) := by
  match w with
  | ⟨0, _⟩ =>
    refine ((pdatsF m 0 c).arrAt_in 0 rfl _).trans ?_
    show (datR0 (rd (V0 m)) c).A 0 = _
    rw [A_eqR0]
    exact (Function.update_of_ne (StableHlo.devRef_ne_of_ne (show (main_arg1 : Ref sig .tc) ≠ main_v0 by decide)) _ (V0 m c)).symm
  | ⟨1, _⟩ =>
    refine ((pdatsF m 0 c).arrAt_in 1 rfl _).trans ?_
    show (datR0 (rd (V0 m)) c).A 1 = _
    rw [A_eqR0]
    exact (Function.update_of_ne (StableHlo.devRef_ne_of_ne (show (main_arg2 : Ref sig .tc) ≠ main_v0 by decide)) _ (V0 m c)).symm
  | ⟨2, _⟩ =>
    exact (Function.update_self (Proc.devRef .tc main_v0 : DevRef τ sig) ((datR0 (rd (V0 m)) c).arrAt 2 cfg0.N) (V0 m c)).symm
/-- Every other buffer is as at the entry. -/
theorem hrest0 (c : Dev nD) : ∀ b, b ∉ Finset.univ.image (Pipeline.arrRef spec0) → rd (U1 m) c b = rd (V0 m) c b := by
  intro b hb
  have hne : b ≠ main_v0 := fun e => hb (Finset.mem_image.mpr ⟨2, Finset.mem_univ _, e.symm ▸ rfl⟩)
  exact Function.update_of_ne (StableHlo.devRef_ne_of_ne hne) _ (V0 m c)

/-- At launch 1's exit each of its arrays holds what the pipeline leaves: an input its entry contents, the output
    what the write-backs leave. -/
theorem hF1 (c : Dev nD) (w : Fin cfg1.W) : (pdatsF m 1 c).arrAt w cfg1.N = rd (U3 m) c (Pipeline.arrRef spec1 w) := by
  match w with
  | ⟨0, _⟩ =>
    refine ((pdatsF m 1 c).arrAt_in 0 rfl _).trans ?_
    show (datR1 (rd (U2 m)) c).A 0 = _
    rw [A_eqR1]
    exact (Function.update_of_ne (StableHlo.devRef_ne_of_ne (show (main_arg2 : Ref sig .tc) ≠ main_v2 by decide)) _ (U2 m c)).symm
  | ⟨1, _⟩ =>
    refine ((pdatsF m 1 c).arrAt_in 1 rfl _).trans ?_
    show (datR1 (rd (U2 m)) c).A 1 = _
    rw [A_eqR1]
    exact (Function.update_of_ne (StableHlo.devRef_ne_of_ne (show (main_arg1 : Ref sig .tc) ≠ main_v2 by decide)) _ (U2 m c)).symm
  | ⟨2, _⟩ =>
    exact (Function.update_self (Proc.devRef .tc main_v2 : DevRef τ sig) ((datR1 (rd (U2 m)) c).arrAt 2 cfg1.N) (U2 m c)).symm
/-- Every other buffer is as at the entry. -/
theorem hrest1 (c : Dev nD) : ∀ b, b ∉ Finset.univ.image (Pipeline.arrRef spec1) → rd (U3 m) c b = rd (U2 m) c b := by
  intro b hb
  have hne : b ≠ main_v2 := fun e => hb (Finset.mem_image.mpr ⟨2, Finset.mem_univ _, e.symm ▸ rfl⟩)
  exact Function.update_of_ne (StableHlo.devRef_ne_of_ne hne) _ (U2 m c)

/-- At launch 2's exit each of its arrays holds what the pipeline leaves: an input its entry contents, the output
    what the write-backs leave. -/
theorem hF2 (c : Dev nD) (w : Fin cfg2.W) : (pdatsF m 2 c).arrAt w cfg2.N = rd (U5 m) c (Pipeline.arrRef spec2 w) := by
  match w with
  | ⟨0, _⟩ =>
    refine ((pdatsF m 2 c).arrAt_in 0 rfl _).trans ?_
    show (datR2 (rd (U4 m)) c).A 0 = _
    rw [A_eqR2]
    exact (Function.update_of_ne (StableHlo.devRef_ne_of_ne (show (main_arg0 : Ref sig .tc) ≠ main_v8 by decide)) _ (U4 m c)).symm
  | ⟨1, _⟩ =>
    refine ((pdatsF m 2 c).arrAt_in 1 rfl _).trans ?_
    show (datR2 (rd (U4 m)) c).A 1 = _
    rw [A_eqR2]
    exact (Function.update_of_ne (StableHlo.devRef_ne_of_ne (show (main_arg3 : Ref sig .tc) ≠ main_v8 by decide)) _ (U4 m c)).symm
  | ⟨2, _⟩ =>
    exact (Function.update_self (Proc.devRef .tc main_v8 : DevRef τ sig) ((datR2 (rd (U4 m)) c).arrAt 2 cfg2.N) (U4 m c)).symm
/-- Every other buffer is as at the entry. -/
theorem hrest2 (c : Dev nD) : ∀ b, b ∉ Finset.univ.image (Pipeline.arrRef spec2) → rd (U5 m) c b = rd (U4 m) c b := by
  intro b hb
  have hne : b ≠ main_v8 := fun e => hb (Finset.mem_image.mpr ⟨2, Finset.mem_univ _, e.symm ▸ rfl⟩)
  exact Function.update_of_ne (StableHlo.devRef_ne_of_ne hne) _ (U4 m c)

/-- The third launch keeps nothing between points: its invariant is the class's at both ends. -/
theorem hinR2 (V : (c : Dev nD) → (b : Ref sig .tc) → Buf (Elt F) ((c : Thread nD τ).loc b)) (c : Dev nD) :
    Pipeline.ΦA spec2 c ⊢ (datR2 V c).Φ 0 := by
  rw [show (datR2 V c).Φ 0 = Pipeline.ΦA spec2 c from rfl]
theorem houtR2 (V : (c : Dev nD) → (b : Ref sig .tc) → Buf (Elt F) ((c : Thread nD τ).loc b)) (c : Dev nD) :
    (datR2 V c).Φ (Fin.last cfg2.N) ⊢ Pipeline.ΦA spec2 c := by
  rw [show (datR2 V c).Φ (Fin.last cfg2.N) = Pipeline.ΦA spec2 c from rfl]

/-! ## The launches as regions -/

-- `iapply` of a library lemma stated over the pinned configuration unifies only when unification may unfold plain
-- definitions in a metavariable's type
set_option backward.isDefEq.respectTransparency.types false in
/-- Launch 0 as a region: entered from every unscoped buffer at `V0 m`, left at `U1 m`. -/
def reg0 : RegionSeg (pcfgs (F := F)) adm (pdatsF m) () defs₀ 𝒱₀ Lz lvz 0 where
  win := launch0.win.to₀
  block_pos := launch0.block_pos
  stage_whole := launch0.stage_whole
  K := PEmpty
  osem k := k.elim
  ho := Pipeline.OwnSemFacts.none _
  hbody c := (body_obligationR0 (rd (V0 m)) c).loose
  hwaits := Pipeline.hwaits_of_owed_zero _ _ _ _ Lz lvz 0 fun _ _ => rfl
  pre c := iprop(StableHlo.held (c : Thread nD τ) (Pipeline.ucRefs τ sig) (V0 m c) ∗ Rr c)
  post c := iprop(StableHlo.held (c : Thread nD τ) (Pipeline.ucRefs τ sig) (U1 m c) ∗ Rr c)
  X c := iprop(∃ r, prngReg c r)
  Y c := iprop(∃ r, prngReg c r)
  Z c := Pipeline.unscopedRest (Ix := Unit) (Name := ℕ) (U := UR sig nD τ) (Lvl := ℕ) spec0 c (rd (V0 m) c)
  hentry c := by
    rw [Pipeline.ownSems0_none]
    have hsplit := Pipeline.arrays_of_unscopedBufs (p := 0) (pcfgs (F := F)) adm (pdatsF m) launch0.win launch0.arr_whole c
      ((pdatsF m 0 c).share_full fun _ => rfl) (rd (V0 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hinR0 (rd (V0 m)) c
    unfold Pipeline.ΦA at h
    rw [show (pdatsF m 0 c).Φ 0 = (datR0 (rd (V0 m)) c).Φ 0 from rfl]
    iintro ⟨Hp, -, Hr⟩
    iapply h
    isplitl [Hr]; · iexact Hr
    iexact Hp
  hout c := by
    rw [Pipeline.ownSems0_none]
    have h := houtR0 (rd (V0 m)) c
    unfold Pipeline.ΦA at h
    rw [show (pdatsF m 0 c).Φ (Fin.last _) = (datR0 (rd (V0 m)) c).Φ (Fin.last cfg0.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdatsF m) ((pdatsF m 0 c).share_full fun _ => rfl)
      (rd (V0 m) c) (rd (U1 m) c) ((pdatsF m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Launch 1 as a region: entered from every unscoped buffer at `U2 m`, left at `U3 m`. -/
def reg1 : RegionSeg (pcfgs (F := F)) adm (pdatsF m) () defs₀ 𝒱₀ Lz lvz 1 where
  win := launch1.win.to₀
  block_pos := launch1.block_pos
  stage_whole := launch1.stage_whole
  K := PEmpty
  osem k := k.elim
  ho := Pipeline.OwnSemFacts.none _
  hbody c := (body_obligationR1 (rd (U2 m)) c).loose
  hwaits := Pipeline.hwaits_of_owed_zero _ _ _ _ Lz lvz 1 fun _ _ => rfl
  pre c := iprop(StableHlo.held (c : Thread nD τ) (Pipeline.ucRefs τ sig) (U2 m c) ∗ Rr c)
  post c := iprop(StableHlo.held (c : Thread nD τ) (Pipeline.ucRefs τ sig) (U3 m c) ∗ Rr c)
  X c := iprop(∃ r, prngReg c r)
  Y c := iprop(∃ r, prngReg c r)
  Z c := Pipeline.unscopedRest (Ix := Unit) (Name := ℕ) (U := UR sig nD τ) (Lvl := ℕ) spec1 c (rd (U2 m) c)
  hentry c := by
    rw [Pipeline.ownSems0_none]
    have hsplit := Pipeline.arrays_of_unscopedBufs (p := 1) (pcfgs (F := F)) adm (pdatsF m) launch1.win launch1.arr_whole c
      ((pdatsF m 1 c).share_full fun _ => rfl) (rd (U2 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hinR1 (rd (U2 m)) c
    unfold Pipeline.ΦA at h
    rw [show (pdatsF m 1 c).Φ 0 = (datR1 (rd (U2 m)) c).Φ 0 from rfl]
    iintro ⟨Hp, -, Hr⟩
    iapply h
    isplitl [Hr]; · iexact Hr
    iexact Hp
  hout c := by
    rw [Pipeline.ownSems0_none]
    have h := houtR1 (rd (U2 m)) c
    unfold Pipeline.ΦA at h
    rw [show (pdatsF m 1 c).Φ (Fin.last _) = (datR1 (rd (U2 m)) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdatsF m) ((pdatsF m 1 c).share_full fun _ => rfl)
      (rd (U2 m) c) (rd (U3 m) c) ((pdatsF m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over the pinned configuration unifies only when unification may unfold plain
-- definitions in a metavariable's type
set_option backward.isDefEq.respectTransparency.types false in
/-- Launch 2 as a region: entered from every unscoped buffer at `U4 m`, left at `U5 m`. -/
def reg2 : RegionSeg (pcfgs (F := F)) adm (pdatsF m) () defs₀ 𝒱₀ Lz lvz 2 where
  win := launch2.win.to₀
  block_pos := launch2.block_pos
  stage_whole := launch2.stage_whole
  K := PEmpty
  osem k := k.elim
  ho := Pipeline.OwnSemFacts.none _
  hbody c := (body_obligationR2 (rd (U4 m)) c).loose
  hwaits := Pipeline.hwaits_of_owed_zero _ _ _ _ Lz lvz 2 fun _ _ => rfl
  pre c := iprop(StableHlo.held (c : Thread nD τ) (Pipeline.ucRefs τ sig) (U4 m c) ∗ Rr c)
  post c := iprop(StableHlo.held (c : Thread nD τ) (Pipeline.ucRefs τ sig) (U5 m c) ∗ Rr c)
  X c := iprop(∃ r, prngReg c r)
  Y c := iprop(∃ r, prngReg c r)
  Z c := Pipeline.unscopedRest (Ix := Unit) (Name := ℕ) (U := UR sig nD τ) (Lvl := ℕ) spec2 c (rd (U4 m) c)
  hentry c := by
    rw [Pipeline.ownSems0_none]
    have hsplit := Pipeline.arrays_of_unscopedBufs (p := 2) (pcfgs (F := F)) adm (pdatsF m) launch2.win launch2.arr_whole c
      ((pdatsF m 2 c).share_full fun _ => rfl) (rd (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hinR2 (rd (U4 m)) c
    unfold Pipeline.ΦA at h
    rw [show (pdatsF m 2 c).Φ 0 = (datR2 (rd (U4 m)) c).Φ 0 from rfl]
    iintro ⟨Hp, -, Hr⟩
    iapply h
    isplitl [Hr]; · iexact Hr
    iexact Hp
  hout c := by
    rw [Pipeline.ownSems0_none]
    have h := houtR2 (rd (U4 m)) c
    unfold Pipeline.ΦA at h
    rw [show (pdatsF m 2 c).Φ (Fin.last _) = (datR2 (rd (U4 m)) c).Φ (Fin.last cfg2.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdatsF m) ((pdatsF m 2 c).share_full fun _ => rfl)
      (rd (U4 m) c) (rd (U5 m) c) ((pdatsF m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one
set_option backward.isDefEq.respectTransparency.types false in
/-- From any memory with zero counters every weakly fair execution of the program terminates, nothing faulting,
    and every core's unscoped buffers end at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = U6 m c b) := by
  have h := run_cond (F := F) m emb₁ () 𝒱₀ Lz lvz (fun _ _ => rfl) ρ (outsF m) (pdatsF m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := by
      refine Pipeline.initEach Lz lvz fun c => ?_
      iintro ⟨⟨-, HO, -, Hp, -⟩, -⟩
      imodintro
      isplitl [Hp]; · iexists _; iexact Hp
      iexists ∅; iexact HO)
    (hE3 := fun c => by iintro ⟨-, HO⟩; iexact HO)
    (reg0 m) (fun c => .rfl) (fun c => by rw [V1_eq]; exact .rfl)
    (reg1 m) (fun c => by rw [V2_eq]; exact .rfl) (fun c => by rw [V3_eq]; exact .rfl)
    (reg2 m) (fun c => by rw [V4_eq]; exact .rfl) (fun c => by rw [V5_eq]; exact .rfl)
  refine (θ_run defs _ _).mono (fun r hr c b hb => ?_) h
  rw [← V6_eq]; exact hr c b hb

/-- The frame claim's post: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r hr c => ?_) (run_all m ρ)
  have hmem : ∀ b : Ref sig .tc, ¬ (Proc.devRef .tc b : DevRef τ sig).isScoped → Proc.devRef .tc b ∈ Pipeline.ucRefs τ sig :=
    fun b h => Finset.mem_filter.mpr ⟨StableHlo.devRef_mem_tcRefs b, h⟩
  refine ⟨?_, ?_, ?_, ?_⟩
  · exact (hr c _ (hmem main_arg0 (by decide))).trans ((V6_eq m c ▸ rfl : U6 m c main_arg0 = V6 m (outsF m) c main_arg0).trans (V6_main_arg0 m (outsF m) c))
  · exact (hr c _ (hmem main_arg1 (by decide))).trans ((V6_eq m c ▸ rfl : U6 m c main_arg1 = V6 m (outsF m) c main_arg1).trans (V6_main_arg1 m (outsF m) c))
  · exact (hr c _ (hmem main_arg2 (by decide))).trans ((V6_eq m c ▸ rfl : U6 m c main_arg2 = V6 m (outsF m) c main_arg2).trans (V6_main_arg2 m (outsF m) c))
  · exact (hr c _ (hmem main_arg3 (by decide))).trans ((V6_eq m c ▸ rfl : U6 m c main_arg3 = V6 m (outsF m) c main_arg3).trans (V6_main_arg3 m (outsF m) c))

end Cert.KernelIdeal.Fr

end
-- ==== Proof.KI.Tail.lean ====
/-
  The program's two results, read off the last valuation: what the host operations between and after the launches
  compute from the three launches' output arrays. The fine loss is one half of the sum of the two nearest-neighbour
  sums, each over 32768; the coarse loss is the coarse kernel's one entry over 4096. Also: the argument arrays a
  later launch reads are still the launch contents when it is entered.
-/
import proofs.«148603_j33663953666360_1_alg».proof.Proof.KI.Frame
import Idealize.ShloMosaic.Lib.StableHlo.Run

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.StableHlo

variable {F : FTy → Type} [FloatOps F]

local notation "𝕄" => MT nD τ sig Unit (Elt F) ℕ (UR sig nD τ) ℕ

variable (m : (ℓ : Loc nD τ sig) → Buf (Elt F) ℓ)

/-- What the three launches leave in their output arrays. -/
abbrev out0 (c : Dev nD) := (datR0 (rd (V0 m)) c).arrAt 2 cfg0.N
abbrev out1 (c : Dev nD) := (datR1 (rd (U2 m)) c).arrAt 2 cfg1.N
abbrev out2 (c : Dev nD) := (datR2 (rd (U4 m)) c).arrAt 2 cfg2.N

/-- The host operations on the two nearest-neighbour arrays: ½ · (Σ d1 / 32768 + Σ d2 / 32768). -/
def fineTail (d1 d2 : (⟨S4x8192, .f32⟩ : BufTy).Contents (Elt F)) : (⟨S_, .f32⟩ : BufTy).Contents (Elt F) :=
  mulf (constant S_ .f32 0x3F000000#32)
    (addf (Host.divf (Host.reduceAdd d1 (constant S_ .f32 0x00000000#32) reducesTo_S4x8192_S_d0_1 h_S_) (constant S_ .f32 0x47000000#32))
      (Host.divf (Host.reduceAdd d2 (constant S_ .f32 0x00000000#32) reducesTo_S4x8192_S_d0_1 h_S_) (constant S_ .f32 0x47000000#32)))

/-- The host operations on the coarse kernel's [1,1] result: its entry over 4096. -/
def coarseTail (o : (⟨S1x1, .f32⟩ : BufTy).Contents (Elt F)) : (⟨S_, .f32⟩ : BufTy).Contents (Elt F) :=
  Host.divf (fun i => shapeCast S_ o shapeCasts_S1x1_S_ i) (constant S_ .f32 0x45800000#32)

theorem U1_v0 (c : Dev nD) : U1 m c main_v0 = out0 m c := by
  unfold U1; exact Function.update_self (Proc.devRef .tc main_v0 : DevRef τ sig) _ (V0 m c)
theorem U3_v2 (c : Dev nD) : U3 m c main_v2 = out1 m c := by
  unfold U3; exact Function.update_self (Proc.devRef .tc main_v2 : DevRef τ sig) _ (U2 m c)
theorem U5_v8 (c : Dev nD) : U5 m c main_v8 = out2 m c := by
  unfold U5; exact Function.update_self (Proc.devRef .tc main_v8 : DevRef τ sig) _ (U4 m c)

theorem U2_v1 (c : Dev nD) : U2 m c main_v1 = Host.reduceAdd (out0 m c) (constant S_ .f32 0x00000000#32) reducesTo_S4x8192_S_d0_1 h_S_ := by
  unfold U2
  show StableHlo.after hostOps1 (U1 m c) (Proc.devRef .tc main_v1) = _
  after_results
  rw [U1_v0]
theorem U3_v1 (c : Dev nD) : U3 m c main_v1 = U2 m c main_v1 := by
  unfold U3; exact Function.update_of_ne (StableHlo.devRef_ne_of_ne (show (main_v1 : Ref sig .tc) ≠ main_v2 by decide)) _ (U2 m c)

theorem U4_v7 (c : Dev nD) : U4 m c main_v7 = fineTail (out0 m c) (out1 m c) := by
  unfold U4 fineTail
  show StableHlo.after hostOps2 (U3 m c) (Proc.devRef .tc main_v7) = _
  after_results
  rw [U3_v2, U3_v1, U2_v1]
theorem U5_v7 (c : Dev nD) : U5 m c main_v7 = U4 m c main_v7 := by
  unfold U5; exact Function.update_of_ne (StableHlo.devRef_ne_of_ne (show (main_v7 : Ref sig .tc) ≠ main_v8 by decide)) _ (U4 m c)

/-- The fine loss. -/
theorem U6_v7 (c : Dev nD) : U6 m c main_v7 = fineTail (out0 m c) (out1 m c) := by
  rw [← U4_v7, ← U5_v7]
  unfold U6
  show StableHlo.after hostOps3 (U5 m c) (Proc.devRef .tc main_v7) = _
  after_results

/-- The coarse loss. -/
theorem U6_v10 (c : Dev nD) : U6 m c main_v10 = coarseTail (out2 m c) := by
  unfold U6 coarseTail
  show StableHlo.after hostOps3 (U5 m c) (Proc.devRef .tc main_v10) = _
  after_results
  rw [U5_v8]
  rfl

/-! ## The arguments are untouched -/

theorem U6_arg (c : Dev nD) (r : Ref sig .tc) (h1 : r ∉ ([main_v0] : List (Ref sig .tc))) (h2 : r ∉ hostOps1_W) (h3 : r ∉ ([main_v2] : List (Ref sig .tc)))
    (h4 : r ∉ hostOps2_W) (h5 : r ∉ ([main_v8] : List (Ref sig .tc))) (h6 : r ∉ hostOps3_W) : U6 m c r = m ((c : Thread nD τ).loc r) := by
  rw [← V6_eq]
  exact (V6_of m (outsF m) c r h6).trans <| (V5_of m (outsF m) c r h5).trans <| (V4_of m (outsF m) c r h4).trans <|
    (V3_of m (outsF m) c r h3).trans <| (V2_of m (outsF m) c r h2).trans <| (V1_of m (outsF m) c r h1).trans rfl

/-- The second launch still finds the two fine arrays as launched. -/
theorem U2_arg (c : Dev nD) (r : Ref sig .tc) (h1 : r ∉ ([main_v0] : List (Ref sig .tc))) (h2 : r ∉ hostOps1_W) : U2 m c r = m ((c : Thread nD τ).loc r) := by
  rw [← V2_eq]
  exact (V2_of m (outsF m) c r h2).trans <| (V1_of m (outsF m) c r h1).trans rfl

/-- The third launch still finds the two coarse arrays as launched. -/
theorem U4_arg (c : Dev nD) (r : Ref sig .tc) (h1 : r ∉ ([main_v0] : List (Ref sig .tc))) (h2 : r ∉ hostOps1_W) (h3 : r ∉ ([main_v2] : List (Ref sig .tc)))
    (h4 : r ∉ hostOps2_W) : U4 m c r = m ((c : Thread nD τ).loc r) := by
  rw [← V4_eq]
  exact (V4_of m (outsF m) c r h4).trans <| (V3_of m (outsF m) c r h3).trans <| (V2_of m (outsF m) c r h2).trans <| (V1_of m (outsF m) c r h1).trans rfl

end Cert.KernelIdeal.Fr

end
-- ==== Proof.LibMinTiles.lean ====
/-
  Minima over a finite index type taken from +∞ on the extended reals, and how a tiled computation reaches them.

  `minOver f` is the least of `f` from +∞ (`Finset.univ.fold min ⊤ f`), with its two order characterisations
  `minOver_le` and `le_minOver`. `minOver_tiles a b f`: the minimum over a·b indices is the minimum over a tiles of
  the tiles' own minima over b consecutive indices. `runMin g` is the running minimum that starts at +∞ and is lowered
  by `g j` at step j; `runMin_eq a g`: after all a steps it is `minOver` of g over the a steps. Together they say
  that a kernel which keeps a running minimum in a scratch, reset to +∞ at the first tile and lowered by each tile's
  minimum, ends with the minimum over everything. `ofBits_inf`: the f32 word 0x7F800000 denotes +∞. Generic in the
  sizes; needs only the lattice order of the extended reals.
-/
import Idealize.ShloMosaic.PureOps.Ideal
import Mathlib.Data.Finset.Fold
import Mathlib.Data.Fintype.BigOperators
import Mathlib.Data.EReal.Basic

noncomputable section

namespace Cert.Spec

open Idealize.ShloMosaic

/-- The least of `f` over a finite index type, from +∞. -/
def minOver {ι : Type} [Fintype ι] (f : ι → EReal) : EReal := Finset.univ.fold min ⊤ f

/-- The running minimum after the first `j` tiles: +∞, lowered by one tile's minimum per step. -/
def runMin (g : ℕ → EReal) : ℕ → EReal
  | 0 => ⊤
  | j + 1 => min (runMin g j) (g j)

theorem minOver_le {ι : Type} [Fintype ι] (f : ι → EReal) (i : ι) : minOver f ≤ f i := by
  unfold minOver
  exact (Finset.fold_min_le (f := f) (b := ⊤) (s := Finset.univ) (f i)).2 (Or.inr ⟨i, Finset.mem_univ i, le_rfl⟩)

theorem le_minOver {ι : Type} [Fintype ι] (f : ι → EReal) (a : EReal) (h : ∀ i, a ≤ f i) : a ≤ minOver f := by
  unfold minOver
  exact (Finset.le_fold_min (f := f) (b := ⊤) (s := Finset.univ) a).2 ⟨le_top, fun i _ => h i⟩

/-- The minimum over a·b candidates is the minimum over a tiles of b. -/
theorem minOver_tiles (a b : ℕ) (f : Fin (a * b) → EReal) :
    minOver f = minOver fun j : Fin a => minOver fun q : Fin b =>
      f ⟨j.val * b + q.val, by
        have hj := j.isLt; have hq := q.isLt
        calc j.val * b + q.val < j.val * b + b := by omega
          _ = (j.val + 1) * b := by ring
          _ ≤ a * b := Nat.mul_le_mul_right b hj⟩ := by
  apply le_antisymm
  · refine le_minOver _ _ fun j => le_minOver _ _ fun q => minOver_le f _
  · refine le_minOver _ _ fun i => ?_
    have hb : 0 < b := by
      rcases Nat.eq_zero_or_pos b with hb | hb
      · exact absurd i.isLt (by subst hb; simp)
      · exact hb
    have hj : i.val / b < a := by
      rw [Nat.div_lt_iff_lt_mul hb]; exact i.isLt
    refine (minOver_le _ (⟨i.val / b, hj⟩ : Fin a)).trans ?_
    refine (minOver_le _ (⟨i.val % b, Nat.mod_lt _ hb⟩ : Fin b)).trans (le_of_eq ?_)
    congr 1; apply Fin.ext; show i.val / b * b + i.val % b = i.val
    rw [Nat.mul_comm]; exact Nat.div_add_mod _ _

/-- After all `a` steps the running minimum is the minimum of the tiles' values. -/
theorem runMin_eq (a : ℕ) (g : ℕ → EReal) : runMin g a = minOver fun j : Fin a => g j.val := by
  induction a with
  | zero => unfold runMin minOver; simp
  | succ a ih =>
    show min (runMin g a) (g a) = _
    rw [ih]
    apply le_antisymm
    · refine le_minOver _ _ fun j => ?_
      rcases Nat.lt_succ_iff_lt_or_eq.mp j.isLt with h | h
      · exact (min_le_left _ _).trans (minOver_le (fun j : Fin a => g j.val) ⟨j.val, h⟩)
      · exact (min_le_right _ _).trans (le_of_eq (by rw [h]))
    · refine le_min (le_minOver _ _ fun j => minOver_le (fun j : Fin (a + 1) => g j.val) ⟨j.val, Nat.lt_succ_of_lt j.isLt⟩) ?_
      exact minOver_le (fun j : Fin (a + 1) => g j.val) ⟨a, Nat.lt_succ_self a⟩

/-- The word of +∞ denotes +∞. -/
theorem ofBits_inf : Ideal.ofBits .f32 0x7F800000#32 = (⊤ : EReal) := by
  simp [Ideal.ofBits, Ideal.ieee]

end Cert.Spec

end
-- ==== Proof.Spec.lean ====
/-
  The mathematics both programs compute, over the extended reals, stated index by index and free of any program.

  For points x, y in three coordinates: the squared norm `sq x = Σ_k x_k·x_k`, the inner product
  `dot x y = Σ_k x_k·y_k`, and the clamped squared distance `dist x y = max (sq x + sq y − 2·dot x y) 0`.
  For a family of query points and a family of candidate points, `nn X Y n` is the square root of the least
  `dist (X n) (Y m)` over the candidates m, the minimum taken from +∞.

  `dist` is symmetric because + and · are commutative on the extended reals (no finiteness is needed: nothing
  is distributed or cancelled). Proved in the general lemma module beside this one: a minimum over a·b candidates taken from +∞ is the minimum over a tiles of the
  tiles' own minima over b candidates; and a running minimum that starts at +∞ and is lowered by one tile's minimum
  per step holds, after all a steps, the minimum over everything.
-/
import proofs.«148603_j33663953666360_1_alg».proof.Proof.LibMinTiles
import Idealize.ShloMosaic.PureOps.Ideal
import Idealize.ShloMosaic.PureOps.Ideal.Laws
import Mathlib.Data.Finset.Fold
import Mathlib.Data.Fintype.BigOperators
import Mathlib.Data.EReal.Basic

noncomputable section

namespace Cert.Spec

open Idealize.ShloMosaic

/-- The literal 2.0, kept as its word. -/
abbrev two : EReal := Ideal.ofBits .f32 0x40000000#32

/-- Σ_k x_k · x_k. -/
def sq (x : Fin 3 → EReal) : EReal := ∑ k : Fin 3, x k * x k

/-- Σ_k x_k · y_k. -/
def dot (x y : Fin 3 → EReal) : EReal := ∑ k : Fin 3, x k * y k

/-- max (|x|² + |y|² − 2·⟨x, y⟩) 0. -/
def dist (x y : Fin 3 → EReal) : EReal := max (sq x + sq y - two * dot x y) 0

theorem dot_comm (x y : Fin 3 → EReal) : dot x y = dot y x := by
  unfold dot; exact Finset.sum_congr rfl fun k _ => mul_comm _ _

theorem dist_comm (x y : Fin 3 → EReal) : dist x y = dist y x := by
  unfold dist; rw [add_comm (sq x) (sq y), dot_comm x y]

/-- √ of the least clamped squared distance from query `n` to the candidates. -/
def nn {N M : ℕ} (X : Fin N → Fin 3 → EReal) (Y : Fin M → Fin 3 → EReal) (n : Fin N) : EReal :=
  Ideal.sqrt (minOver fun m : Fin M => dist (X n) (Y m))

/-- Σ_b Σ_n √(Σ_k (A b n k − B b n k)²): the sum over all points of the distance between corresponding points. -/
def coarse {B N : ℕ} (A C : Fin B → Fin N → Fin 3 → EReal) : EReal :=
  ∑ b : Fin B, ∑ n : Fin N, Ideal.sqrt (∑ k : Fin 3, (A b n k - C b n k) * (A b n k - C b n k))

end Cert.Spec

end
-- ==== Proof.KI.Val.Pay.lean ====
/-
  The nearest-neighbour kernel's three stored values, read at one index over the extended reals.

  The first is the constant +∞. The second, at batch b and query p, is the running minimum there lowered by the least
  clamped squared distance from query p to the tile's 512 candidates. The third is the square root of its operand.
-/
import proofs.«148603_j33663953666360_1_alg».proof.Proof.Gen.KernelIdeal.Skeleton
import proofs.«148603_j33663953666360_1_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

namespace Cert.KernelIdeal.Val

open Idealize.ShloMosaic Idealize.ShloMosaic.ValueIdx Cert.KernelIdeal Cert.KernelIdeal.Gen

/-! ## The first and third stored values -/

/-- The reset value is +∞ everywhere. -/
theorem pay1_apply (b : Fin 4) (p : Fin 1024) : k0_pay1 (F := Ideal) (ix2 b p) = (⊤ : EReal) := by
  unfold k0_pay1
  rw [shapeCast_self]
  exact Cert.Spec.ofBits_inf

/-- The output is the square root of the running minimum, entry by entry. -/
theorem pay3_apply (v29 : Vec Ideal S4x1024 .f32) (b : Fin 4) (p : Fin 1024) :
    k0_pay3 (F := Ideal) v29 (ix2 b p) = Ideal.sqrt (v29 (ix2 b p)) := rfl

/-! ## Sums over the three coordinates -/

/-- The query block's lane sum at (b, p): the sum over the three coordinates. -/
theorem sum3_q (x : FVec Ideal S4x1024x3 .f32) (h : S4x1024x3.Reduces [2] S4x1024) (b : Fin 4) (p : Fin 1024) :
    multiReduction (F := Ideal) .add [2] S4x1024 x 0x00000000#32 h (.inl rfl) rfl (ix2 b p)
      = ∑ k : Fin 3, x (ix3 b p k) := by
  refine (Ideal.multiReduction_add_single x _ h _ _ (ix2 b p)).trans ?_
  refine Finset.sum_congr rfl fun k _ => congrArg x ?_
  funext a
  match a with
  | ⟨0, _⟩ => rfl
  | ⟨1, _⟩ => rfl
  | ⟨2, _⟩ => rfl

/-- The candidate block's lane sum at (b, q). -/
theorem sum3_c (x : FVec Ideal S4x512x3 .f32) (h : S4x512x3.Reduces [2] S4x512) (b : Fin 4) (q : Fin 512) :
    multiReduction (F := Ideal) .add [2] S4x512 x 0x00000000#32 h (.inl rfl) rfl (ix2 b q)
      = ∑ k : Fin 3, x (ix3 b q k) := by
  refine (Ideal.multiReduction_add_single x _ h _ _ (ix2 b q)).trans ?_
  refine Finset.sum_congr rfl fun k _ => congrArg x ?_
  funext a
  match a with
  | ⟨0, _⟩ => rfl
  | ⟨1, _⟩ => rfl
  | ⟨2, _⟩ => rfl

/-! ## The two keep-dimension casts, broadcast over the tile -/

/-- A [4,1024] value viewed [4,1024,1] and broadcast along the candidates reads its (b, p) entry at (b, p, q). -/
theorem rowBroadcast_apply {α : Type} (y : S4x1024.Idx → α) (hc : S4x1024.ShapeCasts S4x1024x1)
    (hb : S4x1024x1.Broadcasts S4x1024x512) (b : Fin 4) (p : Fin 1024) (q : Fin 512) :
    broadcastTo S4x1024x512 (shapeCast S4x1024x1 y hc) hb (ix3 b p q) = y (ix2 b p) := by
  refine (broadcastTo_apply _ hb (ix3 b p q) (ix3 b p (0 : Fin 1)) fun a => ?_).trans ?_
  · match a with
    | ⟨0, _⟩ => rfl
    | ⟨1, _⟩ => rfl
    | ⟨2, _⟩ => rfl
  · refine shapeCast_apply y hc _ (ix2 b p) ?_
    rw [Shape.rowMajor_val_three, Shape.rowMajor_val_two]
    show b.val * 1024 + p.val = (b.val * 1024 + p.val) * 1 + 0
    omega

/-- A [4,512] value viewed [4,1,512] and broadcast along the queries reads its (b, q) entry at (b, p, q). -/
theorem colBroadcast_apply {α : Type} (y : S4x512.Idx → α) (hc : S4x512.ShapeCasts S4x1x512)
    (hb : S4x1x512.Broadcasts S4x1024x512) (b : Fin 4) (p : Fin 1024) (q : Fin 512) :
    broadcastTo S4x1024x512 (shapeCast S4x1x512 y hc) hb (ix3 b p q) = y (ix2 b q) := by
  refine (broadcastTo_apply _ hb (ix3 b p q) (ix3 b (0 : Fin 1) q) fun a => ?_).trans ?_
  · match a with
    | ⟨0, _⟩ => rfl
    | ⟨1, _⟩ => rfl
    | ⟨2, _⟩ => rfl
  · refine shapeCast_apply y hc _ (ix2 b q) ?_
    rw [Shape.rowMajor_val_three, Shape.rowMajor_val_two]
    show b.val * 512 + q.val = (b.val * 1 + 0) * 512 + q.val
    omega

/-! ## The batched product: batch axis 0, the third axis of both operands contracted -/

/-- The left operand's index at output (b, p, q) and contraction position k is (b, p, k): coordinate by coordinate. -/
theorem lhs_dot_0 (i : S4x1024x512.Idx) (q : dot_S4x1024x3_S4x512x3_S4x1024x512_2_2_1_1_0_0.contr.Idx) :
    (dot_S4x1024x3_S4x512x3_S4x1024x512_2_2_1_1_0_0.lhsIdx i q 0).val = (i 0).val := by
  unfold DotDims.lhsIdx
  rw [dif_pos (show (0 : Fin S4x1024x3.rank) ∈ dot_S4x1024x3_S4x512x3_S4x1024x512_2_2_1_1_0_0.lhsBatch by decide)]
  rfl
theorem lhs_dot_1 (i : S4x1024x512.Idx) (q : dot_S4x1024x3_S4x512x3_S4x1024x512_2_2_1_1_0_0.contr.Idx) :
    (dot_S4x1024x3_S4x512x3_S4x1024x512_2_2_1_1_0_0.lhsIdx i q 1).val = (i 1).val := by
  unfold DotDims.lhsIdx
  rw [dif_neg (show ¬(1 : Fin S4x1024x3.rank) ∈ dot_S4x1024x3_S4x512x3_S4x1024x512_2_2_1_1_0_0.lhsBatch by decide),
    dif_pos (show (1 : Fin S4x1024x3.rank) ∈ dot_S4x1024x3_S4x512x3_S4x1024x512_2_2_1_1_0_0.lhsNonContracting by decide)]
  rfl
theorem lhs_dot_2 (i : S4x1024x512.Idx) (q : dot_S4x1024x3_S4x512x3_S4x1024x512_2_2_1_1_0_0.contr.Idx) :
    (dot_S4x1024x3_S4x512x3_S4x1024x512_2_2_1_1_0_0.lhsIdx i q 2).val = (q ⟨0, by decide⟩).val :=
  dot_S4x1024x3_S4x512x3_S4x1024x512_2_2_1_1_0_0.lhsIdx_val_of_single rfl i q
/-- The right operand's index at output (b, p, q) and contraction position k is (b, q, k): coordinate by coordinate. -/
theorem rhs_dot_0 (i : S4x1024x512.Idx) (q : dot_S4x1024x3_S4x512x3_S4x1024x512_2_2_1_1_0_0.contr.Idx) :
    (dot_S4x1024x3_S4x512x3_S4x1024x512_2_2_1_1_0_0.rhsIdx i q 0).val = (i 0).val := by
  unfold DotDims.rhsIdx
  rw [dif_pos (show (0 : Fin S4x512x3.rank) ∈ dot_S4x1024x3_S4x512x3_S4x1024x512_2_2_1_1_0_0.rhsBatch by decide)]
  rfl
theorem rhs_dot_1 (i : S4x1024x512.Idx) (q : dot_S4x1024x3_S4x512x3_S4x1024x512_2_2_1_1_0_0.contr.Idx) :
    (dot_S4x1024x3_S4x512x3_S4x1024x512_2_2_1_1_0_0.rhsIdx i q 1).val = (i 2).val := by
  unfold DotDims.rhsIdx
  rw [dif_neg (show ¬(1 : Fin S4x512x3.rank) ∈ dot_S4x1024x3_S4x512x3_S4x1024x512_2_2_1_1_0_0.rhsBatch by decide),
    dif_pos (show (1 : Fin S4x512x3.rank) ∈ dot_S4x1024x3_S4x512x3_S4x1024x512_2_2_1_1_0_0.rhsNonContracting by decide)]
  rfl
theorem rhs_dot_2 (i : S4x1024x512.Idx) (q : dot_S4x1024x3_S4x512x3_S4x1024x512_2_2_1_1_0_0.contr.Idx) :
    (dot_S4x1024x3_S4x512x3_S4x1024x512_2_2_1_1_0_0.rhsIdx i q 2).val = (q ⟨0, by decide⟩).val :=
  dot_S4x1024x3_S4x512x3_S4x1024x512_2_2_1_1_0_0.rhsIdx_val_of_single rfl i q

/-- The product into the zero accumulator at (b, p, q): the inner product of query p with candidate q. -/
theorem matmul_dot_apply (x : FVec Ideal S4x1024x3 .f32) (y : FVec Ideal S4x512x3 .f32) (b : Fin 4) (p : Fin 1024)
    (q : Fin 512) :
    matmul (F := Ideal) dot_S4x1024x3_S4x512x3_S4x1024x512_2_2_1_1_0_0 (some .fp32) x y
        (constant S4x1024x512 .f32 0x00000000#32) (ix3 b p q)
      = ∑ k : Fin 3, x (ix3 b p k) * y (ix3 b q k) := by
  simp only [matmul]
  rw [Ideal.matmul_constant_zero_apply,
    ← Equiv.sum_comp (contrEquiv1 dot_S4x1024x3_S4x512x3_S4x1024x512_2_2_1_1_0_0 3 rfl rfl).symm]
  refine Finset.sum_congr rfl fun k _ => ?_
  have hk := contrEquiv1_symm_val dot_S4x1024x3_S4x512x3_S4x1024x512_2_2_1_1_0_0 3 rfl rfl k
  have el : dot_S4x1024x3_S4x512x3_S4x1024x512_2_2_1_1_0_0.lhsIdx (ix3 b p q)
      ((contrEquiv1 dot_S4x1024x3_S4x512x3_S4x1024x512_2_2_1_1_0_0 3 rfl rfl).symm k) = ix3 b p k :=
    funext fun a => Fin.ext (by
      match a with
      | ⟨0, _⟩ => exact lhs_dot_0 _ _
      | ⟨1, _⟩ => exact lhs_dot_1 _ _
      | ⟨2, _⟩ => exact (lhs_dot_2 _ _).trans hk)
  have er : dot_S4x1024x3_S4x512x3_S4x1024x512_2_2_1_1_0_0.rhsIdx (ix3 b p q)
      ((contrEquiv1 dot_S4x1024x3_S4x512x3_S4x1024x512_2_2_1_1_0_0 3 rfl rfl).symm k) = ix3 b q k :=
    funext fun a => Fin.ext (by
      match a with
      | ⟨0, _⟩ => exact rhs_dot_0 _ _
      | ⟨1, _⟩ => exact rhs_dot_1 _ _
      | ⟨2, _⟩ => exact (rhs_dot_2 _ _).trans hk)
  rw [el, er]

/-! ## The lane minimum from +∞ -/

/-- The minimum over the candidates of a [4,1024,512] value, from the word of +∞, at (b, p). -/
theorem minRow_apply (src : FVec Ideal S4x1024x512 .f32) (h : S4x1024x512.Reduces [2] S4x1024) (b : Fin 4) (p : Fin 1024) :
    multiReduction (F := Ideal) .minimumf [2] S4x1024 src 0x7F800000#32 h (.inl rfl) rfl (ix2 b p)
      = Cert.Spec.minOver fun q : Fin 512 => src (ix3 b p q) := by
  refine (multiReduction_minimumf_eq_fold src _ h _ _ (ix2 b p)).trans ?_
  refine (h.fold_filter_drop_single _ _ src (ix2 b p)).trans ?_
  unfold Cert.Spec.minOver
  show Finset.fold min (Ideal.ofBits .f32 0x7F800000#32) (fun q : Fin 512 => src (h.lift (ix2 b p) q)) Finset.univ = _
  rw [Cert.Spec.ofBits_inf]
  refine Finset.fold_congr fun q _ => congrArg src ?_
  funext a
  match a with
  | ⟨0, _⟩ => rfl
  | ⟨1, _⟩ => rfl
  | ⟨2, _⟩ => rfl

/-! ## The second stored value -/

/-- At (b, p): the running minimum lowered by the least, over the tile's candidates q, of
    max (|x_p|² + |y_q|² − 2·⟨x_p, y_q⟩) 0. -/
theorem pay2_apply (v3 : Vec Ideal S4x1024x3 .f32) (v4 : Vec Ideal S4x512x3 .f32) (v21 : Vec Ideal S4x1024 .f32)
    (b : Fin 4) (p : Fin 1024) :
    k0_pay2 (F := Ideal) v3 v4 v21 (ix2 b p)
      = min (v21 (ix2 b p)) (Cert.Spec.minOver fun q : Fin 512 =>
          Cert.Spec.dist (fun k => v3 (ix3 b p k)) (fun k => v4 (ix3 b q k))) := by
  unfold k0_pay2
  refine (congrFun (shapeCast_self _ _) (ix2 b p)).trans ?_
  refine (minimumf_apply _ _ _).trans ?_
  refine congrArg (min (v21 (ix2 b p))) ?_
  refine (minRow_apply _ _ b p).trans ?_
  refine congrArg Cert.Spec.minOver (funext fun q => ?_)
  simp only [maximumf_apply, subf_apply, addf_apply, mulf_apply, broadcast_apply]
  rw [rowBroadcast_apply, colBroadcast_apply, sum3_q, sum3_c, matmul_dot_apply]
  show max (_ - Cert.Spec.two * _) (Ideal.ofBits .f32 0x00000000#32) = _
  rw [Ideal.ofBits_zero_f32]
  rfl

/-! ## The second launch: the same three values -/

theorem pay1_apply' (b : Fin 4) (p : Fin 1024) : k1_pay1 (F := Ideal) (ix2 b p) = (⊤ : EReal) := by
  unfold k1_pay1
  rw [shapeCast_self]
  exact Cert.Spec.ofBits_inf

theorem pay2_apply' (v3 : Vec Ideal S4x1024x3 .f32) (v4 : Vec Ideal S4x512x3 .f32) (v21 : Vec Ideal S4x1024 .f32)
    (b : Fin 4) (p : Fin 1024) :
    k1_pay2 (F := Ideal) v3 v4 v21 (ix2 b p)
      = min (v21 (ix2 b p)) (Cert.Spec.minOver fun q : Fin 512 =>
          Cert.Spec.dist (fun k => v3 (ix3 b p k)) (fun k => v4 (ix3 b q k))) := by
  unfold k1_pay2
  refine (congrFun (shapeCast_self _ _) (ix2 b p)).trans ?_
  refine (minimumf_apply _ _ _).trans ?_
  refine congrArg (min (v21 (ix2 b p))) ?_
  refine (minRow_apply _ _ b p).trans ?_
  refine congrArg Cert.Spec.minOver (funext fun q => ?_)
  simp only [maximumf_apply, subf_apply, addf_apply, mulf_apply, broadcast_apply]
  rw [rowBroadcast_apply, colBroadcast_apply, sum3_q, sum3_c, matmul_dot_apply]
  show max (_ - Cert.Spec.two * _) (Ideal.ofBits .f32 0x00000000#32) = _
  rw [Ideal.ofBits_zero_f32]
  rfl

theorem pay3_apply' (v29 : Vec Ideal S4x1024 .f32) (b : Fin 4) (p : Fin 1024) :
    k1_pay3 (F := Ideal) v29 (ix2 b p) = Ideal.sqrt (v29 (ix2 b p)) := rfl

end Cert.KernelIdeal.Val

end
-- ==== Proof.KI.Val.R0.lean ====
/-
  What the first launch leaves in its output array, index by index over the extended reals: at row n of batch b,
  the square root of the least clamped squared distance from query point n to the candidate points of batch b.

  The grid is 8 query tiles by 16 candidate tiles; the point of linear index t is (i, j) = (t / 16, t mod 16). The
  scratch is reset to +∞ where j = 0 and lowered at every point by the least distance to the point's candidate tile,
  so after the point (i, j) it holds, row by row, the running minimum over the tiles 0 … j; at j = 15 that is the
  minimum over all sixteen tiles, which is the minimum over all the candidates, and its square root is stored into the
  output block, written back once per query tile. The sixteen blocks written back tile the output array.
-/
import proofs.«148603_j33663953666360_1_alg».proof.Proof.KI.R0.Region
import proofs.«148603_j33663953666360_1_alg».proof.Proof.KI.Val.Pay
import proofs.«148603_j33663953666360_1_alg».proof.Proof.Spec
import Idealize.ShloMosaic.Lib.Pipeline.Value
import Idealize.ShloMosaic.Lib.ValueIdx

set_option maxRecDepth 16384

noncomputable section

namespace Cert.KernelIdeal.Val0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx

/-! ## What the three runs found, as payloads -/

section Pieces
variable {F : FTy → Type} [FloatOps F]
variable (c : Dev nD) (i : grid0.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)

theorem hz2 : (![0, 0] : Fin 2 → ℕ) = fun _ => 0 := by
  funext a; fin_cases a <;> rfl
theorem hz3 : (![0, 0, 0] : Fin 3 → ℕ) = fun _ => 0 := by
  funext a; fin_cases a <;> rfl

/-- Where j = 0 the scratch ends at the update of the reset value by the point's two blocks. -/
theorem soutR0_A_eq (hc0 : condR0_0 i) (hc1 : ¬condR0_1 i) (x0 : Vec F S4x1024x3 .f32) (x1 : Vec F S4x512x3 .f32) :
    soutR0_A c i arg2 harg2 arg3 harg3 arg4 harg4 arg5 harg5 hc0 hc1 x0 x1 = k0_pay2 x0 x1 (k0_pay1 (F := F)) := by
  unfold soutR0_A
  rw [View.read_writes_eq_canon _ _ _ (scoverR0_A c i arg2 harg2 arg3 harg3 arg4 harg4 arg5 harg5 hc0 hc1 x0 x1)]
  unfold kernelRunR0_A
  dsimp only
  sl_unfold_words
  rw [View.canon_cons_unit_zero (S := S4x1024) hz2, View.readCov_unit_zero (S := S4x1024) _ hz2]
  simp only [View.readAt_eq_ld, harg2.read_unread, harg3.read_unread, View.ld_unit_zero (S := S4x1024x3) hz3, View.ld_unit_zero (S := S4x512x3) hz3]

/-- Where 0 < j < 15 the scratch ends at the update of what it held by the point's two blocks. -/
theorem soutR0_B_eq (hc0 : ¬condR0_0 i) (hc1 : ¬condR0_1 i) (x0 : Vec F S4x1024x3 .f32) (x1 : Vec F S4x512x3 .f32) (xs : Vec F S4x1024 .f32) :
    soutR0_B c i arg2 harg2 arg3 harg3 arg4 harg4 arg5 harg5 hc0 hc1 x0 x1 xs = k0_pay2 x0 x1 xs := by
  unfold soutR0_B
  rw [View.read_writes_eq_canon _ _ _ (scoverR0_B c i arg2 harg2 arg3 harg3 arg4 harg4 arg5 harg5 hc0 hc1 x0 x1 xs)]
  unfold kernelRunR0_B
  dsimp only
  sl_unfold_words
  rw [View.canon_unit_zero (S := S4x1024) hz2]
  simp only [View.readAt_eq_ld, harg2.read_unread, harg3.read_unread, harg5.read_unread, View.ld_unit_zero (S := S4x1024x3) hz3, View.ld_unit_zero (S := S4x512x3) hz3, View.ld_unit_zero (S := S4x1024) hz2]

/-- Where j = 15 the scratch ends at the same update … -/
theorem soutR0_C_eq (hc0 : ¬condR0_0 i) (hc1 : condR0_1 i) (x0 : Vec F S4x1024x3 .f32) (x1 : Vec F S4x512x3 .f32) (xs : Vec F S4x1024 .f32) :
    soutR0_C c i arg2 harg2 arg3 harg3 arg4 harg4 arg5 harg5 hc0 hc1 x0 x1 xs = k0_pay2 x0 x1 xs := by
  unfold soutR0_C
  rw [View.read_writes_eq_canon _ _ _ (scoverR0_C c i arg2 harg2 arg3 harg3 arg4 harg4 arg5 harg5 hc0 hc1 x0 x1 xs)]
  unfold kernelRunR0_C
  dsimp only
  sl_unfold_words
  rw [View.canon_unit_zero (S := S4x1024) hz2]
  simp only [View.readAt_eq_ld, harg2.read_unread, harg3.read_unread, harg5.read_unread, View.ld_unit_zero (S := S4x1024x3) hz3, View.ld_unit_zero (S := S4x512x3) hz3, View.ld_unit_zero (S := S4x1024) hz2]

/-- … and the output block at the square roots of it. -/
theorem outR0_C_eq (hc0 : ¬condR0_0 i) (hc1 : condR0_1 i) (x0 : Vec F S4x1024x3 .f32) (x1 : Vec F S4x512x3 .f32) (xs : Vec F S4x1024 .f32) :
    outR0_C c i arg2 harg2 arg3 harg3 arg4 harg4 arg5 harg5 hc0 hc1 x0 x1 xs = k0_pay3 (k0_pay2 x0 x1 xs) := by
  unfold outR0_C
  rw [View.read_writes_eq_canon _ _ _ (coverR0_C c i arg2 harg2 arg3 harg3 arg4 harg4 arg5 harg5 hc0 hc1 x0 x1 xs)]
  unfold kernelRunR0_C
  dsimp only
  sl_unfold_words
  rw [View.canon_unit_zero (S := S4x1024) hz2, View.readCov_unit_zero (S := S4x1024) _ hz2]
  simp only [View.readAt_eq_ld, harg2.read_unread, harg3.read_unread, harg5.read_unread, View.ld_unit_zero (S := S4x1024x3) hz3, View.ld_unit_zero (S := S4x512x3) hz3, View.ld_unit_zero (S := S4x1024) hz2]

end Pieces

/-! ## The blocks a point reads, as rows of the two arrays -/

section Blocks

/-- The point of linear index t is the pair (t / 16, t mod 16): the query window sits at row block t / 16, the
    candidate window at row block t mod 16, the output window at row block t / 16; no window moves along the batch
    axis or the coordinate axis. -/
theorem index0 : ∀ t : Fin cfg0.N,
    (win0_0.index t 0 = 0 ∧ win0_0.index t 1 = t.val / 16 ∧ win0_0.index t 2 = 0)
    ∧ (win0_1.index t 0 = 0 ∧ win0_1.index t 1 = t.val % 16 ∧ win0_1.index t 2 = 0)
    ∧ (win0_2.index t 0 = 0 ∧ win0_2.index t 1 = t.val / 16) :=
  (by decide +kernel : ∀ t : Fin grid0.N,
    (win0_0.index t 0 = 0 ∧ win0_0.index t 1 = t.val / 16 ∧ win0_0.index t 2 = 0)
    ∧ (win0_1.index t 0 = 0 ∧ win0_1.index t 1 = t.val % 16 ∧ win0_1.index t 2 = 0)
    ∧ (win0_2.index t 0 = 0 ∧ win0_2.index t 1 = t.val / 16))

variable (V : (c : Dev nD) → (b : Ref sig .tc) → Buf (Elt Ideal) ((c : Thread nD τ).loc b))

/-- Row p of the query block at point t is row (t / 16)·1024 + p of the query array. -/
theorem qblk_apply (c : Dev nD) (t : Fin cfg0.N) (b : Fin 4) (p : Fin 1024) (k : Fin 3) (h : t.val / 16 * 1024 + p.val < 8192) :
    (iblkR0 V c 0 t : Vec Ideal S4x1024x3 .f32) (ix3 b p k) = V c main_arg1 (ix3 b ⟨t.val / 16 * 1024 + p.val, h⟩ k) := by
  show V c main_arg1 ((win0_0.rect t).emb (ix3 b p k)) = _
  refine congrArg (V c main_arg1) (funext fun a => Fin.ext ?_)
  rw [Pipeline.Window.rect_emb_val]
  obtain ⟨⟨e0, e1, e2⟩, -, -⟩ := index0 t
  match a with
  | ⟨0, _⟩ => show win0_0.index t 0 * 4 + b.val = b.val; rw [e0]; omega
  | ⟨1, _⟩ => show win0_0.index t 1 * 1024 + p.val = t.val / 16 * 1024 + p.val; rw [e1]
  | ⟨2, _⟩ => show win0_0.index t 2 * 3 + k.val = k.val; rw [e2]; omega

/-- Row q of the candidate block at point t is row (t mod 16)·512 + q of the candidate array. -/
theorem cblk_apply (c : Dev nD) (t : Fin cfg0.N) (b : Fin 4) (q : Fin 512) (k : Fin 3) (h : t.val % 16 * 512 + q.val < 8192) :
    (iblkR0 V c 1 t : Vec Ideal S4x512x3 .f32) (ix3 b q k) = V c main_arg2 (ix3 b ⟨t.val % 16 * 512 + q.val, h⟩ k) := by
  show V c main_arg2 ((win0_1.rect t).emb (ix3 b q k)) = _
  refine congrArg (V c main_arg2) (funext fun a => Fin.ext ?_)
  rw [Pipeline.Window.rect_emb_val]
  obtain ⟨-, ⟨e0, e1, e2⟩, -⟩ := index0 t
  match a with
  | ⟨0, _⟩ => show win0_1.index t 0 * 4 + b.val = b.val; rw [e0]; omega
  | ⟨1, _⟩ => show win0_1.index t 1 * 512 + q.val = t.val % 16 * 512 + q.val; rw [e1]
  | ⟨2, _⟩ => show win0_1.index t 2 * 3 + k.val = k.val; rw [e2]; omega

end Blocks

/-! ## The scratch after each point -/

/-- The reset value read at an index is +∞. -/
abbrev Pay1 : Prop := ∀ (b : Fin 4) (p : Fin 1024), k0_pay1 (F := Ideal) (ix2 b p) = (⊤ : EReal)
/-- The update read at an index: the least of what the scratch held and the tile's least clamped squared distance. -/
abbrev Pay2 : Prop := ∀ (v3 : Vec Ideal S4x1024x3 .f32) (v4 : Vec Ideal S4x512x3 .f32) (v21 : Vec Ideal S4x1024 .f32) (b : Fin 4) (p : Fin 1024),
  k0_pay2 (F := Ideal) v3 v4 v21 (ix2 b p) = min (v21 (ix2 b p)) (Cert.Spec.minOver fun q : Fin 512 => Cert.Spec.dist (fun k => v3 (ix3 b p k)) (fun k => v4 (ix3 b q k)))
/-- The emitted block read at an index: the square root. -/
abbrev Pay3 : Prop := ∀ (v29 : Vec Ideal S4x1024 .f32) (b : Fin 4) (p : Fin 1024), k0_pay3 (F := Ideal) v29 (ix2 b p) = Ideal.sqrt (v29 (ix2 b p))

/-- The least clamped squared distance from a query point to the candidates of tile j (+∞ past the last tile). -/
def tileMin (x : Fin 3 → EReal) (Y : Fin 8192 → Fin 3 → EReal) (j : ℕ) : EReal :=
  if h : j < 16 then Cert.Spec.minOver fun q : Fin 512 => Cert.Spec.dist x (Y ⟨j * 512 + q.val, by have := q.isLt; omega⟩) else ⊤

section Scratch
variable (V : (c : Dev nD) → (b : Ref sig .tc) → Buf (Elt Ideal) ((c : Thread nD τ).loc b))

/-- The tile's least distance as the point's two blocks give it is the one the arrays' rows give. -/
theorem tile_eq (c : Dev nD) (t : Fin cfg0.N) (b : Fin 4) (p : Fin 1024) (r : Fin 8192) (hr : r.val = t.val / 16 * 1024 + p.val) :
    (Cert.Spec.minOver fun q : Fin 512 => Cert.Spec.dist (fun k => (iblkR0 V c 0 t : Vec Ideal S4x1024x3 .f32) (ix3 b p k)) (fun k => (iblkR0 V c 1 t : Vec Ideal S4x512x3 .f32) (ix3 b q k)))
      = tileMin (fun k => V c main_arg1 (ix3 b r k)) (fun m k => V c main_arg2 (ix3 b m k)) (t.val % 16) := by
  have hj : t.val % 16 < 16 := Nat.mod_lt _ (by decide)
  have hrow : t.val / 16 * 1024 + p.val < 8192 := hr ▸ r.isLt
  obtain rfl : r = ⟨t.val / 16 * 1024 + p.val, hrow⟩ := Fin.ext hr
  unfold tileMin
  rw [dif_pos hj]
  refine congrArg Cert.Spec.minOver (funext fun q => ?_)
  have hq : t.val % 16 * 512 + q.val < 8192 := by have := q.isLt; omega
  have e0 : (fun k => (iblkR0 V c 0 t : Vec Ideal S4x1024x3 .f32) (ix3 b p k)) = fun k => V c main_arg1 (ix3 b ⟨t.val / 16 * 1024 + p.val, hrow⟩ k) :=
    funext fun k => qblk_apply V c t b p k hrow
  have e1 : (fun k => (iblkR0 V c 1 t : Vec Ideal S4x512x3 .f32) (ix3 b q k)) = fun k => V c main_arg2 (ix3 b ⟨t.val % 16 * 512 + q.val, hq⟩ k) :=
    funext fun k => cblk_apply V c t b q k hq
  rw [e0, e1]

/-- A point with j = 0 leaves the least of +∞ and its tile's least distance. -/
theorem step_snd_zero (hp1 : Pay1) (hp2 : Pay2) (c : Dev nD) (t : Fin cfg0.N) (h0 : t.val % 16 = 0) (prev : Vec Ideal S4x1024 .f32) (b : Fin 4) (p : Fin 1024) :
    (stepR0 V c t prev).2 (ix2 b p) = min ⊤ (Cert.Spec.minOver fun q : Fin 512 => Cert.Spec.dist (fun k => (iblkR0 V c 0 t : Vec Ideal S4x1024x3 .f32) (ix3 b p k)) (fun k => (iblkR0 V c 1 t : Vec Ideal S4x512x3 .f32) (ix3 b q k))) := by
  rw [stepR0_A V c t h0 prev]
  dsimp only
  rw [soutR0_A_eq]
  refine (hp2 (iblkR0 V c 0 t) (iblkR0 V c 1 t) (k0_pay1 (F := Ideal)) b p).trans ?_
  rw [hp1 b p]

/-- Any other point lowers what the point before left by its tile's least distance. -/
theorem step_snd_pos (hp2 : Pay2) (c : Dev nD) (t : Fin cfg0.N) (h0 : ¬t.val % 16 = 0) (prev : Vec Ideal S4x1024 .f32) (b : Fin 4) (p : Fin 1024) :
    (stepR0 V c t prev).2 (ix2 b p) = min (prev (ix2 b p)) (Cert.Spec.minOver fun q : Fin 512 => Cert.Spec.dist (fun k => (iblkR0 V c 0 t : Vec Ideal S4x1024x3 .f32) (ix3 b p k)) (fun k => (iblkR0 V c 1 t : Vec Ideal S4x512x3 .f32) (ix3 b q k))) := by
  by_cases h1 : t.val % 16 = 15
  · rw [stepR0_C V c t h0 h1 prev]
    dsimp only
    rw [soutR0_C_eq]
    exact hp2 (iblkR0 V c 0 t) (iblkR0 V c 1 t) prev b p
  · rw [stepR0_B V c t h0 h1 prev]
    dsimp only
    rw [soutR0_B_eq]
    exact hp2 (iblkR0 V c 0 t) (iblkR0 V c 1 t) prev b p

/-- A point with j = 15 emits the square roots of the scratch it leaves. -/
theorem step_fst_last (hp3 : Pay3) (c : Dev nD) (t : Fin cfg0.N) (h15 : t.val % 16 = 15) (prev : Vec Ideal S4x1024 .f32) (b : Fin 4) (p : Fin 1024) :
    (stepR0 V c t prev).1 (ix2 b p) = Ideal.sqrt ((stepR0 V c t prev).2 (ix2 b p)) := by
  have h0 : ¬t.val % 16 = 0 := by omega
  rw [stepR0_C V c t h0 h15 prev]
  dsimp only
  rw [outR0_C_eq, soutR0_C_eq]
  exact hp3 _ b p

end Scratch

section Invariant
variable (V : (c : Dev nD) → (b : Ref sig .tc) → Buf (Elt Ideal) ((c : Thread nD τ).loc b))

theorem runMin_one (g : ℕ → EReal) : Cert.Spec.runMin g 1 = min ⊤ (g 0) := rfl
theorem runMin_succ (g : ℕ → EReal) (j : ℕ) : Cert.Spec.runMin g (j + 1) = min (Cert.Spec.runMin g j) (g j) := rfl

/-- After the point of linear index n the scratch holds, at row p of batch b, the running minimum over the candidate
    tiles 0 … n mod 16 of the least clamped squared distance from query row (n / 16)·1024 + p. By induction on the
    point: a point with j = 0 starts the run afresh, every other point carries the run of the point before, which
    has the same query tile and the candidate tile one less. -/
theorem scratch_eq (hp1 : Pay1) (hp2 : Pay2) (c : Dev nD) (b : Fin 4) (p : Fin 1024) (r : Fin 8192) (n : ℕ) :
    ∀ (hn : n < cfg0.N), r.val = n / 16 * 1024 + p.val →
      (outsAtR0 V c n hn).2 (ix2 b p)
        = Cert.Spec.runMin (tileMin (fun k => V c main_arg1 (ix3 b r k)) (fun m k => V c main_arg2 (ix3 b m k))) (n % 16 + 1) := by
  induction n with
  | zero =>
    intro hn hr
    have e : outsAtR0 V c 0 hn = stepR0 V c ⟨0, hn⟩ idleOutR0 := rfl
    rw [e, step_snd_zero V hp1 hp2 c ⟨0, hn⟩ rfl idleOutR0 b p, tile_eq V c ⟨0, hn⟩ b p r hr]
    exact (runMin_one _).symm
  | succ n ih =>
    intro hn hr
    have e : outsAtR0 V c (n + 1) hn = stepR0 V c ⟨n + 1, hn⟩ (outsAtR0 V c n (Nat.lt_of_succ_lt hn)).2 := rfl
    rw [e]
    by_cases h0 : (n + 1) % 16 = 0
    · rw [step_snd_zero V hp1 hp2 c ⟨n + 1, hn⟩ h0 _ b p, tile_eq V c ⟨n + 1, hn⟩ b p r hr]
      have e1 : (⟨n + 1, hn⟩ : Fin cfg0.N).val % 16 = 0 := h0
      rw [e1]
      exact (runMin_one _).symm
    · have hr' : r.val = n / 16 * 1024 + p.val := by omega
      have hj : (n + 1) % 16 = n % 16 + 1 := by omega
      have e1 : (⟨n + 1, hn⟩ : Fin cfg0.N).val % 16 = n % 16 + 1 := hj
      rw [step_snd_pos V hp2 c ⟨n + 1, hn⟩ h0 _ b p, tile_eq V c ⟨n + 1, hn⟩ b p r hr,
        ih (Nat.lt_of_succ_lt hn) hr', e1]
      exact (runMin_succ _ _).symm

/-- The running minimum over all sixteen tiles is the least clamped squared distance to all the candidates. -/
theorem runMin_tiles (x : Fin 3 → EReal) (Y : Fin 8192 → Fin 3 → EReal) :
    Cert.Spec.runMin (tileMin x Y) 16 = Cert.Spec.minOver fun m : Fin 8192 => Cert.Spec.dist x (Y m) := by
  rw [Cert.Spec.runMin_eq 16 (tileMin x Y)]
  refine Eq.trans ?_ (Cert.Spec.minOver_tiles 16 512 (fun m : Fin (16 * 512) => Cert.Spec.dist x (Y m))).symm
  refine congrArg Cert.Spec.minOver (funext fun j => ?_)
  unfold tileMin
  rw [dif_pos j.isLt]

/-- After a point with j = 15 the output block holds, at row p of batch b, the nearest-neighbour distance of query
    row (n / 16)·1024 + p. -/
theorem out_eq (hp1 : Pay1) (hp2 : Pay2) (hp3 : Pay3) (c : Dev nD) (t : Fin cfg0.N) (h15 : t.val % 16 = 15) (b : Fin 4) (p : Fin 1024)
    (r : Fin 8192) (hr : r.val = t.val / 16 * 1024 + p.val) :
    (outsAtR0 V c t.val t.isLt).1 (ix2 b p)
      = Cert.Spec.nn (fun n k => V c main_arg1 (ix3 b n k)) (fun m k => V c main_arg2 (ix3 b m k)) r := by
  have hz : t.val ≠ 0 := by omega
  have hs := scratch_eq V hp1 hp2 c b p r t.val t.isLt hr
  rw [outsAtR0_pos V c t hz] at hs ⊢
  rw [step_fst_last V hp3 c t h15 _ b p, hs, h15]
  unfold Cert.Spec.nn
  exact congrArg Ideal.sqrt (runMin_tiles _ _)

end Invariant

/-! ## The output array -/

section Array
variable (V : (c : Dev nD) → (b : Ref sig .tc) → Buf (Elt Ideal) ((c : Thread nD τ).loc b))

/-- The array of nearest-neighbour distances: at (b, n), that of query point n of batch b. -/
def nnArr (c : Dev nD) : Vec Ideal S4x8192 .f32 := fun i =>
  Cert.Spec.nn (fun n k => V c main_arg1 (ix3 (i 0 : Fin 4) n k)) (fun m k => V c main_arg2 (ix3 (i 0 : Fin 4) m k)) (i 1 : Fin 8192)

/-- Row p of the output block at point t is row (t / 16)·1024 + p of the output array. -/
theorem oblk_emb (t : Fin cfg0.N) (b : Fin 4) (p : Fin 1024) (h : t.val / 16 * 1024 + p.val < 8192) :
    (win0_2.rect t).emb (ix2 b p) = (ix2 b ⟨t.val / 16 * 1024 + p.val, h⟩ : S4x8192.Idx) := by
  refine funext fun a => Fin.ext ?_
  rw [Pipeline.Window.rect_emb_val]
  obtain ⟨-, -, e0, e1⟩ := index0 t
  match a with
  | ⟨0, _⟩ => show win0_2.index t 0 * 4 + b.val = b.val; rw [e0]; omega
  | ⟨1, _⟩ => show win0_2.index t 1 * 1024 + p.val = t.val / 16 * 1024 + p.val; rw [e1]

/-- Each write-back writes its block of that array. -/
theorem flushed_eq (hp1 : Pay1) (hp2 : Pay2) (hp3 : Pay3) (c : Dev nD) (t : Fin cfg0.N) (hf : (cfg0.win 2).flush t = true) :
    (datR0 V c).flushed 2 t = ((cfg0.win 2).blk t).view.read (Elt Ideal) (nnArr V c) := by
  have h15 : t.val % 16 = 15 := (flush0_2 t).mp hf
  have hN : cfg0.N = 128 := N_0
  refine funext fun (y : S4x1024.Idx) => ?_
  obtain ⟨b, p, rfl⟩ : ∃ (b : Fin 4) (p : Fin 1024), y = ix2 b p := ⟨y 0, y 1, eq_ix2 y⟩
  have hrow : t.val / 16 * 1024 + p.val < 8192 := by have := t.isLt; have := p.isLt; omega
  show (datR0 V c).after 2 t (ix2 b p) = nnArr V c ((win0_2.rect t).emb (ix2 b p))
  rw [afterR0_2, oblk_emb t b p hrow]
  exact out_eq V hp1 hp2 hp3 c t h15 b p ⟨_, hrow⟩ rfl

/-- A row of the output array that is a row of the block at point t lies under that block. -/
theorem mem_oblk (t : Fin cfg0.N) (y : S4x1024.Idx) (i : S4x8192.Idx) (e : (win0_2.rect t).emb y = i) :
    i ∈ ((cfg0.win 2).blk t).view.set := by
  subst e
  exact View.emb_mem_set ((cfg0.win 2).blk t).view y

/-- Every row of the output array lies in the block written back after the last candidate tile of its query tile. -/
theorem cover0 (i : S4x8192.Idx) : ∃ t : Fin cfg0.N, (cfg0.win 2).flush t = true ∧ i ∈ ((cfg0.win 2).blk t).view.set := by
  have hN : cfg0.N = 128 := N_0
  have hi1 : (i 1).val < 8192 := (i 1).isLt
  have ht : 16 * ((i 1).val / 1024) + 15 < cfg0.N := by omega
  have hp : (i 1).val % 1024 < 1024 := Nat.mod_lt _ (by decide)
  have hrow : (16 * ((i 1).val / 1024) + 15) / 16 * 1024 + (i 1).val % 1024 < 8192 := by omega
  refine ⟨⟨16 * ((i 1).val / 1024) + 15, ht⟩, (flush0_2 _).mpr (by show (16 * ((i 1).val / 1024) + 15) % 16 = 15; omega), ?_⟩
  refine mem_oblk _ (ix2 (i 0 : Fin 4) ⟨(i 1).val % 1024, hp⟩) i ?_
  rw [oblk_emb ⟨16 * ((i 1).val / 1024) + 15, ht⟩ (i 0) ⟨(i 1).val % 1024, hp⟩ hrow]
  refine Eq.trans ?_ (eq_ix2 i).symm
  congr 1
  exact Fin.ext (by show (16 * ((i 1).val / 1024) + 15) / 16 * 1024 + (i 1).val % 1024 = (i 1).val; omega)

/-- The first launch leaves in its output array, at row n of batch b, the nearest-neighbour distance of query point n
    of batch b to the candidate points of batch b. -/
theorem out0_apply_of
    (hp1 : ∀ (b : Fin 4) (p : Fin 1024), k0_pay1 (F := Ideal) (ix2 b p) = (⊤ : EReal))
    (hp2 : ∀ (v3 : Vec Ideal S4x1024x3 .f32) (v4 : Vec Ideal S4x512x3 .f32) (v21 : Vec Ideal S4x1024 .f32) (b : Fin 4) (p : Fin 1024),
      k0_pay2 (F := Ideal) v3 v4 v21 (ix2 b p) = min (v21 (ix2 b p)) (Cert.Spec.minOver fun q : Fin 512 => Cert.Spec.dist (fun k => v3 (ix3 b p k)) (fun k => v4 (ix3 b q k))))
    (hp3 : ∀ (v29 : Vec Ideal S4x1024 .f32) (b : Fin 4) (p : Fin 1024), k0_pay3 (F := Ideal) v29 (ix2 b p) = Ideal.sqrt (v29 (ix2 b p)))
    (V : (c : Dev nD) → (b : Ref sig .tc) → Buf (Elt Ideal) ((c : Thread nD τ).loc b)) (c : Dev nD) (b : Fin 4) (n : Fin 8192) :
    (datR0 V c).arrAt 2 cfg0.N (ix2 b n)
      = Cert.Spec.nn (fun n k => V c main_arg1 (ix3 b n k)) (fun m k => V c main_arg2 (ix3 b m k)) n :=
  congrFun ((datR0 V c).arrAt_eq_of_cover 2 (nnArr V c) (flushed_eq V hp1 hp2 hp3 c) cover0) (ix2 b n)

/-- The same with the three payloads read at an index as they are. -/
theorem out0_apply (V : (c : Dev nD) → (b : Ref sig .tc) → Buf (Elt Ideal) ((c : Thread nD τ).loc b)) (c : Dev nD) (b : Fin 4) (n : Fin 8192) :
    (datR0 V c).arrAt 2 cfg0.N (ix2 b n)
      = Cert.Spec.nn (fun n k => V c main_arg1 (ix3 b n k)) (fun m k => V c main_arg2 (ix3 b m k)) n :=
  out0_apply_of Cert.KernelIdeal.Val.pay1_apply Cert.KernelIdeal.Val.pay2_apply Cert.KernelIdeal.Val.pay3_apply V c b n

end Array

end Cert.KernelIdeal.Val0

end
-- ==== Proof.KI.Val.R1.lean ====
/-
  What the second launch leaves in its output array, index by index over the extended reals: at row n of batch b,
  the square root of the least clamped squared distance from query point n to the candidate points of batch b.

  The grid is 8 query tiles by 16 candidate tiles; the point of linear index t is (i, j) = (t / 16, t mod 16). The
  scratch is reset to +∞ where j = 0 and lowered at every point by the least distance to the point's candidate tile,
  so after the point (i, j) it holds, row by row, the running minimum over the tiles 0 … j; at j = 15 that is the
  minimum over all sixteen tiles, which is the minimum over all the candidates, and its square root is stored into the
  output block, written back once per query tile. The sixteen blocks written back tile the output array.
-/
import proofs.«148603_j33663953666360_1_alg».proof.Proof.KI.R1.Region
import proofs.«148603_j33663953666360_1_alg».proof.Proof.KI.Val.Pay
import proofs.«148603_j33663953666360_1_alg».proof.Proof.Spec
import Idealize.ShloMosaic.Lib.Pipeline.Value
import Idealize.ShloMosaic.Lib.ValueIdx

set_option maxRecDepth 16384

noncomputable section

namespace Cert.KernelIdeal.Val1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr
open Idealize.ShloMosaic.ValueIdx

/-! ## What the three runs found, as payloads -/

section Pieces
variable {F : FTy → Type} [FloatOps F]
variable (c : Dev nD) (i : grid1.Coords) (arg2 : Memref sig .tc .vmem S4x1024x3 .f32) (harg2 : arg2.IsWhole) (arg3 : Memref sig .tc .vmem S4x512x3 .f32) (harg3 : arg3.IsWhole) (arg4 : Memref sig .tc .vmem S4x1024 .f32) (harg4 : arg4.IsWhole) (arg5 : Memref sig .tc .vmem S4x1024 .f32) (harg5 : arg5.IsWhole)

theorem hz2 : (![0, 0] : Fin 2 → ℕ) = fun _ => 0 := by
  funext a; fin_cases a <;> rfl
theorem hz3 : (![0, 0, 0] : Fin 3 → ℕ) = fun _ => 0 := by
  funext a; fin_cases a <;> rfl

/-- Where j = 0 the scratch ends at the update of the reset value by the point's two blocks. -/
theorem soutR1_A_eq (hc0 : condR1_0 i) (hc1 : ¬condR1_1 i) (x0 : Vec F S4x1024x3 .f32) (x1 : Vec F S4x512x3 .f32) :
    soutR1_A c i arg2 harg2 arg3 harg3 arg4 harg4 arg5 harg5 hc0 hc1 x0 x1 = k1_pay2 x0 x1 (k1_pay1 (F := F)) := by
  unfold soutR1_A
  rw [View.read_writes_eq_canon _ _ _ (scoverR1_A c i arg2 harg2 arg3 harg3 arg4 harg4 arg5 harg5 hc0 hc1 x0 x1)]
  unfold kernelRunR1_A
  dsimp only
  sl_unfold_words
  rw [View.canon_cons_unit_zero (S := S4x1024) hz2, View.readCov_unit_zero (S := S4x1024) _ hz2]
  simp only [View.readAt_eq_ld, harg2.read_unread, harg3.read_unread, View.ld_unit_zero (S := S4x1024x3) hz3, View.ld_unit_zero (S := S4x512x3) hz3]

/-- Where 0 < j < 15 the scratch ends at the update of what it held by the point's two blocks. -/
theorem soutR1_B_eq (hc0 : ¬condR1_0 i) (hc1 : ¬condR1_1 i) (x0 : Vec F S4x1024x3 .f32) (x1 : Vec F S4x512x3 .f32) (xs : Vec F S4x1024 .f32) :
    soutR1_B c i arg2 harg2 arg3 harg3 arg4 harg4 arg5 harg5 hc0 hc1 x0 x1 xs = k1_pay2 x0 x1 xs := by
  unfold soutR1_B
  rw [View.read_writes_eq_canon _ _ _ (scoverR1_B c i arg2 harg2 arg3 harg3 arg4 harg4 arg5 harg5 hc0 hc1 x0 x1 xs)]
  unfold kernelRunR1_B
  dsimp only
  sl_unfold_words
  rw [View.canon_unit_zero (S := S4x1024) hz2]
  simp only [View.readAt_eq_ld, harg2.read_unread, harg3.read_unread, harg5.read_unread, View.ld_unit_zero (S := S4x1024x3) hz3, View.ld_unit_zero (S := S4x512x3) hz3, View.ld_unit_zero (S := S4x1024) hz2]

/-- Where j = 15 the scratch ends at the same update … -/
theorem soutR1_C_eq (hc0 : ¬condR1_0 i) (hc1 : condR1_1 i) (x0 : Vec F S4x1024x3 .f32) (x1 : Vec F S4x512x3 .f32) (xs : Vec F S4x1024 .f32) :
    soutR1_C c i arg2 harg2 arg3 harg3 arg4 harg4 arg5 harg5 hc0 hc1 x0 x1 xs = k1_pay2 x0 x1 xs := by
  unfold soutR1_C
  rw [View.read_writes_eq_canon _ _ _ (scoverR1_C c i arg2 harg2 arg3 harg3 arg4 harg4 arg5 harg5 hc0 hc1 x0 x1 xs)]
  unfold kernelRunR1_C
  dsimp only
  sl_unfold_words
  rw [View.canon_unit_zero (S := S4x1024) hz2]
  simp only [View.readAt_eq_ld, harg2.read_unread, harg3.read_unread, harg5.read_unread, View.ld_unit_zero (S := S4x1024x3) hz3, View.ld_unit_zero (S := S4x512x3) hz3, View.ld_unit_zero (S := S4x1024) hz2]

/-- … and the output block at the square roots of it. -/
theorem outR1_C_eq (hc0 : ¬condR1_0 i) (hc1 : condR1_1 i) (x0 : Vec F S4x1024x3 .f32) (x1 : Vec F S4x512x3 .f32) (xs : Vec F S4x1024 .f32) :
    outR1_C c i arg2 harg2 arg3 harg3 arg4 harg4 arg5 harg5 hc0 hc1 x0 x1 xs = k1_pay3 (k1_pay2 x0 x1 xs) := by
  unfold outR1_C
  rw [View.read_writes_eq_canon _ _ _ (coverR1_C c i arg2 harg2 arg3 harg3 arg4 harg4 arg5 harg5 hc0 hc1 x0 x1 xs)]
  unfold kernelRunR1_C
  dsimp only
  sl_unfold_words
  rw [View.canon_unit_zero (S := S4x1024) hz2, View.readCov_unit_zero (S := S4x1024) _ hz2]
  simp only [View.readAt_eq_ld, harg2.read_unread, harg3.read_unread, harg5.read_unread, View.ld_unit_zero (S := S4x1024x3) hz3, View.ld_unit_zero (S := S4x512x3) hz3, View.ld_unit_zero (S := S4x1024) hz2]

end Pieces

/-! ## The blocks a point reads, as rows of the two arrays -/

section Blocks

/-- The point of linear index t is the pair (t / 16, t mod 16): the query window sits at row block t / 16, the
    candidate window at row block t mod 16, the output window at row block t / 16; no window moves along the batch
    axis or the coordinate axis. -/
theorem index0 : ∀ t : Fin cfg1.N,
    (win1_0.index t 0 = 0 ∧ win1_0.index t 1 = t.val / 16 ∧ win1_0.index t 2 = 0)
    ∧ (win1_1.index t 0 = 0 ∧ win1_1.index t 1 = t.val % 16 ∧ win1_1.index t 2 = 0)
    ∧ (win1_2.index t 0 = 0 ∧ win1_2.index t 1 = t.val / 16) :=
  (by decide +kernel : ∀ t : Fin grid1.N,
    (win1_0.index t 0 = 0 ∧ win1_0.index t 1 = t.val / 16 ∧ win1_0.index t 2 = 0)
    ∧ (win1_1.index t 0 = 0 ∧ win1_1.index t 1 = t.val % 16 ∧ win1_1.index t 2 = 0)
    ∧ (win1_2.index t 0 = 0 ∧ win1_2.index t 1 = t.val / 16))

variable (V : (c : Dev nD) → (b : Ref sig .tc) → Buf (Elt Ideal) ((c : Thread nD τ).loc b))

/-- Row p of the query block at point t is row (t / 16)·1024 + p of the query array. -/
theorem qblk_apply (c : Dev nD) (t : Fin cfg1.N) (b : Fin 4) (p : Fin 1024) (k : Fin 3) (h : t.val / 16 * 1024 + p.val < 8192) :
    (iblkR1 V c 0 t : Vec Ideal S4x1024x3 .f32) (ix3 b p k) = V c main_arg2 (ix3 b ⟨t.val / 16 * 1024 + p.val, h⟩ k) := by
  show V c main_arg2 ((win1_0.rect t).emb (ix3 b p k)) = _
  refine congrArg (V c main_arg2) (funext fun a => Fin.ext ?_)
  rw [Pipeline.Window.rect_emb_val]
  obtain ⟨⟨e0, e1, e2⟩, -, -⟩ := index0 t
  match a with
  | ⟨0, _⟩ => show win1_0.index t 0 * 4 + b.val = b.val; rw [e0]; omega
  | ⟨1, _⟩ => show win1_0.index t 1 * 1024 + p.val = t.val / 16 * 1024 + p.val; rw [e1]
  | ⟨2, _⟩ => show win1_0.index t 2 * 3 + k.val = k.val; rw [e2]; omega

/-- Row q of the candidate block at point t is row (t mod 16)·512 + q of the candidate array. -/
theorem cblk_apply (c : Dev nD) (t : Fin cfg1.N) (b : Fin 4) (q : Fin 512) (k : Fin 3) (h : t.val % 16 * 512 + q.val < 8192) :
    (iblkR1 V c 1 t : Vec Ideal S4x512x3 .f32) (ix3 b q k) = V c main_arg1 (ix3 b ⟨t.val % 16 * 512 + q.val, h⟩ k) := by
  show V c main_arg1 ((win1_1.rect t).emb (ix3 b q k)) = _
  refine congrArg (V c main_arg1) (funext fun a => Fin.ext ?_)
  rw [Pipeline.Window.rect_emb_val]
  obtain ⟨-, ⟨e0, e1, e2⟩, -⟩ := index0 t
  match a with
  | ⟨0, _⟩ => show win1_1.index t 0 * 4 + b.val = b.val; rw [e0]; omega
  | ⟨1, _⟩ => show win1_1.index t 1 * 512 + q.val = t.val % 16 * 512 + q.val; rw [e1]
  | ⟨2, _⟩ => show win1_1.index t 2 * 3 + k.val = k.val; rw [e2]; omega

end Blocks

/-! ## The scratch after each point -/

/-- The reset value read at an index is +∞. -/
abbrev Pay1 : Prop := ∀ (b : Fin 4) (p : Fin 1024), k1_pay1 (F := Ideal) (ix2 b p) = (⊤ : EReal)
/-- The update read at an index: the least of what the scratch held and the tile's least clamped squared distance. -/
abbrev Pay2 : Prop := ∀ (v3 : Vec Ideal S4x1024x3 .f32) (v4 : Vec Ideal S4x512x3 .f32) (v21 : Vec Ideal S4x1024 .f32) (b : Fin 4) (p : Fin 1024),
  k1_pay2 (F := Ideal) v3 v4 v21 (ix2 b p) = min (v21 (ix2 b p)) (Cert.Spec.minOver fun q : Fin 512 => Cert.Spec.dist (fun k => v3 (ix3 b p k)) (fun k => v4 (ix3 b q k)))
/-- The emitted block read at an index: the square root. -/
abbrev Pay3 : Prop := ∀ (v29 : Vec Ideal S4x1024 .f32) (b : Fin 4) (p : Fin 1024), k1_pay3 (F := Ideal) v29 (ix2 b p) = Ideal.sqrt (v29 (ix2 b p))

/-- The least clamped squared distance from a query point to the candidates of tile j (+∞ past the last tile). -/
def tileMin (x : Fin 3 → EReal) (Y : Fin 8192 → Fin 3 → EReal) (j : ℕ) : EReal :=
  if h : j < 16 then Cert.Spec.minOver fun q : Fin 512 => Cert.Spec.dist x (Y ⟨j * 512 + q.val, by have := q.isLt; omega⟩) else ⊤

section Scratch
variable (V : (c : Dev nD) → (b : Ref sig .tc) → Buf (Elt Ideal) ((c : Thread nD τ).loc b))

/-- The tile's least distance as the point's two blocks give it is the one the arrays' rows give. -/
theorem tile_eq (c : Dev nD) (t : Fin cfg1.N) (b : Fin 4) (p : Fin 1024) (r : Fin 8192) (hr : r.val = t.val / 16 * 1024 + p.val) :
    (Cert.Spec.minOver fun q : Fin 512 => Cert.Spec.dist (fun k => (iblkR1 V c 0 t : Vec Ideal S4x1024x3 .f32) (ix3 b p k)) (fun k => (iblkR1 V c 1 t : Vec Ideal S4x512x3 .f32) (ix3 b q k)))
      = tileMin (fun k => V c main_arg2 (ix3 b r k)) (fun m k => V c main_arg1 (ix3 b m k)) (t.val % 16) := by
  have hj : t.val % 16 < 16 := Nat.mod_lt _ (by decide)
  have hrow : t.val / 16 * 1024 + p.val < 8192 := hr ▸ r.isLt
  obtain rfl : r = ⟨t.val / 16 * 1024 + p.val, hrow⟩ := Fin.ext hr
  unfold tileMin
  rw [dif_pos hj]
  refine congrArg Cert.Spec.minOver (funext fun q => ?_)
  have hq : t.val % 16 * 512 + q.val < 8192 := by have := q.isLt; omega
  have e0 : (fun k => (iblkR1 V c 0 t : Vec Ideal S4x1024x3 .f32) (ix3 b p k)) = fun k => V c main_arg2 (ix3 b ⟨t.val / 16 * 1024 + p.val, hrow⟩ k) :=
    funext fun k => qblk_apply V c t b p k hrow
  have e1 : (fun k => (iblkR1 V c 1 t : Vec Ideal S4x512x3 .f32) (ix3 b q k)) = fun k => V c main_arg1 (ix3 b ⟨t.val % 16 * 512 + q.val, hq⟩ k) :=
    funext fun k => cblk_apply V c t b q k hq
  rw [e0, e1]

/-- A point with j = 0 leaves the least of +∞ and its tile's least distance. -/
theorem step_snd_zero (hp1 : Pay1) (hp2 : Pay2) (c : Dev nD) (t : Fin cfg1.N) (h0 : t.val % 16 = 0) (prev : Vec Ideal S4x1024 .f32) (b : Fin 4) (p : Fin 1024) :
    (stepR1 V c t prev).2 (ix2 b p) = min ⊤ (Cert.Spec.minOver fun q : Fin 512 => Cert.Spec.dist (fun k => (iblkR1 V c 0 t : Vec Ideal S4x1024x3 .f32) (ix3 b p k)) (fun k => (iblkR1 V c 1 t : Vec Ideal S4x512x3 .f32) (ix3 b q k))) := by
  rw [stepR1_A V c t h0 prev]
  dsimp only
  rw [soutR1_A_eq]
  refine (hp2 (iblkR1 V c 0 t) (iblkR1 V c 1 t) (k1_pay1 (F := Ideal)) b p).trans ?_
  rw [hp1 b p]

/-- Any other point lowers what the point before left by its tile's least distance. -/
theorem step_snd_pos (hp2 : Pay2) (c : Dev nD) (t : Fin cfg1.N) (h0 : ¬t.val % 16 = 0) (prev : Vec Ideal S4x1024 .f32) (b : Fin 4) (p : Fin 1024) :
    (stepR1 V c t prev).2 (ix2 b p) = min (prev (ix2 b p)) (Cert.Spec.minOver fun q : Fin 512 => Cert.Spec.dist (fun k => (iblkR1 V c 0 t : Vec Ideal S4x1024x3 .f32) (ix3 b p k)) (fun k => (iblkR1 V c 1 t : Vec Ideal S4x512x3 .f32) (ix3 b q k))) := by
  by_cases h1 : t.val % 16 = 15
  · rw [stepR1_C V c t h0 h1 prev]
    dsimp only
    rw [soutR1_C_eq]
    exact hp2 (iblkR1 V c 0 t) (iblkR1 V c 1 t) prev b p
  · rw [stepR1_B V c t h0 h1 prev]
    dsimp only
    rw [soutR1_B_eq]
    exact hp2 (iblkR1 V c 0 t) (iblkR1 V c 1 t) prev b p

/-- A point with j = 15 emits the square roots of the scratch it leaves. -/
theorem step_fst_last (hp3 : Pay3) (c : Dev nD) (t : Fin cfg1.N) (h15 : t.val % 16 = 15) (prev : Vec Ideal S4x1024 .f32) (b : Fin 4) (p : Fin 1024) :
    (stepR1 V c t prev).1 (ix2 b p) = Ideal.sqrt ((stepR1 V c t prev).2 (ix2 b p)) := by
  have h0 : ¬t.val % 16 = 0 := by omega
  rw [stepR1_C V c t h0 h15 prev]
  dsimp only
  rw [outR1_C_eq, soutR1_C_eq]
  exact hp3 _ b p

end Scratch

section Invariant
variable (V : (c : Dev nD) → (b : Ref sig .tc) → Buf (Elt Ideal) ((c : Thread nD τ).loc b))

theorem runMin_one (g : ℕ → EReal) : Cert.Spec.runMin g 1 = min ⊤ (g 0) := rfl
theorem runMin_succ (g : ℕ → EReal) (j : ℕ) : Cert.Spec.runMin g (j + 1) = min (Cert.Spec.runMin g j) (g j) := rfl

/-- After the point of linear index n the scratch holds, at row p of batch b, the running minimum over the candidate
    tiles 0 … n mod 16 of the least clamped squared distance from query row (n / 16)·1024 + p. By induction on the
    point: a point with j = 0 starts the run afresh, every other point carries the run of the point before, which
    has the same query tile and the candidate tile one less. -/
theorem scratch_eq (hp1 : Pay1) (hp2 : Pay2) (c : Dev nD) (b : Fin 4) (p : Fin 1024) (r : Fin 8192) (n : ℕ) :
    ∀ (hn : n < cfg1.N), r.val = n / 16 * 1024 + p.val →
      (outsAtR1 V c n hn).2 (ix2 b p)
        = Cert.Spec.runMin (tileMin (fun k => V c main_arg2 (ix3 b r k)) (fun m k => V c main_arg1 (ix3 b m k))) (n % 16 + 1) := by
  induction n with
  | zero =>
    intro hn hr
    have e : outsAtR1 V c 0 hn = stepR1 V c ⟨0, hn⟩ idleOutR1 := rfl
    rw [e, step_snd_zero V hp1 hp2 c ⟨0, hn⟩ rfl idleOutR1 b p, tile_eq V c ⟨0, hn⟩ b p r hr]
    exact (runMin_one _).symm
  | succ n ih =>
    intro hn hr
    have e : outsAtR1 V c (n + 1) hn = stepR1 V c ⟨n + 1, hn⟩ (outsAtR1 V c n (Nat.lt_of_succ_lt hn)).2 := rfl
    rw [e]
    by_cases h0 : (n + 1) % 16 = 0
    · rw [step_snd_zero V hp1 hp2 c ⟨n + 1, hn⟩ h0 _ b p, tile_eq V c ⟨n + 1, hn⟩ b p r hr]
      have e1 : (⟨n + 1, hn⟩ : Fin cfg1.N).val % 16 = 0 := h0
      rw [e1]
      exact (runMin_one _).symm
    · have hr' : r.val = n / 16 * 1024 + p.val := by omega
      have hj : (n + 1) % 16 = n % 16 + 1 := by omega
      have e1 : (⟨n + 1, hn⟩ : Fin cfg1.N).val % 16 = n % 16 + 1 := hj
      rw [step_snd_pos V hp2 c ⟨n + 1, hn⟩ h0 _ b p, tile_eq V c ⟨n + 1, hn⟩ b p r hr,
        ih (Nat.lt_of_succ_lt hn) hr', e1]
      exact (runMin_succ _ _).symm

/-- The running minimum over all sixteen tiles is the least clamped squared distance to all the candidates. -/
theorem runMin_tiles (x : Fin 3 → EReal) (Y : Fin 8192 → Fin 3 → EReal) :
    Cert.Spec.runMin (tileMin x Y) 16 = Cert.Spec.minOver fun m : Fin 8192 => Cert.Spec.dist x (Y m) := by
  rw [Cert.Spec.runMin_eq 16 (tileMin x Y)]
  refine Eq.trans ?_ (Cert.Spec.minOver_tiles 16 512 (fun m : Fin (16 * 512) => Cert.Spec.dist x (Y m))).symm
  refine congrArg Cert.Spec.minOver (funext fun j => ?_)
  unfold tileMin
  rw [dif_pos j.isLt]

/-- After a point with j = 15 the output block holds, at row p of batch b, the nearest-neighbour distance of query
    row (n / 16)·1024 + p. -/
theorem out_eq (hp1 : Pay1) (hp2 : Pay2) (hp3 : Pay3) (c : Dev nD) (t : Fin cfg1.N) (h15 : t.val % 16 = 15) (b : Fin 4) (p : Fin 1024)
    (r : Fin 8192) (hr : r.val = t.val / 16 * 1024 + p.val) :
    (outsAtR1 V c t.val t.isLt).1 (ix2 b p)
      = Cert.Spec.nn (fun n k => V c main_arg2 (ix3 b n k)) (fun m k => V c main_arg1 (ix3 b m k)) r := by
  have hz : t.val ≠ 0 := by omega
  have hs := scratch_eq V hp1 hp2 c b p r t.val t.isLt hr
  rw [outsAtR1_pos V c t hz] at hs ⊢
  rw [step_fst_last V hp3 c t h15 _ b p, hs, h15]
  unfold Cert.Spec.nn
  exact congrArg Ideal.sqrt (runMin_tiles _ _)

end Invariant

/-! ## The output array -/

section Array
variable (V : (c : Dev nD) → (b : Ref sig .tc) → Buf (Elt Ideal) ((c : Thread nD τ).loc b))

/-- The array of nearest-neighbour distances: at (b, n), that of query point n of batch b. -/
def nnArr (c : Dev nD) : Vec Ideal S4x8192 .f32 := fun i =>
  Cert.Spec.nn (fun n k => V c main_arg2 (ix3 (i 0 : Fin 4) n k)) (fun m k => V c main_arg1 (ix3 (i 0 : Fin 4) m k)) (i 1 : Fin 8192)

/-- Row p of the output block at point t is row (t / 16)·1024 + p of the output array. -/
theorem oblk_emb (t : Fin cfg1.N) (b : Fin 4) (p : Fin 1024) (h : t.val / 16 * 1024 + p.val < 8192) :
    (win1_2.rect t).emb (ix2 b p) = (ix2 b ⟨t.val / 16 * 1024 + p.val, h⟩ : S4x8192.Idx) := by
  refine funext fun a => Fin.ext ?_
  rw [Pipeline.Window.rect_emb_val]
  obtain ⟨-, -, e0, e1⟩ := index0 t
  match a with
  | ⟨0, _⟩ => show win1_2.index t 0 * 4 + b.val = b.val; rw [e0]; omega
  | ⟨1, _⟩ => show win1_2.index t 1 * 1024 + p.val = t.val / 16 * 1024 + p.val; rw [e1]

/-- Each write-back writes its block of that array. -/
theorem flushed_eq (hp1 : Pay1) (hp2 : Pay2) (hp3 : Pay3) (c : Dev nD) (t : Fin cfg1.N) (hf : (cfg1.win 2).flush t = true) :
    (datR1 V c).flushed 2 t = ((cfg1.win 2).blk t).view.read (Elt Ideal) (nnArr V c) := by
  have h15 : t.val % 16 = 15 := (flush1_2 t).mp hf
  have hN : cfg1.N = 128 := N_1
  refine funext fun (y : S4x1024.Idx) => ?_
  obtain ⟨b, p, rfl⟩ : ∃ (b : Fin 4) (p : Fin 1024), y = ix2 b p := ⟨y 0, y 1, eq_ix2 y⟩
  have hrow : t.val / 16 * 1024 + p.val < 8192 := by have := t.isLt; have := p.isLt; omega
  show (datR1 V c).after 2 t (ix2 b p) = nnArr V c ((win1_2.rect t).emb (ix2 b p))
  rw [afterR1_2, oblk_emb t b p hrow]
  exact out_eq V hp1 hp2 hp3 c t h15 b p ⟨_, hrow⟩ rfl

/-- A row of the output array that is a row of the block at point t lies under that block. -/
theorem mem_oblk (t : Fin cfg1.N) (y : S4x1024.Idx) (i : S4x8192.Idx) (e : (win1_2.rect t).emb y = i) :
    i ∈ ((cfg1.win 2).blk t).view.set := by
  subst e
  exact View.emb_mem_set ((cfg1.win 2).blk t).view y

/-- Every row of the output array lies in the block written back after the last candidate tile of its query tile. -/
theorem cover0 (i : S4x8192.Idx) : ∃ t : Fin cfg1.N, (cfg1.win 2).flush t = true ∧ i ∈ ((cfg1.win 2).blk t).view.set := by
  have hN : cfg1.N = 128 := N_1
  have hi1 : (i 1).val < 8192 := (i 1).isLt
  have ht : 16 * ((i 1).val / 1024) + 15 < cfg1.N := by omega
  have hp : (i 1).val % 1024 < 1024 := Nat.mod_lt _ (by decide)
  have hrow : (16 * ((i 1).val / 1024) + 15) / 16 * 1024 + (i 1).val % 1024 < 8192 := by omega
  refine ⟨⟨16 * ((i 1).val / 1024) + 15, ht⟩, (flush1_2 _).mpr (by show (16 * ((i 1).val / 1024) + 15) % 16 = 15; omega), ?_⟩
  refine mem_oblk _ (ix2 (i 0 : Fin 4) ⟨(i 1).val % 1024, hp⟩) i ?_
  rw [oblk_emb ⟨16 * ((i 1).val / 1024) + 15, ht⟩ (i 0) ⟨(i 1).val % 1024, hp⟩ hrow]
  refine Eq.trans ?_ (eq_ix2 i).symm
  congr 1
  exact Fin.ext (by show (16 * ((i 1).val / 1024) + 15) / 16 * 1024 + (i 1).val % 1024 = (i 1).val; omega)

/-- The second launch leaves in its output array, at row n of batch b, the nearest-neighbour distance of query point n
    of batch b to the candidate points of batch b. -/
theorem out1_apply_of
    (hp1 : ∀ (b : Fin 4) (p : Fin 1024), k1_pay1 (F := Ideal) (ix2 b p) = (⊤ : EReal))
    (hp2 : ∀ (v3 : Vec Ideal S4x1024x3 .f32) (v4 : Vec Ideal S4x512x3 .f32) (v21 : Vec Ideal S4x1024 .f32) (b : Fin 4) (p : Fin 1024),
      k1_pay2 (F := Ideal) v3 v4 v21 (ix2 b p) = min (v21 (ix2 b p)) (Cert.Spec.minOver fun q : Fin 512 => Cert.Spec.dist (fun k => v3 (ix3 b p k)) (fun k => v4 (ix3 b q k))))
    (hp3 : ∀ (v29 : Vec Ideal S4x1024 .f32) (b : Fin 4) (p : Fin 1024), k1_pay3 (F := Ideal) v29 (ix2 b p) = Ideal.sqrt (v29 (ix2 b p)))
    (V : (c : Dev nD) → (b : Ref sig .tc) → Buf (Elt Ideal) ((c : Thread nD τ).loc b)) (c : Dev nD) (b : Fin 4) (n : Fin 8192) :
    (datR1 V c).arrAt 2 cfg1.N (ix2 b n)
      = Cert.Spec.nn (fun n k => V c main_arg2 (ix3 b n k)) (fun m k => V c main_arg1 (ix3 b m k)) n :=
  congrFun ((datR1 V c).arrAt_eq_of_cover 2 (nnArr V c) (flushed_eq V hp1 hp2 hp3 c) cover0) (ix2 b n)

/-- The same with the three payloads read at an index as they are. -/
theorem out1_apply (V : (c : Dev nD) → (b : Ref sig .tc) → Buf (Elt Ideal) ((c : Thread nD τ).loc b)) (c : Dev nD) (b : Fin 4) (n : Fin 8192) :
    (datR1 V c).arrAt 2 cfg1.N (ix2 b n)
      = Cert.Spec.nn (fun n k => V c main_arg2 (ix3 b n k)) (fun m k => V c main_arg1 (ix3 b m k)) n :=
  out1_apply_of Cert.KernelIdeal.Val.pay1_apply' Cert.KernelIdeal.Val.pay2_apply' Cert.KernelIdeal.Val.pay3_apply' V c b n

end Array

end Cert.KernelIdeal.Val1

end
-- ==== Proof.KI.Val.R2.lean ====
/-
  What the third launch leaves in its output array. The grid has one point and every window's block is its whole
  array: the two input blocks are the two argument arrays themselves, the one block written back is the computed sum
  of them, and that one block covers the 1×1 output array. So the output array ends holding the sum over all points
  of the distance between corresponding points of the two argument arrays, as the body computes it.
-/
import proofs.«148603_j33663953666360_1_alg».proof.Proof.KI.R2.Region
import Idealize.ShloMosaic.Lib.Pipeline.Value

set_option maxRecDepth 16384

noncomputable section

namespace Cert.KernelIdeal.Val2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Fr

variable {F : FTy → Type} [FloatOps F]

-- the contents of the TensorCore's buffers when the region is entered
variable (V : (c : Dev nD) → (b : Ref sig .tc) → Buf (Elt F) ((c : Thread nD τ).loc b))

/-! ## A block that is the whole array -/

/-- A rectangle of an array's own sizes whose offsets all vanish reads the whole array back, -/
theorem read_of_offsets_zero (b : Ref sig .tc) {off : Fin b.ty.shape.rank → ℕ} (h0 : ∀ a, off a = 0)
    (inb : ∀ a, off a + b.ty.shape.size a ≤ b.ty.shape.size a) (f : b.ty.Contents (Elt F)) :
    ((Memref.whole b).access (Rect.unit off b.ty.shape.size inb) : View sig .tc _ _ _).read (Elt F) f = f :=
  Memref.read_access_unit_zero (Elt F) b (funext h0) inb f

/-- and holds every index of the array. -/
theorem mem_of_offsets_zero (b : Ref sig .tc) {off : Fin b.ty.shape.rank → ℕ} (h0 : ∀ a, off a = 0)
    (inb : ∀ a, off a + b.ty.shape.size a ≤ b.ty.shape.size a) (i : b.ty.shape.Idx) :
    i ∈ ((View.whole b).slice (Rect.unit off b.ty.shape.size inb)).set := by
  rw [View.set_slice_whole]
  exact View.mem_set_unit_zero (funext h0) inb i

/-! ## The three windows at the one point

Each window's block index is the constant zero on every axis, and its block has its array's sizes. -/

theorem off2_0 (t : Fin cfg2.N) (a : Fin 3) : win2_0.index t a * main_arg0.ty.shape.size a = 0 := by fin_cases a <;> rfl
theorem off2_1 (t : Fin cfg2.N) (a : Fin 3) : win2_1.index t a * main_arg3.ty.shape.size a = 0 := by fin_cases a <;> rfl
theorem off2_2 (t : Fin cfg2.N) (a : Fin 2) : win2_2.index t a * main_v8.ty.shape.size a = 0 := by fin_cases a <;> rfl

/-- The first input block is the first argument array, -/
theorem iblk2_0 (c : Dev nD) (t : Fin cfg2.N) : iblkR2 V c 0 t = V c main_arg0 :=
  read_of_offsets_zero main_arg0 (off2_0 t) _ (V c main_arg0)

/-- the second input block the second. -/
theorem iblk2_1 (c : Dev nD) (t : Fin cfg2.N) : iblkR2 V c 1 t = V c main_arg3 :=
  read_of_offsets_zero main_arg3 (off2_1 t) _ (V c main_arg3)

/-! ## The one write-back -/

/-- What the point writes back is the sum computed from the two argument arrays: the store leaves its payload over
    the whole block, the payload is computed from the two input blocks, and the block of a 1×1 array is the array. -/
theorem flushed2_eq (c : Dev nD) (t : Fin cfg2.N) (hf : (cfg2.win 2).flush t = true) :
    (datR2 V c).flushed 2 t = ((cfg2.win 2).blk t).view.read (Elt F) (k2_pay1 (V c main_arg0) (V c main_arg3)) := by
  have hblk : ((cfg2.win 2).blk t).view.read (Elt F) (k2_pay1 (V c main_arg0) (V c main_arg3)) = k2_pay1 (V c main_arg0) (V c main_arg3) :=
    read_of_offsets_zero main_v8 (off2_2 t) _ _
  have hleft : (datR2 V c).after 2 t = k2_pay1 (V c main_arg0) (V c main_arg3) := by
    rw [afterR2_2, outR2_eq, iblk2_0, iblk2_1]
  rw [hblk]
  show (cfg2.win 2).cut (grid2.coords t) ((datR2 V c).after 2 t) = _
  rw [hleft]
  rfl

/-! ## The output array after the run -/

/-- The block written back at the one point covers the 1×1 array, so the array ends holding the computed sum. -/
theorem out2_eq (c : Dev nD) :
    (datR2 V c).arrAt 2 cfg2.N = k2_pay1 (V c main_arg0) (V c main_arg3) :=
  (datR2 V c).arrAt_eq_of_cover 2 (k2_pay1 (V c main_arg0) (V c main_arg3)) (flushed2_eq V c) fun i =>
    ⟨t2_0, flush2_2 t2_0, mem_of_offsets_zero main_v8 (off2_2 t2_0) _ i⟩

end Cert.KernelIdeal.Val2

end
-- ==== Proof.Ref.Imports.lean ====
/-
  The reference's run and its stages read at an index, as the generated modules state them; the modules that
  compare the reference's stages with the kernel's results import this one.
-/
import proofs.«148603_j33663953666360_1_alg».proof.Proof.Gen.ReferenceIdeal.Run
import proofs.«148603_j33663953666360_1_alg».proof.Proof.Gen.ReferenceIdeal.Read
-- ==== Proof.Ref.Fine.lean ====
/-
  The reference's two nearest-neighbour stages, read at an index, are the specification: the matrix of clamped
  squared distances has the entry dist (x1 row n) (x2 row m) at (b, n, m); its minimum over the last axis, then
  the square root, is nn from the rows of x1 to the rows of x2, and its minimum over the middle axis, then the
  square root, is nn from the rows of x2 to the rows of x1 (dist is symmetric).
-/
import proofs.«148603_j33663953666360_1_alg».proof.Proof.Ref.Imports
import proofs.«148603_j33663953666360_1_alg».proof.Proof.Spec
import Idealize.ShloMosaic.Lib.ValueIdx
import Idealize.ShloMosaic.PureOps.Reduce
import Idealize.ShloMosaic.PureOps.Ideal.Laws

noncomputable section

namespace Cert.RefSide

open Idealize.ShloMosaic Idealize.ShloMosaic.ValueIdx Cert.ReferenceIdeal Cert.ReferenceIdeal.Read

/-- The row of x1 under the matrix index (b, n, m), coordinate k. -/
theorem lrow_idx (b : Fin 4) (n m : Fin 8192) (k : Fin 3) :
    idx_main_v1 (idx_main_v2 (idx_main_v7 (ix3 b n m))) k = ix3 b n k :=
  funext fun a => by match a with | ⟨0, _⟩ => rfl | ⟨1, _⟩ => rfl | ⟨2, _⟩ => rfl

/-- The row of x2 under the matrix index (b, n, m), coordinate k. -/
theorem rrow_idx (b : Fin 4) (n m : Fin 8192) (k : Fin 3) :
    idx_main_v4 (idx_main_v5 (idx_main_v8 (ix3 b n m))) k = ix3 b m k :=
  funext fun a => by match a with | ⟨0, _⟩ => rfl | ⟨1, _⟩ => rfl | ⟨2, _⟩ => rfl

/-- The inner product's left row under the matrix index (b, n, m), coordinate k. -/
theorem ldot_idx (b : Fin 4) (n m : Fin 8192) (k : Fin 3) :
    lidx_main_v6 (ix3 b n m) k = ix3 b n k :=
  funext fun a => by match a with | ⟨0, _⟩ => rfl | ⟨1, _⟩ => rfl | ⟨2, _⟩ => rfl

/-- The inner product's right row under the matrix index (b, n, m), coordinate k. -/
theorem rdot_idx (b : Fin 4) (n m : Fin 8192) (k : Fin 3) :
    ridx_main_v6 (ix3 b n m) k = ix3 b m k :=
  funext fun a => by match a with | ⟨0, _⟩ => rfl | ⟨1, _⟩ => rfl | ⟨2, _⟩ => rfl

/-- The matrix entry at (b, n, m) is the clamped squared distance between row n of x1 and row m of x2. -/
theorem d_apply (x1 x2 : (⟨S4x8192x3, .f32⟩ : BufTy).Contents (Elt Ideal)) (b : Fin 4) (n m : Fin 8192) :
    val_main_v14 (F := Ideal) x1 x2 (ix3 b n m)
      = Cert.Spec.dist (fun k => x1 (ix3 b n k)) (fun k => x2 (ix3 b m k)) := by
  rw [val_main_v14_apply, val_main_v12_apply, val_main_v9_apply, val_main_v7_apply, val_main_v2_apply,
    val_main_v1_apply, val_main_v8_apply, val_main_v5_apply, val_main_v4_apply, val_main_v11_apply,
    val_main_v10_apply, val_main_v6_apply, val_main_v13_apply, val_main_cst_apply, val_main_cst_0_apply,
    val_main_cst_1_apply, val_main_cst_2_apply]
  simp only [lrow_idx, rrow_idx, ldot_idx, rdot_idx, val_main_v0_apply, val_main_v3_apply, Ideal.maximumf_def,
    Ideal.subf_def, Ideal.addf_def, Ideal.mulf_def, Ideal.ofBits_def, Ideal.ofBits_zero_f32, zero_add]
  rfl

/-- Over the result index (b, n), the matrix index with m inserted on the last axis is (b, n, m). -/
theorem lift_last (h : S4x8192x8192.Reduces [2] S4x8192) (b : Fin 4) (n m : Fin 8192) :
    h.lift (ix2 b n) m = ix3 b n m := by
  funext a
  match a with
  | ⟨0, _⟩ => rfl
  | ⟨1, _⟩ => rfl
  | ⟨2, _⟩ => rfl

/-- Over the result index (b, m), the matrix index with n inserted on the middle axis is (b, n, m). -/
theorem lift_mid (h : S4x8192x8192.Reduces [1] S4x8192) (b : Fin 4) (m n : Fin 8192) :
    h.lift (ix2 b m) n = ix3 b n m := by
  funext a
  match a with
  | ⟨0, _⟩ => rfl
  | ⟨1, _⟩ => rfl
  | ⟨2, _⟩ => rfl

/-- A fold of the minimum from +∞ over 8192 candidates is the specification's least value. -/
theorem fold_min_eq (c : EReal) (hc : c = ⊤) (f g : Fin 8192 → EReal) (hfg : ∀ m, f m = g m) :
    (Finset.univ : Finset (Fin 8192)).fold (FloatOps.minimumf (F := Ideal) (φ := .f32)) c f
      = Cert.Spec.minOver g := by
  obtain rfl : f = g := funext hfg
  subst hc
  rfl

/-- The minimum over the last axis at (b, n): the least clamped squared distance from row n of x1 to the rows of x2. -/
theorem min_last_apply (x1 x2 : (⟨S4x8192x3, .f32⟩ : BufTy).Contents (Elt Ideal)) (b : Fin 4) (n : Fin 8192) :
    val_main_v15 (F := Ideal) x1 x2 (ix2 b n)
      = Cert.Spec.minOver fun m : Fin 8192 =>
          Cert.Spec.dist (fun k => x1 (ix3 b n k)) (fun k => x2 (ix3 b m k)) := by
  unfold val_main_v15
  refine (Host.reduce_eq_fold_single (FloatOps.minimumf (F := Ideal) (φ := .f32)) _ _ _ (by decide) _ (ix2 b n)).trans ?_
  exact fold_min_eq _ ((val_main_cst_3_apply _).trans Cert.Spec.ofBits_inf) _ _ fun m =>
    (congrArg (val_main_v14 (F := Ideal) x1 x2) (lift_last _ b n m)).trans (d_apply x1 x2 b n m)

/-- The minimum over the middle axis at (b, m): the least clamped squared distance from row m of x2 to the rows of x1. -/
theorem min_mid_apply (x1 x2 : (⟨S4x8192x3, .f32⟩ : BufTy).Contents (Elt Ideal)) (b : Fin 4) (m : Fin 8192) :
    val_main_v17 (F := Ideal) x1 x2 (ix2 b m)
      = Cert.Spec.minOver fun n : Fin 8192 =>
          Cert.Spec.dist (fun k => x2 (ix3 b m k)) (fun k => x1 (ix3 b n k)) := by
  unfold val_main_v17
  refine (Host.reduce_eq_fold_single (FloatOps.minimumf (F := Ideal) (φ := .f32)) _ _ _ (by decide) _ (ix2 b m)).trans ?_
  exact fold_min_eq _ ((val_main_cst_4_apply _).trans Cert.Spec.ofBits_inf) _ _ fun n =>
    ((congrArg (val_main_v14 (F := Ideal) x1 x2) (lift_mid _ b m n)).trans (d_apply x1 x2 b n m)).trans
      (Cert.Spec.dist_comm _ _)

/-- The first stage at (b, n): the distance from row n of x1 to its nearest row of x2. -/
theorem fine1_apply (x1 x2 : (⟨S4x8192x3, .f32⟩ : BufTy).Contents (Elt Ideal)) (b : Fin 4) (n : Fin 8192) :
    val_main_v16 (F := Ideal) x1 x2 (ix2 b n)
      = Cert.Spec.nn (fun n k => x1 (ix3 b n k)) (fun m k => x2 (ix3 b m k)) n := by
  rw [val_main_v16_apply, Ideal.hostUnary_sqrt_def, min_last_apply]
  rfl

/-- The second stage at (b, m): the distance from row m of x2 to its nearest row of x1. -/
theorem fine2_apply (x1 x2 : (⟨S4x8192x3, .f32⟩ : BufTy).Contents (Elt Ideal)) (b : Fin 4) (mm : Fin 8192) :
    val_main_v18 (F := Ideal) x1 x2 (ix2 b mm)
      = Cert.Spec.nn (fun m k => x2 (ix3 b m k)) (fun n k => x1 (ix3 b n k)) mm := by
  rw [val_main_v18_apply, Ideal.hostUnary_sqrt_def, min_mid_apply]
  rfl

end Cert.RefSide

end
-- ==== Proof.Ref.Coarse.lean ====
/-
  The coarse term. Both programs compute, from two families of 4 × 1024 points in three coordinates, the sum over
  all points of the distance between corresponding points: Σ_b Σ_n √(Σ_k (A b n k − C b n k)²).

  The reference takes the square root of each point's sum of squared differences and adds all 4 × 1024 of them from a
  zero initial value; a sum over the index set of a 4 × 1024 array is the double sum over its two coordinates.
  The kernel adds the squared differences over the coordinate axis, takes the square root, adds over the 1024 points of
  each batch, views the four batch sums as a 4 × 1 array, adds over the batch axis and views the single sum as a 1 × 1
  array; each reduction over one axis is the sum over that axis's coordinates and each view reads the same entry.
  Only 0 + x = x is used of the extended reals.
-/
import proofs.«148603_j33663953666360_1_alg».proof.Proof.Ref.Imports
import proofs.«148603_j33663953666360_1_alg».proof.Proof.Gen.KernelIdeal.Skeleton
import proofs.«148603_j33663953666360_1_alg».proof.Proof.Spec
import Idealize.ShloMosaic.Lib.ValueIdx
import Idealize.ShloMosaic.Lib.Pipeline.Value
import Idealize.ShloMosaic.PureOps.Ideal.Laws

noncomputable section

namespace Cert.CoarseSide

open Idealize.ShloMosaic Idealize.ShloMosaic.ValueIdx Idealize.SL.Sem

/-! ## The reference's stage -/

/-- The reference's sum of the 4 × 1024 square roots, from zero, is the coarse term of its two arguments. -/
theorem ref_coarse (a g : (⟨Cert.ReferenceIdeal.S4x1024x3, .f32⟩ : BufTy).Contents (Elt Ideal)) (i : Cert.ReferenceIdeal.S_.Idx) :
    Cert.ReferenceIdeal.Read.val_main_v29 (F := Ideal) a g i
      = Cert.Spec.coarse (fun b n k => a (ix3 b n k)) (fun b n k => g (ix3 b n k)) := by
  rw [Cert.ReferenceIdeal.Read.val_main_v29_apply, Cert.ReferenceIdeal.Read.val_main_cst_11_apply]
  show Ideal.ofBits .f32 0x00000000#32 + _ = _
  rw [Ideal.ofBits_zero_f32, zero_add, sum_idx2]
  unfold Cert.Spec.coarse
  refine Finset.sum_congr rfl fun b _ => Finset.sum_congr rfl fun n _ => ?_
  rw [Cert.ReferenceIdeal.Read.val_main_v28_apply]
  show Ideal.sqrt _ = _
  refine congrArg Ideal.sqrt ?_
  rw [Cert.ReferenceIdeal.Read.val_main_v27_apply, Cert.ReferenceIdeal.Read.val_main_cst_10_apply]
  show Ideal.ofBits .f32 0x00000000#32 + _ = _
  rw [Ideal.ofBits_zero_f32, zero_add]
  refine Finset.sum_congr rfl fun k _ => ?_
  rw [Cert.ReferenceIdeal.Read.val_main_v26_apply, Cert.ReferenceIdeal.Read.val_main_v25_apply]
  have e : Cert.ReferenceIdeal.Read.idx_main_v27 (ix2 b n) k = ix3 b n k :=
    funext fun d => match d with | ⟨0, _⟩ => rfl | ⟨1, _⟩ => rfl | ⟨2, _⟩ => rfl
  rw [e]
  rfl

/-! ## The kernel's payload -/

/-- The sum over the coordinate axis of a 4 × 1024 × 3 array, at (b, n). -/
theorem sum_axis2 (x : FVec Ideal Cert.KernelIdeal.S4x1024x3 .f32) (b : Fin 4) (n : Fin 1024) :
    multiReduction (F := Ideal) .add [2] Cert.KernelIdeal.S4x1024 x 0x00000000#32
        Cert.KernelIdeal.Gen.reduces_S4x1024x3_S4x1024 (.inl rfl) rfl (ix2 b n)
      = ∑ k : Fin 3, x (ix3 b n k) := by
  refine (Ideal.multiReduction_add_single x _ Cert.KernelIdeal.Gen.reduces_S4x1024x3_S4x1024 _ _ _).trans ?_
  refine Finset.sum_congr rfl fun k _ => congrArg x ?_
  exact funext fun d => Fin.ext (match d with | ⟨0, _⟩ => rfl | ⟨1, _⟩ => rfl | ⟨2, _⟩ => rfl)

/-- The sum over the point axis of a 4 × 1024 array, at b. -/
theorem sum_axis1 (y : FVec Ideal Cert.KernelIdeal.S4x1024 .f32) (b : Fin 4) :
    multiReduction (F := Ideal) .add [1] Cert.KernelIdeal.S4 y 0x00000000#32
        Cert.KernelIdeal.Gen.reduces_S4x1024_S4 (.inl rfl) rfl (ix1 b)
      = ∑ n : Fin 1024, y (ix2 b n) := by
  refine (Ideal.multiReduction_add_single y _ Cert.KernelIdeal.Gen.reduces_S4x1024_S4 _ _ _).trans ?_
  refine Finset.sum_congr rfl fun n _ => congrArg y ?_
  exact funext fun d => Fin.ext (match d with | ⟨0, _⟩ => rfl | ⟨1, _⟩ => rfl)

/-- The sum over the batch axis of a 4 × 1 array, at its one column. -/
theorem sum_axis0 (z : FVec Ideal Cert.KernelIdeal.S4x1 .f32) (u : Fin 1) :
    multiReduction (F := Ideal) .add [0] Cert.KernelIdeal.S1 z 0x00000000#32
        Cert.KernelIdeal.Gen.reduces_S4x1_S1 (.inl rfl) rfl (ix1 u)
      = ∑ b : Fin 4, z (ix2 b u) := by
  refine (Ideal.multiReduction_add_single z _ Cert.KernelIdeal.Gen.reduces_S4x1_S1 _ _ _).trans ?_
  refine Finset.sum_congr rfl fun b _ => congrArg z ?_
  exact funext fun d => Fin.ext (match d with | ⟨0, _⟩ => rfl | ⟨1, _⟩ => rfl)

/-- Four numbers viewed as a 4 × 1 array: entry (b, u) is number b. -/
theorem cast_4_4x1 {α : Type} (w : Cert.KernelIdeal.S4.Idx → α) (b : Fin 4) (u : Fin 1) :
    shapeCast Cert.KernelIdeal.S4x1 w Cert.KernelIdeal.Gen.shapeCasts_S4_S4x1 (ix2 b u) = w (ix1 b) := by
  refine shapeCast_apply w _ _ _ ?_
  rw [Shape.rowMajor_val_one, Shape.rowMajor_val_two]
  have hu : u.val < 1 := u.isLt
  show b.val = b.val * 1 + u.val
  omega

/-- One number viewed as a 1 × 1 array: its one entry is that number. -/
theorem cast_1_1x1 {α : Type} (w : Cert.KernelIdeal.S1.Idx → α) (j : Cert.KernelIdeal.S1x1.Idx) :
    shapeCast Cert.KernelIdeal.S1x1 w Cert.KernelIdeal.Gen.shapeCasts_S1_S1x1 j = w (ix1 (0 : Fin 1)) := by
  refine shapeCast_apply w _ _ _ ?_
  rw [Shape.rowMajor_val_one, Shape.rowMajor_val_two]
  have h0 : (j 0).val < 1 := (j 0).isLt
  have h1 : (j 1).val < 1 := (j 1).isLt
  show (0 : Nat) = (j 0).val * 1 + (j 1).val
  omega

/-- The coarse kernel's one stored entry is the coarse term of the two blocks it read. -/
theorem ker_coarse (v0 v1 : Vec Ideal Cert.KernelIdeal.S4x1024x3 .f32) (j : Cert.KernelIdeal.S1x1.Idx) :
    Cert.KernelIdeal.Gen.k2_pay1 (F := Ideal) v0 v1 j
      = Cert.Spec.coarse (fun b n k => v0 (ix3 b n k)) (fun b n k => v1 (ix3 b n k)) := by
  unfold Cert.KernelIdeal.Gen.k2_pay1
  refine (cast_1_1x1 _ j).trans ?_
  refine (sum_axis0 _ 0).trans ?_
  unfold Cert.Spec.coarse
  refine Finset.sum_congr rfl fun b _ => ?_
  refine (cast_4_4x1 _ b 0).trans ?_
  refine (sum_axis1 _ b).trans ?_
  refine Finset.sum_congr rfl fun n _ => ?_
  show Ideal.sqrt _ = _
  refine congrArg Ideal.sqrt ?_
  refine (sum_axis2 _ b n).trans ?_
  rfl

end Cert.CoarseSide

end
-- ==== Proof.Alg.lean ====
/-
  The two programs compute the same two numbers.

  The first launch's output array is, entry by entry, the reference's stage "√ of the row minimum of the clamped
  squared-distance matrix"; the second launch's is the stage "√ of the column minimum", because the clamped squared
  distance is symmetric in its two points; the third launch's one entry is the reference's double sum of point
  distances. From these arrays on, both programs apply the same host operations (sum, divide by 32768, add, halve;
  divide by 4096), so the results are equal. Nothing here needs the inputs to be finite.
-/
import proofs.«148603_j33663953666360_1_alg».proof.Proof.KI.Tail
import proofs.«148603_j33663953666360_1_alg».proof.Proof.KI.Val.R0
import proofs.«148603_j33663953666360_1_alg».proof.Proof.KI.Val.R1
import proofs.«148603_j33663953666360_1_alg».proof.Proof.KI.Val.R2
import proofs.«148603_j33663953666360_1_alg».proof.Proof.Ref.Fine
import proofs.«148603_j33663953666360_1_alg».proof.Proof.Ref.Coarse
import Idealize.ShloMosaic.Lib.Pipeline.Value
import Idealize.ShloMosaic.Lib.ValueIdx

set_option maxRecDepth 16384

noncomputable section

namespace Cert.Proof.Alg

open Idealize.ShloMosaic Idealize.ShloMosaic.TcCoe Idealize.SL.Sem Idealize.ShloMosaic.ValueIdx
open Cert.KernelIdeal Cert.KernelIdeal.Gen Cert.KernelIdeal.Fr

variable (m : (ℓ : Loc nD τ sig) → Buf (Elt Ideal) ℓ)

/-- The first launch's array is the reference's first nearest-neighbour stage of the two fine arrays. -/
theorem out0_eq (c : Dev nD) :
    out0 m c = Cert.ReferenceIdeal.Read.val_main_v16 (F := Ideal) (m ((c : Thread nD τ).loc main_arg1)) (m ((c : Thread nD τ).loc main_arg2)) := by
  funext i
  rw [eq_ix2 i]
  exact (Cert.KernelIdeal.Val0.out0_apply (rd (V0 m)) c (i 0) (i 1)).trans (Cert.RefSide.fine1_apply _ _ (i 0) (i 1)).symm

/-- The second launch's array is the reference's second stage (the minimum down the other axis). -/
theorem out1_eq (c : Dev nD) :
    out1 m c = Cert.ReferenceIdeal.Read.val_main_v18 (F := Ideal) (m ((c : Thread nD τ).loc main_arg1)) (m ((c : Thread nD τ).loc main_arg2)) := by
  funext i
  rw [eq_ix2 i]
  refine (Cert.KernelIdeal.Val1.out1_apply (rd (U2 m)) c (i 0) (i 1)).trans ?_
  rw [show rd (U2 m) c main_arg2 = m ((c : Thread nD τ).loc main_arg2) from U2_arg m c main_arg2 (by decide) (by decide),
    show rd (U2 m) c main_arg1 = m ((c : Thread nD τ).loc main_arg1) from U2_arg m c main_arg1 (by decide) (by decide)]
  exact (Cert.RefSide.fine2_apply _ _ (i 0) (i 1)).symm

/-- The third launch's one entry, read as a scalar, is the reference's sum of point distances. -/
theorem out2_eq (c : Dev nD) :
    (fun i => shapeCast S_ (out2 m c) shapeCasts_S1x1_S_ i)
      = Cert.ReferenceIdeal.Read.val_main_v29 (F := Ideal) (m ((c : Thread nD τ).loc main_arg0)) (m ((c : Thread nD τ).loc main_arg3)) := by
  funext i
  have hk : ((S1x1 : Shape).rowMajor (ix2 (0 : Fin 1) (0 : Fin 1))).val = ((S_ : Shape).rowMajor i).val := by
    have h1 := ((S1x1 : Shape).rowMajor (ix2 (0 : Fin 1) (0 : Fin 1))).isLt
    have h2 := ((S_ : Shape).rowMajor i).isLt
    have e1 : (S1x1 : Shape).numel = 1 := by decide
    have e2 : (S_ : Shape).numel = 1 := by decide
    omega
  rw [shapeCast_apply (out2 m c) shapeCasts_S1x1_S_ i (ix2 (0 : Fin 1) (0 : Fin 1)) hk]
  rw [show out2 m c = k2_pay1 (rd (U4 m) c main_arg0) (rd (U4 m) c main_arg3) from Cert.KernelIdeal.Val2.out2_eq (rd (U4 m)) c]
  rw [show rd (U4 m) c main_arg0 = m ((c : Thread nD τ).loc main_arg0) from U4_arg m c main_arg0 (by decide) (by decide) (by decide) (by decide),
    show rd (U4 m) c main_arg3 = m ((c : Thread nD τ).loc main_arg3) from U4_arg m c main_arg3 (by decide) (by decide) (by decide) (by decide)]
  exact (Cert.CoarseSide.ker_coarse _ _ _).trans (Cert.CoarseSide.ref_coarse _ _ i).symm

end Cert.Proof.Alg

end
-- ==== Proof.lean ====
/-
  The chamfer loss of two point clouds, computed by three kernel launches, against its plain reference.

  Fine term: for every point of one cloud the square root of the least clamped squared distance to the other
  cloud's points, summed over the cloud, both ways round, each sum over 32768, added and halved. A kernel launch
  computes one direction: a grid of 8 query tiles by 16 candidate tiles keeps a running minimum per query in a
  scratch buffer, reset at the first candidate tile, lowered at every tile, and square-rooted into the output at the
  last. The minimum over 8192 candidates is the minimum over 16 tiles of the minima over 512, and the clamped
  squared distance is symmetric, so the two launches are the reference's row minima and column minima.
  Coarse term: the sum over all points of the distance between corresponding points, over 4096; the third launch
  sums it in one block, row sums first, where the reference sums everything at once.

  The three frames: each launch is a region of the program whose proof data name what the body leaves at every
  grid point (the scratch's contents carried in the region's invariant); the host operations between them are the
  program's own stretches. The idealization rewrote nothing, so `preserves` is trivial. Equality of the results is
  index by index over the extended reals and uses only that + and · are commutative and associative and that min
  is a lattice operation: the precondition (finite inputs) is never opened.
-/
import proofs.«148603_j33663953666360_1_alg».proof.Defs
import proofs.«148603_j33663953666360_1_alg».proof.Proof.Gen.Kernel
import proofs.«148603_j33663953666360_1_alg».proof.Proof.Gen.KernelIdeal
import proofs.«148603_j33663953666360_1_alg».proof.Proof.Gen.ReferenceIdeal
import proofs.«148603_j33663953666360_1_alg».proof.Proof.Gen.Pre_finite_inputs
import proofs.«148603_j33663953666360_1_alg».proof.Proof.Gen.ReferenceIdeal.Run
import proofs.«148603_j33663953666360_1_alg».proof.Proof.K.Frame
import proofs.«148603_j33663953666360_1_alg».proof.Proof.KI.Frame
import proofs.«148603_j33663953666360_1_alg».proof.Proof.KI.Tail
import proofs.«148603_j33663953666360_1_alg».proof.Proof.Alg
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Fr.frame (F := Bits) m ρ

/-- So does the idealized program. -/
theorem frame_ki : Cert.frame_KernelIdeal := fun m ρ _ => Cert.KernelIdeal.Fr.frame (F := Ideal) m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

section
open Cert.KernelIdeal Cert.KernelIdeal.Gen Cert.KernelIdeal.Fr

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Both idealized programs, from memories that agree on the arguments, end with the same two results. -/
theorem algebraic : Cert.algebraic_KernelIdeal_ReferenceIdeal := by
  intro m ρ m' ρ' _ hagree
  refine ⟨fun c => U6 m c main_v10, fun c => U6 m c main_v7, ?_, ?_⟩
  · refine (θ_run Cert.KernelIdeal.defs _ _).mono (fun r hr c => ?_) (run_all (F := Ideal) m ρ)
    exact ⟨hr c _ (mem_uc main_v10 (by decide)), hr c _ (mem_uc main_v7 (by decide)),
      (hr c _ (mem_uc main_arg0 (by decide))).trans (U6_arg m c main_arg0 (by decide) (by decide) (by decide) (by decide) (by decide) (by decide)),
      (hr c _ (mem_uc main_arg1 (by decide))).trans (U6_arg m c main_arg1 (by decide) (by decide) (by decide) (by decide) (by decide) (by decide)),
      (hr c _ (mem_uc main_arg2 (by decide))).trans (U6_arg m c main_arg2 (by decide) (by decide) (by decide) (by decide) (by decide) (by decide)),
      (hr c _ (mem_uc main_arg3 (by decide))).trans (U6_arg m c main_arg3 (by decide) (by decide) (by decide) (by decide) (by decide) (by decide))⟩
  · refine (θ_run Cert.ReferenceIdeal.defs _ _).mono (fun r h c => ⟨(h c).1.trans ?_, (h c).2.1.trans ?_, (h c).2.2⟩)
      (Cert.ReferenceIdeal.Value.run (F := Ideal) m' ρ')
    · -- the coarse loss
      rw [(hagree c).1, (hagree c).2.2.2]
      refine Eq.trans ?_ (U6_v10 m c).symm
      unfold coarseTail
      rw [Cert.Proof.Alg.out2_eq m c]
      rfl
    · -- the fine loss
      rw [(hagree c).2.1, (hagree c).2.2.1]
      refine Eq.trans ?_ (U6_v7 m c).symm
      unfold fineTail
      rw [Cert.Proof.Alg.out0_eq m c, Cert.Proof.Alg.out1_eq m c]
      rfl

end

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
